-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S2x800000 : Shape := ⟨2, ![2, 800000]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S1 .f32) (main_arg6 : FVec F S800000 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S800000 .f32 := Host.absf main_arg6
  let main_cst_8 : FVec F S_ .f32 := constant S_ .f32 0x7F800000#32
  let main_v25 : FVec F S800000 .f32 := broadcastInDim S800000 ![] bcast_S_S800000 main_cst_8
  let main_v26 : IVec S800000 1 := cmpf .olt main_v24 main_v25
  let main_c_9 : IVec S_ 1 := constantI S_ 1 1#1
  let main_v27 : IVec S_ 1 := (fun x v => Host.reduce IntOp.andi x v reducesTo_S800000_S_d0 h_S_) main_v26 main_c_9
  let main_v28 : IVec S_ 1 := andi main_v23 main_v27
  main_v28

def fn {F : FTy → Type} [FloatOps F] (main_arg0 : FVec F S50000x256 .f32) (main_arg1 : FVec F S128x256 .f32) (main_arg2 : FVec F S128 .f32) (main_arg3 : FVec F S1x128 .f32) (main_arg4 : FVec F S1 .f32) (main_arg5 : IVec S2x800000 32) (main_arg6 : FVec F S800000 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg6 main_v13 main_v16
-- ==== Kernel.lean ====
abbrev S50000x256 : Shape := ⟨2, ![50000, 256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S2x800000 : Shape := ⟨2, ![2, 800000]⟩
abbrev S800000 : Shape := ⟨1, ![800000]⟩
abbrev S256x128 : Shape := ⟨2, ![256, 128]⟩
abbrev S50000x128 : Shape := ⟨2, ![50000, 128]⟩
abbrev S5000x256 : Shape := ⟨2, ![5000, 256]⟩
abbrev S5000x128 : Shape := ⟨2, ![5000, 128]⟩
abbrev S1x800000 : Shape := ⟨2, ![1, 800000]⟩
abbrev S800000x1 : Shape := ⟨2, ![800000, 1]⟩
abbrev S_ : Shape := ⟨0, ![]⟩
abbrev S800000x128 : Shape := ⟨2, ![800000, 128]⟩
abbrev S1x1 : Shape := ⟨2, ![1, 1]⟩
abbrev S5000 : Shape := ⟨1, ![5000]⟩
abbrev S5000x1 : Shape := ⟨2, ![5000, 1]⟩

abbrev nBuf : Space → Nat
  | .hbm => 33
  | .vmem => 12
  | .smem => 0
  | _ => 0

abbrev bufTy : (tb : Table) → Fin (tcTables nBuf tb) → BufTy
  | .hbm, ⟨0, _⟩ => ⟨S50000x256, .f32⟩
  | .hbm, ⟨1, _⟩ => ⟨S128x256, .f32⟩
  | .hbm, ⟨2, _⟩ => ⟨S128, .f32⟩
  | .hbm, ⟨3, _⟩ => ⟨S1x128, .f32⟩
  | .hbm, ⟨4, _⟩ => ⟨S1, .f32⟩
  | .hbm, ⟨5, _⟩ => ⟨S2x800000, .i32⟩
  | .hbm, ⟨6, _⟩ => ⟨S800000, .f32⟩
  | .hbm, ⟨7, _⟩ => ⟨S256x128, .f32⟩
  | .hbm, ⟨8, _⟩ => ⟨S1x128, .f32⟩
  | .hbm, ⟨9, _⟩ => ⟨S50000x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S800000x1, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S1x1, .f32⟩
  | .hbm, ⟨31, _⟩ => ⟨S1x1, .f32⟩
  | .hbm, ⟨32, _⟩ => ⟨S1, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v23 : BitVec 1 := Scalar.cmpi .eq arg0 c9_i32
  let v24 : BitVec 32 := Scalar.extui v23
  let c0_i32_11 : BitVec 32 := 0#32
  let v25 : BitVec 1 := Scalar.cmpi .ne v24 c0_i32_11
  v25

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  transposes_S128x256_S256x128_1_0 : S128x256.Transposes [1, 0] S256x128
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S5000x128_S5000x128 : S5000x128.ShapeCasts S5000x128
  reduces_S5000x128_S5000 : S5000x128.Reduces [1] S5000
  shapeCasts_S5000_S5000x1 : S5000.ShapeCasts S5000x1
  broadcasts_S1x1_S5000x1 : S1x1.Broadcasts S5000x1
  reduces_S5000x1_S1 : S5000x1.Reduces [0] S1
  shapeCasts_S1x1_S1 : S1x1.ShapeCasts S1
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S50000x256 : Shape := ⟨2, ![50000, 256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S2x800000 : Shape := ⟨2, ![2, 800000]⟩
abbrev S800000 : Shape := ⟨1, ![800000]⟩
abbrev S256x128 : Shape := ⟨2, ![256, 128]⟩
abbrev S50000x128 : Shape := ⟨2, ![50000, 128]⟩
abbrev S1x800000 : Shape := ⟨2, ![1, 800000]⟩
abbrev S800000x1 : Shape := ⟨2, ![800000, 1]⟩
abbrev S_ : Shape := ⟨0, ![]⟩
abbrev S800000x128 : Shape := ⟨2, ![800000, 128]⟩
abbrev S128x1 : Shape := ⟨2, ![128, 1]⟩
abbrev S50000x1 : Shape := ⟨2, ![50000, 1]⟩
abbrev S1x1 : Shape := ⟨2, ![1, 1]⟩

abbrev nBuf : Space → Nat
  | .hbm => 43
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S128x256, .f32⟩
  | .hbm, ⟨2, _⟩ => ⟨S128, .f32⟩
  | .hbm, ⟨3, _⟩ => ⟨S1x128, .f32⟩
  | .hbm, ⟨4, _⟩ => ⟨S1, .f32⟩
  | .hbm, ⟨5, _⟩ => ⟨S2x800000, .i32⟩
  | .hbm, ⟨6, _⟩ => ⟨S800000, .f32⟩
  | .hbm, ⟨7, _⟩ => ⟨S256x128, .f32⟩
  | .hbm, ⟨8, _⟩ => ⟨S50000x128, .f32⟩
  | .hbm, ⟨9, _⟩ => ⟨S1x128, .f32⟩
  | .hbm, ⟨10, _⟩ => ⟨S50000x128, .f32⟩
  | .hbm, ⟨11, _⟩ => ⟨S50000x128, .f32⟩
  | .hbm, ⟨12, _⟩ => ⟨S50000x128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S800000x1, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S800000x128, .f32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S128x1, .f32⟩
  | .hbm, ⟨34, _⟩ => ⟨S50000x1, .f32⟩
  | .hbm, ⟨35, _⟩ => ⟨S1x1, .f32⟩
  | .hbm, ⟨36, _⟩ => ⟨S50000x1, .f32⟩
  | .hbm, ⟨37, _⟩ => ⟨S50000x1, .f32⟩
  | .hbm, ⟨38, _⟩ => ⟨S50000x1, .f32⟩
  | .hbm, ⟨39, _⟩ => ⟨S50000x1, .f32⟩
  | .hbm, ⟨40, _⟩ => ⟨S_, .f32⟩
  | .hbm, ⟨41, _⟩ => ⟨S1, .f32⟩
  | .hbm, ⟨42, _⟩ => ⟨S1, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S1_d0 : S50000x1.ReducesTo [0] S1
  h_S_ : 0 < S_.numel
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KB.Linear1.lean ====
/-
  The first dense stage, h = sin(x · W1ᵀ + b1), as one region of the program: a grid of ten points, point t
  working on rows 5000·t … 5000·t + 4999 of x. Each point reads its block of x, all of W1ᵀ and the bias row, and
  stores one whole block of h: the sine of the block's matrix product with W1ᵀ plus the bias row spread over the
  block's rows. Nothing is carried from one point to the next and no branch depends on the point, so what a point
  writes back is one fixed function of the three blocks it read. Everything here is stated at an arbitrary
  valuation V of the core's buffers when the region is entered, and at any float instance.
-/
import proofs.«109729_j48069273977167_1_alg».proof.Proof.Gen.Kernel.Launch
import proofs.«109729_j48069273977167_1_alg».proof.Proof.Gen.Kernel.Skeleton
import proofs.«109729_j48069273977167_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point reads -/

/-- Window w's block at point t, read off the window's array as the region finds it. -/
def blkL (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds point t's block of x when the body runs, for any proof data over V's
    arrays whose body leaves that buffer as it found it. -/
theorem keepL_0 {c : Dev nD} (dat : Dat τ (Elt F) Unit ℕ (UR sig nD τ) ℕ cfg0 c) (hA : dat.A 0 = V c (Pipeline.arrRef spec0 0))
    (hafter : ∀ t, dat.after 0 t = blkL V c 0 t) (t : Fin cfg0.N) (d) : dat.before 0 t d = blkL V c 0 t :=
  (dat.before_in_eq_fetched 0 rfl (fun _ => rfl) (fun _ _ _ => rfl) (fun t => by rw [hafter]; unfold Dat.blockOf blkL; rw [hA]; try rfl) t d).trans
    (by unfold Dat.fetched Dat.blockOf blkL; rw [hA]; try rfl)

/-- The W1ᵀ window is fetched once; its buffer holds all of W1ᵀ at every point. -/
theorem keepL_1 {c : Dev nD} (dat : Dat τ (Elt F) Unit ℕ (UR sig nD τ) ℕ cfg0 c) (hA : dat.A 1 = V c (Pipeline.arrRef spec0 1))
    (hafter : ∀ t, dat.after 1 t = blkL V c 1 t) (t : Fin cfg0.N) (d) : dat.before 1 t d = blkL V c 1 t :=
  (dat.before_in_eq_fetched 1 rfl (fun _ => rfl) (fun _ _ _ => rfl) (fun t => by rw [hafter]; unfold Dat.blockOf blkL; rw [hA]; try rfl) t d).trans
    (by unfold Dat.fetched Dat.blockOf blkL; rw [hA]; try rfl)

/-- The bias row's window likewise. -/
theorem keepL_2 {c : Dev nD} (dat : Dat τ (Elt F) Unit ℕ (UR sig nD τ) ℕ cfg0 c) (hA : dat.A 2 = V c (Pipeline.arrRef spec0 2))
    (hafter : ∀ t, dat.after 2 t = blkL V c 2 t) (t : Fin cfg0.N) (d) : dat.before 2 t d = blkL V c 2 t :=
  (dat.before_in_eq_fetched 2 rfl (fun _ => rfl) (fun _ _ _ => rfl) (fun t => by rw [hafter]; unfold Dat.blockOf blkL; rw [hA]; try rfl) t d).trans
    (by unfold Dat.fetched Dat.blockOf blkL; rw [hA]; try rfl)

/-! ## What a point stores -/

/-- The whole of each buffer the body touches, as a rectangle. -/
abbrev rX : Rect S5000x256 := Rect.unit (s := S5000x256) ![0, 0] S5000x256.size inb_S5000x256_S5000x256_0_0
abbrev rW : Rect S256x128 := Rect.unit (s := S256x128) ![0, 0] S256x128.size inb_S256x128_S256x128_0_0
abbrev rB : Rect S1x128 := Rect.unit (s := S1x128) ![0, 0] S1x128.size inb_S1x128_S1x128_0_0
abbrev rH : Rect S5000x128 := Rect.unit (s := S5000x128) ![0, 0] S5000x128.size inb_S5000x128_S5000x128_0_0

/-- The block of h a point leaves in the output window's buffer, from the three blocks it read: the one store,
    covering the buffer, of sin(x_blk · W1ᵀ + bias). -/
def hBlock (x : Vec F S5000x256 .f32) (w : Vec F S256x128 .f32) (b : Vec F S1x128 .f32) : Vec F S5000x128 .f32 :=
  View.canon [⟨rH, k0_pay1 (View.ld x rX) (View.ld w rW) (View.ld b rB)⟩]

/-- The one store covers the output buffer. -/
theorem hBlock_cover (p : Vec F S5000x128 .f32) (y : S5000x128.Idx) :
    ∃ pc ∈ ([⟨rH, p⟩] : List (View.Piece (Elt F) S5000x128 .f32)), y ∈ pc.1.set :=
  View.cover_of_tiled [⟨rH, p⟩] S5000x128.size (by rfl) y

set_option maxHeartbeats 1000000 in
/-- The body on whole buffers: with the three inputs at x, w, b and the output buffer at anything, it runs to its
    return with the inputs untouched and the output buffer at hBlock x w b. -/
theorem lin1_triple (c : Dev nD) (E : Set ℕ) (i : grid0.Coords)
    (a1 : Memref sig .tc .vmem S5000x256 .f32) (h1 : a1.IsWhole) (a2 : Memref sig .tc .vmem S256x128 .f32) (h2 : a2.IsWhole)
    (a3 : Memref sig .tc .vmem S1x128 .f32) (h3 : a3.IsWhole) (a4 : Memref sig .tc .vmem S5000x128 .f32) (h4 : a4.IsWhole)
    (x : Vec F S5000x256 .f32) (w : Vec F S256x128 .f32) (b : Vec F S1x128 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (hBlock x w b)) -∗ K ⟨⟩))
      ⊢ wp frame (wpE (defs₀ (F := F)) Variants.none c none) E (cc0__linear1_kernel i a1 h1 a2 h2 a3 h3 a4 h4) K := by
  simp only [cc0__linear1_kernel_eq_skeleton]; unfold cc0__linear1_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (hBlock_cover _)

/-! ## The region's proof data -/

/-- The proof data of the region at entry contents V: the four arrays as found; after the body at point t the
    inputs' buffers at their blocks and the output's at hBlock of them; the invariant just the scoped buffers the
    region does not stage and the generator register, untouched; nothing owed; full shares. -/
def datL (c : Dev nD) : Dat τ (Elt F) Unit ℕ (UR sig nD τ) ℕ cfg0 c where
  A w := V c (Pipeline.arrRef spec0 w)
  after w t := match w with
    | ⟨0, _⟩ => blkL V c 0 t
    | ⟨1, _⟩ => blkL V c 1 t
    | ⟨2, _⟩ => blkL V c 2 t
    | ⟨3, _⟩ => hBlock (blkL V c 0 t) (blkL V c 1 t) (blkL V c 2 t)
  Φ _ := Pipeline.ΦA spec0 c
  q _ := fullShare
  owed _ := 0

theorem datL_A (c : Dev nD) (w : Fin cfg0.W) : (datL V c).A w = V c (Pipeline.arrRef spec0 w) := by
  dsimp only [datL]

theorem datL_after0 (c : Dev nD) (t : Fin cfg0.N) : (datL V c).after 0 t = blkL V c 0 t := by dsimp only [datL]
theorem datL_after1 (c : Dev nD) (t : Fin cfg0.N) : (datL V c).after 1 t = blkL V c 1 t := by dsimp only [datL]
theorem datL_after2 (c : Dev nD) (t : Fin cfg0.N) : (datL V c).after 2 t = blkL V c 2 t := by dsimp only [datL]
theorem datL_after3 (c : Dev nD) (t : Fin cfg0.N) :
    (datL V c).after 3 t = hBlock (blkL V c 0 t) (blkL V c 1 t) (blkL V c 2 t) := by dsimp only [datL]

theorem datL_before0 (c : Dev nD) (t : Fin cfg0.N) (d) : (datL V c).before 0 t d = blkL V c 0 t :=
  keepL_0 V (datL V c) (datL_A V c 0) (datL_after0 V c) t d
theorem datL_before1 (c : Dev nD) (t : Fin cfg0.N) (d) : (datL V c).before 1 t d = blkL V c 1 t :=
  keepL_1 V (datL V c) (datL_A V c 1) (datL_after1 V c) t d
theorem datL_before2 (c : Dev nD) (t : Fin cfg0.N) (d) : (datL V c).before 2 t d = blkL V c 2 t :=
  keepL_2 V (datL V c) (datL_A V c 2) (datL_after2 V c) t d

/-! ## The body obligation -/

/-- What the pipeline calls the body with at point t, the windows one by one, -/
def preL (c : Dev nD) (t : Fin cfg0.N) : sProp 𝕄 :=
  iprop((datL V c).Φ t.castSucc ∗ (datL V c).owesAt () t.castSucc
    ∗ (∃ d, owns (c : Thread nD τ) (st0_0 t) fullShare ((datL V c).before 0 t d))
    ∗ (∃ d, owns (c : Thread nD τ) (st0_1 t) fullShare ((datL V c).before 1 t d))
    ∗ (∃ d, owns (c : Thread nD τ) (st0_2 t) fullShare ((datL V c).before 2 t d))
    ∗ (∃ d, owns (c : Thread nD τ) (st0_3 t) fullShare ((datL V c).before 3 t d)))

/-- and what it must return. -/
def postL (c : Dev nD) (t : Fin cfg0.N) : sProp 𝕄 :=
  iprop((datL V c).Φ t.succ ∗ (datL V c).owesAt () t.succ
    ∗ owns (c : Thread nD τ) (st0_0 t) fullShare ((datL V c).after 0 t)
    ∗ owns (c : Thread nD τ) (st0_1 t) fullShare ((datL V c).after 1 t)
    ∗ owns (c : Thread nD τ) (st0_2 t) fullShare ((datL V c).after 2 t)
    ∗ owns (c : Thread nD τ) (st0_3 t) fullShare ((datL V c).after 3 t))

/-- The body at any point: the inputs' buffers hold their blocks, so the triple applies; the invariant and the
    core's dues pass through unread. -/
theorem lin1_body (c : Dev nD) (t : Fin cfg0.N) :
    preL V c t ⊢ wp frame (wpE (defs₀ (F := F)) Variants.none c none) Set.univ (bodyAt0 t) (fun _ => postL V c t) := by
  unfold preL postL bodyAt0
  simp only [datL_before0, datL_before1, datL_before2]
  rw [show (datL V c).Φ t.succ = (datL V c).Φ t.castSucc from rfl,
    show (datL V c).owesAt () t.succ = (datL V c).owesAt () t.castSucc from rfl,
    datL_after0, datL_after1, datL_after2, datL_after3]
  iintro ⟨HΦ, Ho, ⟨%d0, H0⟩, ⟨%d1, H1⟩, ⟨%d2, H2⟩, ⟨%d3, H3⟩⟩
  iapply (lin1_triple c Set.univ _ _ _ _ _ _ _ _ _ (blkL V c 0 t) (blkL V c 1 t) (blkL V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the region, at every point. -/
theorem lin1_obligation (c : Dev nD) : BodyObligation (datL (F := F) V c) (defs₀ (F := F)) Variants.none () Set.univ := fun t => by
  rw [bigSep_W0, bigSep_W0]
  exact lin1_body V c t

end Cert.Kernel.Fr

end
-- ==== Proof.KB.NormCases.lean ====
/-
  The second dense stage reduced to a norm: a grid of ten points, point t working on rows 5000·t … 5000·t + 4999
  of the aggregated features. A one-by-one accumulator lives beside the windows. The first point resets it to
  zero, every point adds its block's sum of sin(row · W2 + b2)², and the last point stores the accumulator's
  square root into the one-by-one output. So the body has two switches, both on the point alone: "is this the
  first point" and "is this the last point". This file holds what all three ways through the body share: the
  two switches in closed form, where the output window rests, the blocks the inputs' buffers hold, and the
  region's entry invariant spelled buffer by buffer.
-/
import proofs.«109729_j48069273977167_1_alg».proof.Proof.Gen.Kernel.Launch
import proofs.«109729_j48069273977167_1_alg».proof.Proof.Gen.Kernel.Skeleton
import proofs.«109729_j48069273977167_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point reads -/

/-- Window w's block at point t, read off the window's array as the region finds it. -/
def blkN (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's buffer holds point t's block of rows when the body runs, for any proof data over V's
    arrays whose body leaves that buffer as it found it. -/
theorem keepN_0 {c : Dev nD} (dat : Dat τ (Elt F) Unit ℕ (UR sig nD τ) ℕ cfg1 c) (hA : dat.A 0 = V c (Pipeline.arrRef spec1 0))
    (hafter : ∀ t, dat.after 0 t = blkN V c 0 t) (t : Fin cfg1.N) (d) : dat.before 0 t d = blkN V c 0 t :=
  (dat.before_in_eq_fetched 0 rfl (fun _ => rfl) (fun _ _ _ => rfl) (fun t => by rw [hafter]; unfold Dat.blockOf blkN; rw [hA]; try rfl) t d).trans
    (by unfold Dat.fetched Dat.blockOf blkN; rw [hA]; try rfl)

/-- The weight row W2 is fetched once; its buffer holds it at every point. -/
theorem keepN_1 {c : Dev nD} (dat : Dat τ (Elt F) Unit ℕ (UR sig nD τ) ℕ cfg1 c) (hA : dat.A 1 = V c (Pipeline.arrRef spec1 1))
    (hafter : ∀ t, dat.after 1 t = blkN V c 1 t) (t : Fin cfg1.N) (d) : dat.before 1 t d = blkN V c 1 t :=
  (dat.before_in_eq_fetched 1 rfl (fun _ => rfl) (fun _ _ _ => rfl) (fun t => by rw [hafter]; unfold Dat.blockOf blkN; rw [hA]; try rfl) t d).trans
    (by unfold Dat.fetched Dat.blockOf blkN; rw [hA]; try rfl)

/-- The bias b2's window likewise. -/
theorem keepN_2 {c : Dev nD} (dat : Dat τ (Elt F) Unit ℕ (UR sig nD τ) ℕ cfg1 c) (hA : dat.A 2 = V c (Pipeline.arrRef spec1 2))
    (hafter : ∀ t, dat.after 2 t = blkN V c 2 t) (t : Fin cfg1.N) (d) : dat.before 2 t d = blkN V c 2 t :=
  (dat.before_in_eq_fetched 2 rfl (fun _ => rfl) (fun _ _ _ => rfl) (fun t => by rw [hafter]; unfold Dat.blockOf blkN; rw [hA]; try rfl) t d).trans
    (by unfold Dat.fetched Dat.blockOf blkN; rw [hA]; try rfl)

/-! ## The two switches -/

/-- "This is the first point", as the body computes it from the grid coordinate. -/
abbrev isFirst (i : grid1.Coords) : Prop :=
  (Scalar.cmpi .ne (Scalar.extui (Scalar.cmpi .eq (BitVec.ofNat 32 (i 0).val) 0#32)) 0#32) = 1#1
/-- It is true at point 0 and nowhere else. -/
theorem isFirst_iff : ∀ t : Fin cfg1.N, isFirst (grid1.coords t) ↔ t.val = 0 :=
  (by decide +kernel : ∀ t : Fin grid1.N, isFirst (grid1.coords t) ↔ t.val = 0)

/-- "This is the last point", as the body computes it. -/
abbrev isLast (i : grid1.Coords) : Prop := k1_cond2 i = 1#1
/-- It is true at point 9 and nowhere else. -/
theorem isLast_iff : ∀ t : Fin cfg1.N, isLast (grid1.coords t) ↔ t.val = 9 :=
  (by decide +kernel : ∀ t : Fin grid1.N, isLast (grid1.coords t) ↔ t.val = 9)

/-! ## Where the windows rest -/

/-- The three inputs never rest. -/
theorem awake_0 : ∀ t : Fin cfg1.N, cfg1.idle 0 (grid1.coords t) = false := fun _ => rfl
theorem awake_1 : ∀ t : Fin cfg1.N, cfg1.idle 1 (grid1.coords t) = false := fun _ => rfl
theorem awake_2 : ∀ t : Fin cfg1.N, cfg1.idle 2 (grid1.coords t) = false := fun _ => rfl
/-- Off the last point the output window rests: nothing is stored into its buffer, -/
theorem rests_3 : ∀ t : Fin cfg1.N, ¬isLast (grid1.coords t) → cfg1.idle 3 (grid1.coords t) = true := by decide +kernel
/-- and its buffer is not written back; -/
theorem unsent_3 : ∀ t : Fin cfg1.N, ¬isLast (grid1.coords t) → (cfg1.win 3).flush t = false := by decide +kernel
/-- at the last point it is awake. -/
theorem awake_3 : ∀ t : Fin cfg1.N, isLast (grid1.coords t) → cfg1.idle 3 (grid1.coords t) = false := by decide +kernel

/-! ## The buffers the body is called on -/

abbrev bufN_0 (t : Fin cfg1.N) : Memref sig .tc .vmem S5000x128 .f32 := win1_0.stage (cfg1.slots t 0)
abbrev wholeN_0 (t : Fin cfg1.N) : (bufN_0 t).IsWhole := hstage1_0 ((cfg1.slots t 0).cast nbuf1_0)
abbrev bufN_1 (t : Fin cfg1.N) : Memref sig .tc .vmem S1x128 .f32 := win1_1.stage (cfg1.slots t 1)
abbrev wholeN_1 (t : Fin cfg1.N) : (bufN_1 t).IsWhole := hstage1_1 ((cfg1.slots t 1).cast nbuf1_1)
abbrev bufN_2 (t : Fin cfg1.N) : Memref sig .tc .vmem S1x1 .f32 := win1_2.stage (cfg1.slots t 2)
abbrev wholeN_2 (t : Fin cfg1.N) : (bufN_2 t).IsWhole := hstage1_2 ((cfg1.slots t 2).cast nbuf1_2)
abbrev bufN_3 (t : Fin cfg1.N) : Memref sig .tc .vmem S1x1 .f32 := win1_3.stage (cfg1.slots t 3)
abbrev wholeN_3 (t : Fin cfg1.N) : (bufN_3 t).IsWhole := hstage1_3 ((cfg1.slots t 3).cast nbuf1_3)
/-- The accumulator: a whole one-by-one buffer of the kernel's own. -/
abbrev accM : Memref sig .tc .vmem S1x1 .f32 := Memref.whole cc1_scratch0
/-- A view through which the accumulator's contents are stated, -/
abbrev accV : View sig .tc .vmem S1x1 .f32 := accM.view
/-- and one through which the output buffer's are (which buffer is chosen does not matter once the stores cover it). -/
abbrev outV : View sig .tc .vmem S1x1 .f32 := (Memref.whole cc1_stg3_0 : Memref sig .tc .vmem S1x1 .f32).view

/-! ## The entry invariant, buffer by buffer -/

/-- The first stage's six staging buffers, each at anything: they are the core's but not this region's to stage,
    so they ride along untouched. -/
def restL (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- Seven things and an eighth, bracketed two ways: the seventh set beside the first six. -/
theorem sep_seven_regroup {M : Type} [URA M] (A B C D E G S R : sProp M) :
    iprop((A ∗ B ∗ C ∗ D ∗ E ∗ G ∗ S) ∗ R) = iprop(((A ∗ B ∗ C ∗ D ∗ E ∗ G) ∗ S) ∗ R) := by
  have h₁ : iprop((A ∗ B ∗ C ∗ D ∗ E ∗ G ∗ S) ∗ R) ⊢ iprop(((A ∗ B ∗ C ∗ D ∗ E ∗ G) ∗ S) ∗ R) := by
    iintro ⟨⟨H1, H2, H3, H4, H5, H6, HS⟩, Hg⟩
    isplitr [Hg]
    · isplitr [HS]
      · isplitl [H1]; · iexact H1
        isplitl [H2]; · iexact H2
        isplitl [H3]; · iexact H3
        isplitl [H4]; · iexact H4
        isplitl [H5]; · iexact H5
        iexact H6
      iexact HS
    iexact Hg
  have h₂ : iprop(((A ∗ B ∗ C ∗ D ∗ E ∗ G) ∗ S) ∗ R) ⊢ iprop((A ∗ B ∗ C ∗ D ∗ E ∗ G ∗ S) ∗ R) := by
    iintro ⟨⟨⟨H1, H2, H3, H4, H5, H6⟩, HS⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      iexact HS
    iexact Hg
  exact BI.equiv_iff.mp ⟨h₁, h₂⟩

/-- What the region is entered with: those six, the accumulator at anything, the generator register at some state. -/
theorem entry_eq (c : Dev nD) :
    (Pipeline.ΦA spec1 c : sProp 𝕄)
      = iprop((restL (F := F) c ∗ (∃ d, owns (c : Thread nD τ) accM fullShare d)) ∗ (∃ r, prngReg c r)) := by
  unfold Pipeline.ΦA restL; rw [scopedRest1_eq]; simp only [accM, owns_whole]
  exact sep_seven_regroup _ _ _ _ _ _ _ _

end Cert.Kernel.Fr

end
-- ==== Proof.KB.NormRunA.lean ====
/-
  The body at the first point. The "first point" switch is on and the "last point" switch is off: the
  accumulator is read (whatever it holds), reset to zero, read back, and this block's sum of squares is added
  to it; the output buffer is not touched. The run below is stated on any five whole buffers and records, as a
  list of stores (latest first), what the accumulator ends with.
-/
import proofs.«109729_j48069273977167_1_alg».proof.Proof.KB.NormCases

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point's run: the three inputs at x, w, b and the output buffer at o are handed back as they were;
    the accumulator, entered at anything, ends with the recorded stores. -/
noncomputable def runFirst (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : isFirst i) (hl : ¬isLast i)
    (x : Vec F S5000x128 .f32) (w : Vec F S1x128 .f32) (b : Vec F S1x1 .f32) :
    { LS : List (View.Piece (Elt F) S1x1 .f32) //
      ∀ (o : Vec F S1x1 .f32) (E : Set ℕ) (K : PUnit → sProp 𝕄),
        iprop(owns (c : Thread nD τ) a1 fullShare x ∗ owns (c : Thread nD τ) a2 fullShare w ∗ owns (c : Thread nD τ) a3 fullShare b
            ∗ owns (c : Thread nD τ) a4 fullShare o ∗ (∃ d, owns (c : Thread nD τ) a5 fullShare d)
            ∗ (iprop(owns (c : Thread nD τ) a1 fullShare x ∗ owns (c : Thread nD τ) a2 fullShare w ∗ owns (c : Thread nD τ) a3 fullShare b
                ∗ owns (c : Thread nD τ) a4 fullShare o
                ∗ (∃ f, a5.view.loc (c : Thread nD τ) ↦[a5.view.set]{fullShare} a5.view.writes (Elt F) f LS)) -∗ K ⟨⟩))
          ⊢ wp frame (wpE (defs₀ (F := F)) Variants.none c none) E (cc1__linear2_normsq_kernel i a1 h1 a2 h2 a3 h3 a4 h4 a5 h5) K } := by
  refine ⟨?_, fun o E K => ?run⟩
  case run =>
    simp only [cc1__linear2_normsq_kernel_eq_skeleton]; unfold cc1__linear2_normsq_kernel_skel
    unfold owns
    iintro ⟨⟨%f1, %hf1, H1⟩, ⟨%f2, %hf2, H2⟩, ⟨%f3, %hf3, H3⟩, ⟨%f4, %hf4, H4⟩, ⟨%d5, %f5, -, H5⟩, Hk⟩
    obtain rfl := h1.eq_unread hf1; obtain rfl := h2.eq_unread hf2; obtain rfl := h3.eq_unread hf3; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.Kernel.Fr

end
-- ==== Proof.KB.NormRunB.lean ====
/-
  The body at a middle point (1 … 8). Both switches are off: the accumulator, which holds what the point before
  left, is read and this block's sum of squares is added to it; the output buffer is not touched.
-/
import proofs.«109729_j48069273977167_1_alg».proof.Proof.KB.NormRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle point's run: the three inputs at x, w, b and the output buffer at o are handed back as they were;
    the accumulator, entered at s, ends with the recorded stores. -/
noncomputable def runMiddle (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : ¬isLast i)
    (x : Vec F S5000x128 .f32) (w : Vec F S1x128 .f32) (b : Vec F S1x1 .f32) (s : Vec F S1x1 .f32) :
    { LS : List (View.Piece (Elt F) S1x1 .f32) //
      ∀ (o : Vec F S1x1 .f32) (E : Set ℕ) (K : PUnit → sProp 𝕄),
        iprop(owns (c : Thread nD τ) a1 fullShare x ∗ owns (c : Thread nD τ) a2 fullShare w ∗ owns (c : Thread nD τ) a3 fullShare b
            ∗ owns (c : Thread nD τ) a4 fullShare o ∗ owns (c : Thread nD τ) a5 fullShare s
            ∗ (iprop(owns (c : Thread nD τ) a1 fullShare x ∗ owns (c : Thread nD τ) a2 fullShare w ∗ owns (c : Thread nD τ) a3 fullShare b
                ∗ owns (c : Thread nD τ) a4 fullShare o
                ∗ (∃ f, a5.view.loc (c : Thread nD τ) ↦[a5.view.set]{fullShare} a5.view.writes (Elt F) f LS)) -∗ K ⟨⟩))
          ⊢ wp frame (wpE (defs₀ (F := F)) Variants.none c none) E (cc1__linear2_normsq_kernel i a1 h1 a2 h2 a3 h3 a4 h4 a5 h5) K } := by
  refine ⟨?_, fun o E K => ?run⟩
  case run =>
    simp only [cc1__linear2_normsq_kernel_eq_skeleton]; unfold cc1__linear2_normsq_kernel_skel
    unfold owns
    iintro ⟨⟨%f1, %hf1, H1⟩, ⟨%f2, %hf2, H2⟩, ⟨%f3, %hf3, H3⟩, ⟨%f4, %hf4, H4⟩, ⟨%f5, %hf5, H5⟩, Hk⟩
    obtain rfl := h1.eq_unread hf1; obtain rfl := h2.eq_unread hf2; obtain rfl := h3.eq_unread hf3; obtain rfl := h4.eq_unread hf4
    obtain rfl := h5.eq_unread hf5
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.Kernel.Fr

end
-- ==== Proof.KB.NormRunC.lean ====
/-
  The body at the last point. The "first point" switch is off and the "last point" switch is on: the
  accumulator is updated as at a middle point, then read once more, and its square root is stored over the
  whole output buffer (which is read first, whatever it holds).
-/
import proofs.«109729_j48069273977167_1_alg».proof.Proof.KB.NormRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point's run: the three inputs at x, w, b are handed back as they were; the output buffer, entered
    at anything, and the accumulator, entered at s, end with the recorded stores. -/
noncomputable def runLast (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : isLast i)
    (x : Vec F S5000x128 .f32) (w : Vec F S1x128 .f32) (b : Vec F S1x1 .f32) (s : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) a1 fullShare x ∗ owns (c : Thread nD τ) a2 fullShare w ∗ owns (c : Thread nD τ) a3 fullShare b
            ∗ (∃ d, owns (c : Thread nD τ) a4 fullShare d) ∗ owns (c : Thread nD τ) a5 fullShare s
            ∗ (iprop(owns (c : Thread nD τ) a1 fullShare x ∗ owns (c : Thread nD τ) a2 fullShare w ∗ owns (c : Thread nD τ) a3 fullShare b
                ∗ (∃ f, a4.view.loc (c : Thread nD τ) ↦[a4.view.set]{fullShare} a4.view.writes (Elt F) f LO)
                ∗ (∃ f, a5.view.loc (c : Thread nD τ) ↦[a5.view.set]{fullShare} a5.view.writes (Elt F) f LS)) -∗ K ⟨⟩))
          ⊢ wp frame (wpE (defs₀ (F := F)) Variants.none c none) E (cc1__linear2_normsq_kernel i a1 h1 a2 h2 a3 h3 a4 h4 a5 h5) K } := by
  refine ⟨?_, ?_, fun E K => ?run⟩
  case run =>
    simp only [cc1__linear2_normsq_kernel_eq_skeleton]; unfold cc1__linear2_normsq_kernel_skel
    unfold owns
    iintro ⟨⟨%f1, %hf1, H1⟩, ⟨%f2, %hf2, H2⟩, ⟨%f3, %hf3, H3⟩, ⟨%d4, %f4, -, H4⟩, ⟨%f5, %hf5, H5⟩, Hk⟩
    obtain rfl := h1.eq_unread hf1; obtain rfl := h2.eq_unread hf2; obtain rfl := h3.eq_unread hf3
    obtain rfl := h5.eq_unread hf5
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexists _; iexact H4
    iexists _; iexact H5

end Cert.Kernel.Fr

end
-- ==== Proof.KB.Norm.lean ====
/-
  The norm stage as one region of the program: what the accumulator and the output buffer hold after each of
  the ten points, the invariant that carries the accumulator from point to point, the region's proof data and
  the obligation that the body, run at any point, keeps all of it. The accumulator after point 0 is zero plus
  block 0's sum of squares; after point n + 1 it is its value after point n plus block n + 1's sum of squares;
  the output buffer after point 9 is the square root of the accumulator after point 9.
-/
import proofs.«109729_j48069273977167_1_alg».proof.Proof.KB.NormRunC
import proofs.«109729_j48069273977167_1_alg».proof.Proof.Gen.Kernel.Launch
import proofs.«109729_j48069273977167_1_alg».proof.Proof.Gen.Kernel.Skeleton
import proofs.«109729_j48069273977167_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each way through the body leaves -/

/-- The whole of a one-by-one buffer is the rectangle at the origin. -/
theorem origin11 : ((![0, 0] : Fin 2 → Nat) : Fin S1x1.rank → Nat) = fun _ => 0 := by
  funext a; fin_cases a <;> rfl
theorem origin5000x128 : ((![0, 0] : Fin 2 → Nat) : Fin S5000x128.rank → Nat) = fun _ => 0 := by
  funext a; fin_cases a <;> rfl
theorem origin1x128 : ((![0, 0] : Fin 2 → Nat) : Fin S1x128.rank → Nat) = fun _ => 0 := by
  funext a; fin_cases a <;> rfl

/-- The first point's stores into the accumulator cover it. -/
theorem coverFirst (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : isFirst i) (hl : ¬isLast i) (x : Vec F S5000x128 .f32) (w : Vec F S1x128 .f32) (b : Vec F S1x1 .f32) (y : S1x1.Idx) :
    ∃ pc ∈ (runFirst c i a1 h1 a2 h2 a3 h3 a4 h4 a5 h5 hf hl x w b).1, y ∈ pc.1.set :=
  View.cover_of_tiledL (runFirst c i a1 h1 a2 h2 a3 h3 a4 h4 a5 h5 hf hl x w b).1 S1x1.size (by sl_kernel_rfl) y

/-- What the first point leaves in the accumulator. -/
def accFirst (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : isFirst i) (hl : ¬isLast i) (x : Vec F S5000x128 .f32) (w : Vec F S1x128 .f32) (b : Vec F S1x1 .f32) : Vec F S1x1 .f32 :=
  accV.read (Elt F) (accV.writes (Elt F) accV.junk (runFirst c i a1 h1 a2 h2 a3 h3 a4 h4 a5 h5 hf hl x w b).1)

/-- It is the zero the accumulator was reset to plus the block's sum of squares. -/
theorem accFirst_eq (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : isFirst i) (hl : ¬isLast i) (x : Vec F S5000x128 .f32) (w : Vec F S1x128 .f32) (b : Vec F S1x1 .f32) :
    accFirst c i a1 h1 a2 h2 a3 h3 a4 h4 a5 h5 hf hl x w b = k1_pay2 x w b (k1_pay1 (F := F)) := by
  unfold accFirst
  rw [View.read_writes_eq_canon _ _ _ (coverFirst c i a1 h1 a2 h2 a3 h3 a4 h4 a5 h5 hf hl x w b)]
  unfold runFirst
  dsimp only
  sl_unfold_words
  rw [View.canon_cons_unit_zero (S := S1x1) origin11]
  simp only [View.readAt_eq_ld, h1.read_unread, h2.read_unread, h3.read_unread, View.ld_unit_zero (S := S5000x128) origin5000x128,
    View.ld_unit_zero (S := S1x128) origin1x128, View.ld_unit_zero (S := S1x1) origin11, View.readCov_unit_zero (S := S1x1) _ origin11]

/-- A middle point's stores into the accumulator cover it. -/
theorem coverMiddle (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : ¬isLast i) (x : Vec F S5000x128 .f32) (w : Vec F S1x128 .f32) (b : Vec F S1x1 .f32) (s : Vec F S1x1 .f32) (y : S1x1.Idx) :
    ∃ pc ∈ (runMiddle c i a1 h1 a2 h2 a3 h3 a4 h4 a5 h5 hf hl x w b s).1, y ∈ pc.1.set :=
  View.cover_of_tiledL (runMiddle c i a1 h1 a2 h2 a3 h3 a4 h4 a5 h5 hf hl x w b s).1 S1x1.size (by sl_kernel_rfl) y

/-- What a middle point leaves in the accumulator, entered at s. -/
def accMiddle (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : ¬isLast i) (x : Vec F S5000x128 .f32) (w : Vec F S1x128 .f32) (b : Vec F S1x1 .f32) (s : Vec F S1x1 .f32) : Vec F S1x1 .f32 :=
  accV.read (Elt F) (accV.writes (Elt F) accV.junk (runMiddle c i a1 h1 a2 h2 a3 h3 a4 h4 a5 h5 hf hl x w b s).1)

/-- It is s plus the block's sum of squares. -/
theorem accMiddle_eq (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : ¬isLast i) (x : Vec F S5000x128 .f32) (w : Vec F S1x128 .f32) (b : Vec F S1x1 .f32) (s : Vec F S1x1 .f32) :
    accMiddle c i a1 h1 a2 h2 a3 h3 a4 h4 a5 h5 hf hl x w b s = k1_pay2 x w b s := by
  unfold accMiddle
  rw [View.read_writes_eq_canon _ _ _ (coverMiddle c i a1 h1 a2 h2 a3 h3 a4 h4 a5 h5 hf hl x w b s)]
  unfold runMiddle
  dsimp only
  sl_unfold_words
  rw [View.canon_unit_zero (S := S1x1) origin11]
  simp only [View.readAt_eq_ld, h1.read_unread, h2.read_unread, h3.read_unread, h5.read_unread, View.ld_unit_zero (S := S5000x128) origin5000x128,
    View.ld_unit_zero (S := S1x128) origin1x128, View.ld_unit_zero (S := S1x1) origin11]

/-- The last point's stores into the accumulator cover it, -/
theorem coverLastAcc (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : isLast i) (x : Vec F S5000x128 .f32) (w : Vec F S1x128 .f32) (b : Vec F S1x1 .f32) (s : Vec F S1x1 .f32) (y : S1x1.Idx) :
    ∃ pc ∈ (runLast c i a1 h1 a2 h2 a3 h3 a4 h4 a5 h5 hf hl x w b s).2.1, y ∈ pc.1.set :=
  View.cover_of_tiledL (runLast c i a1 h1 a2 h2 a3 h3 a4 h4 a5 h5 hf hl x w b s).2.1 S1x1.size (by sl_kernel_rfl) y

/-- and its one store into the output buffer covers that. -/
theorem coverLastOut (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : isLast i) (x : Vec F S5000x128 .f32) (w : Vec F S1x128 .f32) (b : Vec F S1x1 .f32) (s : Vec F S1x1 .f32) (y : S1x1.Idx) :
    ∃ pc ∈ (runLast c i a1 h1 a2 h2 a3 h3 a4 h4 a5 h5 hf hl x w b s).1, y ∈ pc.1.set :=
  View.cover_of_tiledL (runLast c i a1 h1 a2 h2 a3 h3 a4 h4 a5 h5 hf hl x w b s).1 S1x1.size (by sl_kernel_rfl) y

/-- What the last point leaves in the accumulator, entered at s, -/
def accLast (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : isLast i) (x : Vec F S5000x128 .f32) (w : Vec F S1x128 .f32) (b : Vec F S1x1 .f32) (s : Vec F S1x1 .f32) : Vec F S1x1 .f32 :=
  accV.read (Elt F) (accV.writes (Elt F) accV.junk (runLast c i a1 h1 a2 h2 a3 h3 a4 h4 a5 h5 hf hl x w b s).2.1)

/-- and in the output buffer. -/
def outLast (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : isLast i) (x : Vec F S5000x128 .f32) (w : Vec F S1x128 .f32) (b : Vec F S1x1 .f32) (s : Vec F S1x1 .f32) : Vec F S1x1 .f32 :=
  outV.read (Elt F) (outV.writes (Elt F) outV.junk (runLast c i a1 h1 a2 h2 a3 h3 a4 h4 a5 h5 hf hl x w b s).1)

/-- The accumulator: s plus the block's sum of squares, as at a middle point. -/
theorem accLast_eq (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : isLast i) (x : Vec F S5000x128 .f32) (w : Vec F S1x128 .f32) (b : Vec F S1x1 .f32) (s : Vec F S1x1 .f32) :
    accLast c i a1 h1 a2 h2 a3 h3 a4 h4 a5 h5 hf hl x w b s = k1_pay2 x w b s := by
  unfold accLast
  rw [View.read_writes_eq_canon _ _ _ (coverLastAcc c i a1 h1 a2 h2 a3 h3 a4 h4 a5 h5 hf hl x w b s)]
  unfold runLast
  dsimp only
  sl_unfold_words
  rw [View.canon_unit_zero (S := S1x1) origin11]
  simp only [View.readAt_eq_ld, h1.read_unread, h2.read_unread, h3.read_unread, h5.read_unread, View.ld_unit_zero (S := S5000x128) origin5000x128,
    View.ld_unit_zero (S := S1x128) origin1x128, View.ld_unit_zero (S := S1x1) origin11]

/-- The output: the square root of what the accumulator has just been brought to. -/
theorem outLast_eq (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : isLast i) (x : Vec F S5000x128 .f32) (w : Vec F S1x128 .f32) (b : Vec F S1x1 .f32) (s : Vec F S1x1 .f32) :
    outLast c i a1 h1 a2 h2 a3 h3 a4 h4 a5 h5 hf hl x w b s = k1_pay3 (accLast c i a1 h1 a2 h2 a3 h3 a4 h4 a5 h5 hf hl x w b s) := by
  rw [accLast_eq]
  unfold outLast
  rw [View.read_writes_eq_canon _ _ _ (coverLastOut c i a1 h1 a2 h2 a3 h3 a4 h4 a5 h5 hf hl x w b s)]
  unfold runLast
  dsimp only
  sl_unfold_words
  rw [View.canon_unit_zero (S := S1x1) origin11]
  simp only [View.readAt_eq_ld, h1.read_unread, h2.read_unread, h3.read_unread, h5.read_unread, View.ld_unit_zero (S := S5000x128) origin5000x128,
    View.ld_unit_zero (S := S1x128) origin1x128, View.ld_unit_zero (S := S1x1) origin11, View.readCov_unit_zero (S := S1x1) _ origin11]

/-! ## The accumulator and the output buffer, point by point -/

/-- What the output window's buffer (first component) and the accumulator (second) hold after the body at
    position n: the first point's result at 0; at a later point that point's result over what the point before
    left in the accumulator. Off the last point the body leaves the output buffer alone, and the first component
    is a placeholder (the zero vector) that nothing consults. -/
def accAt (V : (c : Dev nD) → (b : Ref sig .tc) → Buf (Elt F) ((c : Thread nD τ).loc b)) (c : Dev nD) : (n : ℕ) → n < cfg1.N → Vec F S1x1 .f32 × Vec F S1x1 .f32
  | 0, hn => (k1_pay1 (F := F), accFirst c (grid1.coords ⟨0, hn⟩) (bufN_0 ⟨0, hn⟩) (wholeN_0 ⟨0, hn⟩) (bufN_1 ⟨0, hn⟩) (wholeN_1 ⟨0, hn⟩) (bufN_2 ⟨0, hn⟩) (wholeN_2 ⟨0, hn⟩) (bufN_3 ⟨0, hn⟩) (wholeN_3 ⟨0, hn⟩) accM (Memref.isWhole_whole _) ((isFirst_iff ⟨0, hn⟩).mpr rfl) (fun h => by have h' := (isLast_iff ⟨0, hn⟩).mp h; (try dsimp only at h'); omega) (blkN V c 0 ⟨0, hn⟩) (blkN V c 1 ⟨0, hn⟩) (blkN V c 2 ⟨0, hn⟩))
  | n + 1, hn =>
    if h9 : n + 1 = 9 then
      (outLast c (grid1.coords ⟨n + 1, hn⟩) (bufN_0 ⟨n + 1, hn⟩) (wholeN_0 ⟨n + 1, hn⟩) (bufN_1 ⟨n + 1, hn⟩) (wholeN_1 ⟨n + 1, hn⟩) (bufN_2 ⟨n + 1, hn⟩) (wholeN_2 ⟨n + 1, hn⟩) (bufN_3 ⟨n + 1, hn⟩) (wholeN_3 ⟨n + 1, hn⟩) accM (Memref.isWhole_whole _) (fun h => by have h' := (isFirst_iff ⟨n + 1, hn⟩).mp h; (try dsimp only at h'); omega) ((isLast_iff ⟨n + 1, hn⟩).mpr h9) (blkN V c 0 ⟨n + 1, hn⟩) (blkN V c 1 ⟨n + 1, hn⟩) (blkN V c 2 ⟨n + 1, hn⟩) (accAt V c n (Nat.lt_of_succ_lt hn)).2,
       accLast c (grid1.coords ⟨n + 1, hn⟩) (bufN_0 ⟨n + 1, hn⟩) (wholeN_0 ⟨n + 1, hn⟩) (bufN_1 ⟨n + 1, hn⟩) (wholeN_1 ⟨n + 1, hn⟩) (bufN_2 ⟨n + 1, hn⟩) (wholeN_2 ⟨n + 1, hn⟩) (bufN_3 ⟨n + 1, hn⟩) (wholeN_3 ⟨n + 1, hn⟩) accM (Memref.isWhole_whole _) (fun h => by have h' := (isFirst_iff ⟨n + 1, hn⟩).mp h; (try dsimp only at h'); omega) ((isLast_iff ⟨n + 1, hn⟩).mpr h9) (blkN V c 0 ⟨n + 1, hn⟩) (blkN V c 1 ⟨n + 1, hn⟩) (blkN V c 2 ⟨n + 1, hn⟩) (accAt V c n (Nat.lt_of_succ_lt hn)).2)
    else
      (k1_pay1 (F := F),
       accMiddle c (grid1.coords ⟨n + 1, hn⟩) (bufN_0 ⟨n + 1, hn⟩) (wholeN_0 ⟨n + 1, hn⟩) (bufN_1 ⟨n + 1, hn⟩) (wholeN_1 ⟨n + 1, hn⟩) (bufN_2 ⟨n + 1, hn⟩) (wholeN_2 ⟨n + 1, hn⟩) (bufN_3 ⟨n + 1, hn⟩) (wholeN_3 ⟨n + 1, hn⟩) accM (Memref.isWhole_whole _) (fun h => by have h' := (isFirst_iff ⟨n + 1, hn⟩).mp h; (try dsimp only at h'); omega) (fun h => h9 ((isLast_iff ⟨n + 1, hn⟩).mp h)) (blkN V c 0 ⟨n + 1, hn⟩) (blkN V c 1 ⟨n + 1, hn⟩) (blkN V c 2 ⟨n + 1, hn⟩) (accAt V c n (Nat.lt_of_succ_lt hn)).2)

/-- accAt at the first point. -/
theorem accAt_zero (c : Dev nD) (t : Fin cfg1.N) (h0 : t.val = 0) (h9 : ¬t.val = 9) :
    accAt V c t.val t.isLt = (k1_pay1 (F := F), accFirst c (grid1.coords t) (bufN_0 t) (wholeN_0 t) (bufN_1 t) (wholeN_1 t) (bufN_2 t) (wholeN_2 t) (bufN_3 t) (wholeN_3 t) accM (Memref.isWhole_whole _) ((isFirst_iff t).mpr h0) (fun h => h9 ((isLast_iff t).mp h)) (blkN V c 0 t) (blkN V c 1 t) (blkN V c 2 t)) := by
  obtain ⟨n, hn⟩ := t
  cases n with
  | zero => exact rfl
  | succ n => exact absurd h0 (Nat.succ_ne_zero n)

/-- accAt at a middle point. -/
theorem accAt_mid (c : Dev nD) (t : Fin cfg1.N) (h0 : ¬t.val = 0) (h9 : ¬t.val = 9) :
    accAt V c t.val t.isLt = (k1_pay1 (F := F), accMiddle c (grid1.coords t) (bufN_0 t) (wholeN_0 t) (bufN_1 t) (wholeN_1 t) (bufN_2 t) (wholeN_2 t) (bufN_3 t) (wholeN_3 t) accM (Memref.isWhole_whole _) (fun h => h0 ((isFirst_iff t).mp h)) (fun h => h9 ((isLast_iff t).mp h)) (blkN V c 0 t) (blkN V c 1 t) (blkN V c 2 t)
      (accAt V c (t.val - 1) (Nat.lt_of_le_of_lt (Nat.sub_le _ _) t.isLt)).2) := by
  obtain ⟨n, hn⟩ := t
  cases n with
  | zero => exact absurd rfl h0
  | succ n => exact (dif_neg h9).trans rfl

/-- accAt at the last point. -/
theorem accAt_end (c : Dev nD) (t : Fin cfg1.N) (h0 : ¬t.val = 0) (h9 : t.val = 9) :
    accAt V c t.val t.isLt = (outLast c (grid1.coords t) (bufN_0 t) (wholeN_0 t) (bufN_1 t) (wholeN_1 t) (bufN_2 t) (wholeN_2 t) (bufN_3 t) (wholeN_3 t) accM (Memref.isWhole_whole _) (fun h => h0 ((isFirst_iff t).mp h)) ((isLast_iff t).mpr h9) (blkN V c 0 t) (blkN V c 1 t) (blkN V c 2 t)
        (accAt V c (t.val - 1) (Nat.lt_of_le_of_lt (Nat.sub_le _ _) t.isLt)).2,
      accLast c (grid1.coords t) (bufN_0 t) (wholeN_0 t) (bufN_1 t) (wholeN_1 t) (bufN_2 t) (wholeN_2 t) (bufN_3 t) (wholeN_3 t) accM (Memref.isWhole_whole _) (fun h => h0 ((isFirst_iff t).mp h)) ((isLast_iff t).mpr h9) (blkN V c 0 t) (blkN V c 1 t) (blkN V c 2 t)
        (accAt V c (t.val - 1) (Nat.lt_of_le_of_lt (Nat.sub_le _ _) t.isLt)).2) := by
  obtain ⟨n, hn⟩ := t
  cases n with
  | zero => exact absurd rfl h0
  | succ n => exact (dif_pos h9).trans rfl

/-- The accumulator after the first point: the zero it was reset to plus the first block's sum of squares. -/
theorem accAt_first (c : Dev nD) (h0 : 0 < cfg1.N) :
    (accAt V c 0 h0).2 = k1_pay2 (blkN V c 0 ⟨0, h0⟩) (blkN V c 1 ⟨0, h0⟩) (blkN V c 2 ⟨0, h0⟩) (k1_pay1 (F := F)) := by
  have e := accAt_zero V c ⟨0, h0⟩ rfl (by show ¬(0 : ℕ) = 9; decide)
  rw [show accAt V c 0 h0 = _ from e]
  dsimp only
  exact accFirst_eq (F := F) _ _ _ _ _ _ _ _ _ _ _ _ _ _ _ _ _

/-- The accumulator after a later point: what the point before left plus this block's sum of squares. -/
theorem accAt_step (c : Dev nD) (n : ℕ) (hn : n + 1 < cfg1.N) :
    (accAt V c (n + 1) hn).2 = k1_pay2 (blkN V c 0 ⟨n + 1, hn⟩) (blkN V c 1 ⟨n + 1, hn⟩) (blkN V c 2 ⟨n + 1, hn⟩) (accAt V c n (Nat.lt_of_succ_lt hn)).2 := by
  by_cases h9 : n + 1 = 9
  · have e := accAt_end V c ⟨n + 1, hn⟩ (Nat.succ_ne_zero n) h9
    rw [show accAt V c (n + 1) hn = _ from e]
    dsimp only
    exact accLast_eq (F := F) _ _ _ _ _ _ _ _ _ _ _ _ _ _ _ _ _ _
  · have e := accAt_mid V c ⟨n + 1, hn⟩ (Nat.succ_ne_zero n) h9
    rw [show accAt V c (n + 1) hn = _ from e]
    dsimp only
    exact accMiddle_eq (F := F) _ _ _ _ _ _ _ _ _ _ _ _ _ _ _ _ _ _

/-- At the last point the output buffer holds the square root of the accumulator. -/
theorem accAt_last (c : Dev nD) (h9 : 9 < cfg1.N) :
    (accAt V c 9 h9).1 = k1_pay3 (accAt V c 9 h9).2 := by
  have e := accAt_end V c ⟨9, h9⟩ (by show ¬(9 : ℕ) = 0; decide) rfl
  rw [show accAt V c 9 h9 = _ from e]
  dsimp only
  exact outLast_eq (F := F) _ _ _ _ _ _ _ _ _ _ _ _ _ _ _ _ _ _

/-! ## The invariant and the proof data -/

/-- The invariant before position n: before the first point what the region is entered with; before a later
    point the same buffers with the accumulator at what the point before left, the first stage's staging buffers
    at anything, and the generator register at some state. -/
def PhiN (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop((restL (F := F) c ∗ owns (c : Thread nD τ) accM fullShare (accAt V c n hn).2) ∗ (∃ r, prngReg c r))

theorem PhiN_zero (c : Dev nD) (n : ℕ) (h : n ≤ cfg1.N) (hz : n = 0) : PhiN V c n h = Pipeline.ΦA spec1 c := by
  subst hz; rfl

theorem PhiN_succ (c : Dev nD) (n : ℕ) (hn : n < cfg1.N) :
    PhiN V c (n + 1) hn = iprop((restL (F := F) c ∗ owns (c : Thread nD τ) accM fullShare (accAt V c n hn).2) ∗ (∃ r, prngReg c r)) := rfl

theorem PhiN_pos (c : Dev nD) (n : ℕ) (h : n ≤ cfg1.N) (hz : n ≠ 0) :
    PhiN V c n h = iprop((restL (F := F) c ∗ owns (c : Thread nD τ) accM fullShare (accAt V c (n - 1) (by omega)).2) ∗ (∃ r, prngReg c r)) := by
  cases n with
  | zero => exact absurd rfl hz
  | succ n => rfl

/-- The region's proof data at entry contents V. -/
def datN (c : Dev nD) : Dat τ (Elt F) Unit ℕ (UR sig nD τ) ℕ cfg1 c where
  A w := V c (Pipeline.arrRef spec1 w)
  after w t := match w with
    | ⟨0, _⟩ => blkN V c 0 t
    | ⟨1, _⟩ => blkN V c 1 t
    | ⟨2, _⟩ => blkN V c 2 t
    | ⟨3, _⟩ => (accAt V c t.val t.isLt).1
  Φ t := PhiN V c t.val (Nat.le_of_lt_succ t.isLt)
  q _ := fullShare
  owed _ := 0

theorem datN_A (c : Dev nD) (w : Fin cfg1.W) : (datN V c).A w = V c (Pipeline.arrRef spec1 w) := by
  dsimp only [datN]

theorem datN_after0 (c : Dev nD) (t : Fin cfg1.N) : (datN V c).after 0 t = blkN V c 0 t := by dsimp only [datN]
theorem datN_after1 (c : Dev nD) (t : Fin cfg1.N) : (datN V c).after 1 t = blkN V c 1 t := by dsimp only [datN]
theorem datN_after2 (c : Dev nD) (t : Fin cfg1.N) : (datN V c).after 2 t = blkN V c 2 t := by dsimp only [datN]
theorem datN_after3 (c : Dev nD) (t : Fin cfg1.N) : (datN V c).after 3 t = (accAt V c t.val t.isLt).1 := by dsimp only [datN]

theorem datN_before0 (c : Dev nD) (t : Fin cfg1.N) (d) : (datN V c).before 0 t d = blkN V c 0 t :=
  keepN_0 V (datN V c) (datN_A V c 0) (datN_after0 V c) t d
theorem datN_before1 (c : Dev nD) (t : Fin cfg1.N) (d) : (datN V c).before 1 t d = blkN V c 1 t :=
  keepN_1 V (datN V c) (datN_A V c 1) (datN_after1 V c) t d
theorem datN_before2 (c : Dev nD) (t : Fin cfg1.N) (d) : (datN V c).before 2 t d = blkN V c 2 t :=
  keepN_2 V (datN V c) (datN_A V c 2) (datN_after2 V c) t d

/-- The invariant at a point's start. -/
theorem PhiN_castSucc (c : Dev nD) (t : Fin cfg1.N) :
    (datN V c).Φ t.castSucc = PhiN V c t.val (Nat.le_of_lt t.isLt) := by
  dsimp only [datN]; simp only [Fin.coe_castSucc]

/-! ## The body obligation -/

/-- What the pipeline calls the body with at point t, the windows one by one, -/
def preN (c : Dev nD) (t : Fin cfg1.N) : sProp 𝕄 :=
  iprop((datN V c).Φ t.castSucc ∗ (datN V c).owesAt () t.castSucc
    ∗ (∃ d, owns (c : Thread nD τ) (bufN_0 t) fullShare ((datN V c).before 0 t d))
    ∗ (∃ d, owns (c : Thread nD τ) (bufN_1 t) fullShare ((datN V c).before 1 t d))
    ∗ (∃ d, owns (c : Thread nD τ) (bufN_2 t) fullShare ((datN V c).before 2 t d))
    ∗ (∃ d, owns (c : Thread nD τ) (bufN_3 t) fullShare ((datN V c).before 3 t d)))

/-- and what it must return. -/
def postN (c : Dev nD) (t : Fin cfg1.N) : sProp 𝕄 :=
  iprop((datN V c).Φ t.succ ∗ (datN V c).owesAt () t.succ
    ∗ (datN V c).leavesExact 0 t
    ∗ (datN V c).leavesExact 1 t
    ∗ (datN V c).leavesExact 2 t
    ∗ (datN V c).leavesExact 3 t)

set_option maxHeartbeats 4800000 in
/-- The body at any point. The inputs' buffers hold their blocks. Which way the body goes is read off the
    point's number. At the first point the invariant hands over the accumulator at anything; later, at what the
    point before left. Each time the accumulator comes back at this point's value, by the cover of its stores;
    the output buffer comes back untouched off the last point, and at the last point at the stored square root.
    The first stage's buffers, the generator register and the core's dues pass through unread. -/
theorem norm_body (c : Dev nD) (t : Fin cfg1.N) :
    preN V c t ⊢ wp frame (wpE (defs₀ (F := F)) Variants.none c none) Set.univ (bodyAt1 t) (fun _ => postN V c t) := by
  unfold preN postN bodyAt1
  simp only [datN_before0, datN_before1, datN_before2]
  rw [show (datN V c).owesAt () t.succ = (datN V c).owesAt () t.castSucc from rfl]
  rw [show (datN V c).Φ t.succ = PhiN V c (t.val + 1) t.isLt from rfl, PhiN_succ]
  rw [show (datN V c).leavesExact 0 t = owns (c : Thread nD τ) (bufN_0 t) fullShare ((datN V c).after 0 t) from by
    unfold Dat.leavesExact; rw [awake_0 t], datN_after0]
  rw [show (datN V c).leavesExact 1 t = owns (c : Thread nD τ) (bufN_1 t) fullShare ((datN V c).after 1 t) from by
    unfold Dat.leavesExact; rw [awake_1 t], datN_after1]
  rw [show (datN V c).leavesExact 2 t = owns (c : Thread nD τ) (bufN_2 t) fullShare ((datN V c).after 2 t) from by
    unfold Dat.leavesExact; rw [awake_2 t], datN_after2]
  have hN : t.val < 10 := lt_of_lt_of_eq t.isLt (show cfg1.N = 10 from N_1)
  by_cases h0 : t.val = 0
  · -- the first point
    have h9 : ¬t.val = 9 := by omega
    rw [Dat.leavesExact_idle (datN V c) 3 t (rests_3 t (fun h => h9 ((isLast_iff t).mp h))) (unsent_3 t (fun h => h9 ((isLast_iff t).mp h)))]
    rw [accAt_zero V c t h0 h9]
    unfold accFirst; (try dsimp only)
    rw [PhiN_castSucc V c t, PhiN_zero V c _ _ h0, entry_eq]
    iintro ⟨⟨⟨HR, HS⟩, Hg⟩, Ho, ⟨%d0, H0⟩, ⟨%d1, H1⟩, ⟨%d2, H2⟩, ⟨%d3, H3⟩⟩
    iapply ((runFirst c (grid1.coords t) _ _ _ _ _ _ _ _ _ _ ((isFirst_iff t).mpr h0) (fun h => h9 ((isLast_iff t).mp h)) (blkN V c 0 t) (blkN V c 1 t) (blkN V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HR HS Hg]
    · isplitr [Hg]
      · isplitl [HR]; · iexact HR
        unfold owns; iexists _; isplitr
        swap; · iexact HS
        ipureintro; exact View.read_writes_of_cover _ _ _ _ _ (coverFirst c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · by_cases h9 : t.val = 9
    · -- the last point
      rw [show (datN V c).leavesExact 3 t = owns (c : Thread nD τ) (bufN_3 t) fullShare ((datN V c).after 3 t) from by
        unfold Dat.leavesExact; rw [awake_3 t ((isLast_iff t).mpr h9)], datN_after3]
      rw [accAt_end V c t h0 h9]
      unfold outLast accLast; (try dsimp only)
      rw [PhiN_castSucc V c t, PhiN_pos V c _ _ h0]
      iintro ⟨⟨⟨HR, HS⟩, Hg⟩, Ho, ⟨%d0, H0⟩, ⟨%d1, H1⟩, ⟨%d2, H2⟩, ⟨%d3, H3⟩⟩
      iapply ((runLast c (grid1.coords t) _ _ _ _ _ _ _ _ _ _ (fun h => h0 ((isFirst_iff t).mp h)) ((isLast_iff t).mpr h9) (blkN V c 0 t) (blkN V c 1 t) (blkN V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HR HS Hg]
      · isplitr [Hg]
        · isplitl [HR]; · iexact HR
          unfold owns; iexists _; isplitr
          swap; · iexact HS
          ipureintro; exact View.read_writes_of_cover _ _ _ _ _ (coverLastAcc c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · -- a middle point
      rw [Dat.leavesExact_idle (datN V c) 3 t (rests_3 t (fun h => h9 ((isLast_iff t).mp h))) (unsent_3 t (fun h => h9 ((isLast_iff t).mp h)))]
      rw [accAt_mid V c t h0 h9]
      unfold accMiddle; (try dsimp only)
      rw [PhiN_castSucc V c t, PhiN_pos V c _ _ h0]
      iintro ⟨⟨⟨HR, HS⟩, Hg⟩, Ho, ⟨%d0, H0⟩, ⟨%d1, H1⟩, ⟨%d2, H2⟩, ⟨%d3, H3⟩⟩
      iapply ((runMiddle c (grid1.coords t) _ _ _ _ _ _ _ _ _ _ (fun h => h0 ((isFirst_iff t).mp h)) (fun h => h9 ((isLast_iff t).mp h)) (blkN V c 0 t) (blkN V c 1 t) (blkN V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HR HS Hg]
      · isplitr [Hg]
        · isplitl [HR]; · iexact HR
          unfold owns; iexists _; isplitr
          swap; · iexact HS
          ipureintro; exact View.read_writes_of_cover _ _ _ _ _ (coverMiddle c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation for the region, at every point. -/
theorem norm_obligation (c : Dev nD) : BodyObligation (datN (F := F) V c) (defs₀ (F := F)) Variants.none () Set.univ := fun t => by
  rw [bigSep_W1, bigSep_W1]
  exact norm_body V c t

/-- What the region is entered with is the invariant before the first point. -/
theorem norm_in (c : Dev nD) : Pipeline.ΦA spec1 c ⊢ (datN V c).Φ 0 := by
  rw [show (datN V c).Φ 0 = PhiN V c 0 (Nat.zero_le _) from rfl, PhiN_zero V c 0 _ rfl]
  try exact Idealize.SL.BI.Entails.refl _

/-- After the last point the invariant gives the entry form back: what the accumulator holds is forgotten. -/
theorem norm_out (c : Dev nD) : (datN V c).Φ (Fin.last cfg1.N) ⊢ Pipeline.ΦA spec1 c := by
  have hne : (Fin.last cfg1.N).val ≠ 0 := by rw [Fin.val_last]; have : cfg1.N = 10 := N_1; omega
  rw [show (datN V c).Φ (Fin.last cfg1.N) = PhiN V c (Fin.last cfg1.N).val (Nat.le_of_lt_succ (Fin.last cfg1.N).isLt) from rfl,
    PhiN_pos V c _ _ hne, entry_eq]
  iintro ⟨⟨HR, HS⟩, Hg⟩
  isplitr [Hg]
  · isplitl [HR]; · iexact HR
    iexists _; iexact HS
  iexact Hg

end Cert.Kernel.Fr

end
-- ==== Proof.KB.Whole.lean ====
/-
  The whole program as five stretches: the host operations that lay out W1ᵀ and the bias row; the first dense stage
  (ten grid points); the host operations that gather, weight and scatter-add the hidden rows into agg and reshape
  b2; the second dense stage with the norm (ten grid points); the final reshape. What every buffer the program
  does not scope holds at each boundary is a fold from the launch memory: a host stretch applies its operations, a
  dense stage leaves its input arrays as found and its output array at what its write-backs leave. Every weakly fair
  execution terminates with each such buffer at the fold's last value; in particular no stretch writes an argument,
  so the arguments end as launched.
-/
import proofs.«109729_j48069273977167_1_alg».proof.Proof.KB.Linear1
import proofs.«109729_j48069273977167_1_alg».proof.Proof.KB.Norm
import proofs.«109729_j48069273977167_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => m ((c : Dev nD), b)
/-- After W1ᵀ and the bias row are laid out: the first dense stage's entry. -/
abbrev B1 : Dev nD → Valuation τ sig (Elt F) := fun c => StableHlo.after hostOps0 (B0 m c)
abbrev R1 : (c : Dev nD) → (b : Ref sig .tc) → Buf (Elt F) ((c : Thread nD τ).loc b) := fun c b => B1 m c b
/-- After the first dense stage: h in its array, every other buffer as the stage found it. -/
def B2 (c : Dev nD) : Valuation τ sig (Elt F) :=
  Pipeline.withArrays spec0 c (B1 m c) fun w => (datL (R1 m) c).arrAt w cfg0.N
theorem B2_arr (c : Dev nD) (w : Fin cfg0.W) :
    B2 m c (Proc.devRef .tc (Pipeline.arrRef spec0 w)) = (datL (R1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev R2 : (c : Dev nD) → (b : Ref sig .tc) → Buf (Elt F) ((c : Thread nD τ).loc b) := fun c b => B2 m c b
theorem exitL (c : Dev nD) (w : Fin cfg0.W) : (datL (R1 m) c).arrAt w cfg0.N = R2 m c (Pipeline.arrRef spec0 w) :=
  (B2_arr m c w).symm
theorem keptL (c : Dev nD) : ∀ b, b ∉ Finset.univ.image (Pipeline.arrRef spec0) → R2 m c b = R1 m c b :=
  fun b hb => B2_of_ne m c b fun w e => hb (Finset.mem_image.mpr ⟨w, Finset.mem_univ _, e⟩)

/-- After the aggregation: the second dense stage's entry. -/
abbrev B3 : Dev nD → Valuation τ sig (Elt F) := fun c => StableHlo.after hostOps1 (B2 m c)
abbrev R3 : (c : Dev nD) → (b : Ref sig .tc) → Buf (Elt F) ((c : Thread nD τ).loc b) := fun c b => B3 m c b
/-- After the second dense stage: the norm in its 1×1 array. -/
def B4 (c : Dev nD) : Valuation τ sig (Elt F) :=
  Pipeline.withArrays spec1 c (B3 m c) fun w => (datN (R3 m) c).arrAt w cfg1.N
theorem B4_arr (c : Dev nD) (w : Fin cfg1.W) :
    B4 m c (Proc.devRef .tc (Pipeline.arrRef spec1 w)) = (datN (R3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev R4 : (c : Dev nD) → (b : Ref sig .tc) → Buf (Elt F) ((c : Thread nD τ).loc b) := fun c b => B4 m c b
theorem exitN (c : Dev nD) (w : Fin cfg1.W) : (datN (R3 m) c).arrAt w cfg1.N = R4 m c (Pipeline.arrRef spec1 w) :=
  (B4_arr m c w).symm
theorem keptN (c : Dev nD) : ∀ b, b ∉ Finset.univ.image (Pipeline.arrRef spec1) → R4 m c b = R3 m c b :=
  fun b hb => B4_of_ne m c b fun w e => hb (Finset.mem_image.mpr ⟨w, Finset.mem_univ _, e⟩)

/-- After the final reshape: what the program ends with. -/
abbrev B5 : Dev nD → Valuation τ sig (Elt F) := fun c => StableHlo.after hostOps2 (B4 m c)

/-! ## No stretch writes an argument -/

theorem B1_keep (c : Dev nD) (r : Ref sig .tc) (h : r ∉ hostOps0_W) : B1 m c r = B0 m c r :=
  StableHlo.after_of_writes_sub hostOps0 _ hostOps0_writes h
theorem B3_keep (c : Dev nD) (r : Ref sig .tc) (h : r ∉ hostOps1_W) : B3 m c r = B2 m c r :=
  StableHlo.after_of_writes_sub hostOps1 _ hostOps1_writes h
theorem B5_keep (c : Dev nD) (r : Ref sig .tc) (h : r ∉ hostOps2_W) : B5 m c r = B4 m c r :=
  StableHlo.after_of_writes_sub hostOps2 _ hostOps2_writes h

/-- x is the first stage's input window 0: the stage leaves it as found. -/
theorem B5_main_arg0 (c : Dev nD) : B5 m c main_arg0 = m ((c : Thread nD τ).loc main_arg0) :=
  (B5_keep m c main_arg0 (by decide)).trans <| (B4_of_ne m c main_arg0 (by decide)).trans <| (B3_keep m c main_arg0 (by decide)).trans <|
    ((B2_arr m c 0).trans (((datL (R1 m) c).arrAt_in 0 rfl _).trans (datL_A (R1 m) c 0))).trans <| (B1_keep m c main_arg0 (by decide)).trans rfl
theorem B5_main_arg1 (c : Dev nD) : B5 m c main_arg1 = m ((c : Thread nD τ).loc main_arg1) :=
  (B5_keep m c main_arg1 (by decide)).trans <| (B4_of_ne m c main_arg1 (by decide)).trans <| (B3_keep m c main_arg1 (by decide)).trans <|
    (B2_of_ne m c main_arg1 (by decide)).trans <| (B1_keep m c main_arg1 (by decide)).trans rfl
theorem B5_main_arg2 (c : Dev nD) : B5 m c main_arg2 = m ((c : Thread nD τ).loc main_arg2) :=
  (B5_keep m c main_arg2 (by decide)).trans <| (B4_of_ne m c main_arg2 (by decide)).trans <| (B3_keep m c main_arg2 (by decide)).trans <|
    (B2_of_ne m c main_arg2 (by decide)).trans <| (B1_keep m c main_arg2 (by decide)).trans rfl
/-- W2 is the second stage's input window 1: the stage leaves it as found. -/
theorem B5_main_arg3 (c : Dev nD) : B5 m c main_arg3 = m ((c : Thread nD τ).loc main_arg3) :=
  (B5_keep m c main_arg3 (by decide)).trans <| ((B4_arr m c 1).trans (((datN (R3 m) c).arrAt_in 1 rfl _).trans (datN_A (R3 m) c 1))).trans <|
    (B3_keep m c main_arg3 (by decide)).trans <| (B2_of_ne m c main_arg3 (by decide)).trans <| (B1_keep m c main_arg3 (by decide)).trans rfl
theorem B5_main_arg4 (c : Dev nD) : B5 m c main_arg4 = m ((c : Thread nD τ).loc main_arg4) :=
  (B5_keep m c main_arg4 (by decide)).trans <| (B4_of_ne m c main_arg4 (by decide)).trans <| (B3_keep m c main_arg4 (by decide)).trans <|
    (B2_of_ne m c main_arg4 (by decide)).trans <| (B1_keep m c main_arg4 (by decide)).trans rfl
theorem B5_main_arg5 (c : Dev nD) : B5 m c main_arg5 = m ((c : Thread nD τ).loc main_arg5) :=
  (B5_keep m c main_arg5 (by decide)).trans <| (B4_of_ne m c main_arg5 (by decide)).trans <| (B3_keep m c main_arg5 (by decide)).trans <|
    (B2_of_ne m c main_arg5 (by decide)).trans <| (B1_keep m c main_arg5 (by decide)).trans rfl
theorem B5_main_arg6 (c : Dev nD) : B5 m c main_arg6 = m ((c : Thread nD τ).loc main_arg6) :=
  (B5_keep m c main_arg6 (by decide)).trans <| (B4_of_ne m c main_arg6 (by decide)).trans <| (B3_keep m c main_arg6 (by decide)).trans <|
    (B2_of_ne m c main_arg6 (by decide)).trans <| (B1_keep m c main_arg6 (by decide)).trans rfl

/-! ## The proof data of both stages, and what rides along -/

/-- Each stage's proof data at its own entry contents. -/
def stages : (p : Fin 2) → (c : Dev nD) → Dat τ (Elt F) Unit ℕ (UR sig nD τ) ℕ (Pipeline.pin (pcfgs (F := F)) adm p) c
  | ⟨0, _⟩ => fun c => datL (R1 m) c
  | ⟨1, _⟩ => fun c => datN (R3 m) c
abbrev noVar : Variants := Variants.none
/-- No core waits on another: no level is assigned. -/
abbrev noL : GSem nD τ sig → Finset Unit := fun _ => ∅
abbrev noLv : GSem nD τ sig → Unit → ℕ := fun _ _ => 0
/-- Beside the buffers, through every stretch: the generator register at some state, and the core owing nothing. -/
abbrev ride (c : Dev nD) : sProp 𝕄 := iprop((∃ r, prngReg c r) ∗ ∃ W, owes (c : Thread nD τ) (0 : CellTallies nD τ sig Unit) W)
theorem ride_owes (c : Dev nD) : ride (F := F) c ⊢ (iprop(∃ W, owes (c : Thread nD τ) (0 : CellTallies nD τ sig Unit) W) : sProp 𝕄) := by
  iintro ⟨-, HO⟩; iexact HO
/-- A host stretch over the unscoped buffers from contents W. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two dense stages as segments -/

set_option backward.isDefEq.respectTransparency.types false in
/-- The first dense stage: entered with every unscoped buffer at B1, left with them at B2. Its four arrays are taken
    out of the unscoped buffers and put back at their exit contents; the generator register goes into the stage's
    invariant and comes back; nothing is owed; the kernel has no semaphore of its own. -/
def segL : Pipeline.RegionSeg (pcfgs (F := F)) adm (stages m) () defs₀ noVar noL noLv 0 where
  win := launch0.win.to₀
  block_pos := launch0.block_pos
  stage_whole := launch0.stage_whole
  K := PEmpty
  osem k := k.elim
  ho := Pipeline.OwnSemFacts.none _
  hbody c := (lin1_obligation (R1 m) c).loose
  hwaits := Pipeline.hwaits_of_owed_zero _ _ _ _ noL noLv 0 fun _ _ => rfl
  pre c := iprop(StableHlo.held (c : Thread nD τ) (Pipeline.ucRefs τ sig) (B1 m c) ∗ ride c)
  post c := iprop(StableHlo.held (c : Thread nD τ) (Pipeline.ucRefs τ sig) (B2 m c) ∗ ride c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (stages m) launch0.win launch0.arr_whole c
      ((stages m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stages m 0 c).Φ 0 = Pipeline.ΦA spec0 c from rfl]; unfold Pipeline.ΦA
    iintro ⟨Hp, -, Hr⟩
    isplitl [Hr]; · iexact Hr
    iexact Hp
  hout c := by
    rw [Pipeline.ownSems0_none, show (stages m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (stages m) ((stages m 0 c).share_full fun _ => rfl)
      (R1 m c) (R2 m c) ((stages m 0 c).arrAt · cfg0.N) (exitL m c) (keptL m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second dense stage: entered with every unscoped buffer at B3, left with them at B4. As the first, except
    that its invariant names what the accumulator holds between points: the launch's form of it enters before the
    first point and comes back after the last. -/
def segN : Pipeline.RegionSeg (pcfgs (F := F)) adm (stages m) () defs₀ noVar noL noLv 1 where
  win := launch1.win.to₀
  block_pos := launch1.block_pos
  stage_whole := launch1.stage_whole
  K := PEmpty
  osem k := k.elim
  ho := Pipeline.OwnSemFacts.none _
  hbody c := (norm_obligation (R3 m) c).loose
  hwaits := Pipeline.hwaits_of_owed_zero _ _ _ _ noL noLv 1 fun _ _ => rfl
  pre c := iprop(StableHlo.held (c : Thread nD τ) (Pipeline.ucRefs τ sig) (B3 m c) ∗ ride c)
  post c := iprop(StableHlo.held (c : Thread nD τ) (Pipeline.ucRefs τ sig) (B4 m c) ∗ ride c)
  X c := iprop(∃ r, prngReg c r)
  Y c := iprop(∃ r, prngReg c r)
  Z c := Pipeline.unscopedRest (Ix := Unit) (Name := ℕ) (U := UR sig nD τ) (Lvl := ℕ) spec1 c (R3 m c)
  hentry c := by
    rw [Pipeline.ownSems0_none]
    have hsplit := Pipeline.arrays_of_unscopedBufs (p := 1) (pcfgs (F := F)) adm (stages m) launch1.win launch1.arr_whole c
      ((stages m 1 c).share_full fun _ => rfl) (R3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stages m 1 c).Φ 0 = (datN (R3 m) c).Φ 0 from rfl]
    have h := norm_in (R3 m) c
    unfold Pipeline.ΦA at h
    iintro ⟨Hp, -, Hr⟩
    iapply h
    isplitl [Hr]; · iexact Hr
    iexact Hp
  hout c := by
    rw [Pipeline.ownSems0_none, show (stages m 1 c).Φ (Fin.last _) = (datN (R3 m) c).Φ (Fin.last cfg1.N) from rfl]
    have h := norm_out (R3 m) c
    unfold Pipeline.ΦA at h
    iintro Hq
    ihave H := h $$ Hq
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (stages m) ((stages m 1 c).share_full fun _ => rfl)
      (R3 m c) (R4 m c) ((stages m 1 c).arrAt · cfg1.N) (exitN m c) (keptN m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its five stretches, and the run -/

abbrev stretches : List (Pipeline.Seg (pcfgs (F := F)) adm (stages m) () defs₀ noVar noL noLv) :=
  [ .host (stretch hostOps0 hostOps0_sub hostOps0_fresh (B0 m)),
    .region (segL m),
    .host (stretch hostOps1 hostOps1_sub hostOps1_fresh (B2 m)),
    .region (segN m),
    .host (stretch hostOps2 hostOps2_sub hostOps2_fresh (B4 m)) ]

theorem main_stretches (c : Dev nD) : main (F := F) c = Pipeline.Seg.run (stretches m) := (main_chain c).trans (by chain_rfl)

set_option backward.isDefEq.respectTransparency.types false in
/-- From any memory with zero counters every weakly fair execution of the program terminates, nothing faulting, and
    every buffer the program does not scope ends at the fold's last value B5. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) adm (stages m) () cellOf_inj emb₁ defs₀ noVar noL noLv m ρ main (stretches m)
    (fun c Q => by rw [main_stretches m c])
    (by simp only [stretches, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ ride c))
    (Tₙ := fun c => StableHlo.held (c : Thread nD τ) (Pipeline.ucRefs τ sig) (B5 m c))
    (hch := ⟨fun _ => .rfl, fun _ => .rfl, fun _ => .rfl, fun _ => .rfl, fun _ => .rfl, fun c => sep_mono .rfl (ride_owes c)⟩)
    (hinit := by
      refine Pipeline.initEach noL noLv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨Hh, HSI⟩
      unfold StableHlo.held
      imodintro
      iapply (pointsTo_read_all (Pipeline.ucRefs τ sig) (fun b => (((c : Thread nD τ)).1, b)) (B5 m c) s')
      isplitl [Hh] <;> iassumption)
    (hQ := fun s h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (B5_main_arg0 m c),
     (h c _ (mem_uc main_arg1 (by decide))).trans (B5_main_arg1 m c),
     (h c _ (mem_uc main_arg2 (by decide))).trans (B5_main_arg2 m c),
     (h c _ (mem_uc main_arg3 (by decide))).trans (B5_main_arg3 m c),
     (h c _ (mem_uc main_arg4 (by decide))).trans (B5_main_arg4 m c),
     (h c _ (mem_uc main_arg5 (by decide))).trans (B5_main_arg5 m c),
     (h c _ (mem_uc main_arg6 (by decide))).trans (B5_main_arg6 m c)⟩) (run_all m ρ)

end Cert.Kernel.Fr

end
-- ==== Proof.KI.Linear1.lean ====
/-
  The first dense stage, h = sin(x · W1ᵀ + b1), as one region of the program: a grid of ten points, point t
  working on rows 5000·t … 5000·t + 4999 of x. Each point reads its block of x, all of W1ᵀ and the bias row, and
  stores one whole block of h: the sine of the block's matrix product with W1ᵀ plus the bias row spread over the
  block's rows. Nothing is carried from one point to the next and no branch depends on the point, so what a point
  writes back is one fixed function of the three blocks it read. Everything here is stated at an arbitrary
  valuation V of the core's buffers when the region is entered, and at any float instance.
-/
import proofs.«109729_j48069273977167_1_alg».proof.Proof.Gen.KernelIdeal.Launch
import proofs.«109729_j48069273977167_1_alg».proof.Proof.Gen.KernelIdeal.Skeleton
import proofs.«109729_j48069273977167_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point reads -/

/-- Window w's block at point t, read off the window's array as the region finds it. -/
def blkL (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds point t's block of x when the body runs, for any proof data over V's
    arrays whose body leaves that buffer as it found it. -/
theorem keepL_0 {c : Dev nD} (dat : Dat τ (Elt F) Unit ℕ (UR sig nD τ) ℕ cfg0 c) (hA : dat.A 0 = V c (Pipeline.arrRef spec0 0))
    (hafter : ∀ t, dat.after 0 t = blkL V c 0 t) (t : Fin cfg0.N) (d) : dat.before 0 t d = blkL V c 0 t :=
  (dat.before_in_eq_fetched 0 rfl (fun _ => rfl) (fun _ _ _ => rfl) (fun t => by rw [hafter]; unfold Dat.blockOf blkL; rw [hA]; try rfl) t d).trans
    (by unfold Dat.fetched Dat.blockOf blkL; rw [hA]; try rfl)

/-- The W1ᵀ window is fetched once; its buffer holds all of W1ᵀ at every point. -/
theorem keepL_1 {c : Dev nD} (dat : Dat τ (Elt F) Unit ℕ (UR sig nD τ) ℕ cfg0 c) (hA : dat.A 1 = V c (Pipeline.arrRef spec0 1))
    (hafter : ∀ t, dat.after 1 t = blkL V c 1 t) (t : Fin cfg0.N) (d) : dat.before 1 t d = blkL V c 1 t :=
  (dat.before_in_eq_fetched 1 rfl (fun _ => rfl) (fun _ _ _ => rfl) (fun t => by rw [hafter]; unfold Dat.blockOf blkL; rw [hA]; try rfl) t d).trans
    (by unfold Dat.fetched Dat.blockOf blkL; rw [hA]; try rfl)

/-- The bias row's window likewise. -/
theorem keepL_2 {c : Dev nD} (dat : Dat τ (Elt F) Unit ℕ (UR sig nD τ) ℕ cfg0 c) (hA : dat.A 2 = V c (Pipeline.arrRef spec0 2))
    (hafter : ∀ t, dat.after 2 t = blkL V c 2 t) (t : Fin cfg0.N) (d) : dat.before 2 t d = blkL V c 2 t :=
  (dat.before_in_eq_fetched 2 rfl (fun _ => rfl) (fun _ _ _ => rfl) (fun t => by rw [hafter]; unfold Dat.blockOf blkL; rw [hA]; try rfl) t d).trans
    (by unfold Dat.fetched Dat.blockOf blkL; rw [hA]; try rfl)

/-! ## What a point stores -/

/-- The whole of each buffer the body touches, as a rectangle. -/
abbrev rX : Rect S5000x256 := Rect.unit (s := S5000x256) ![0, 0] S5000x256.size inb_S5000x256_S5000x256_0_0
abbrev rW : Rect S256x128 := Rect.unit (s := S256x128) ![0, 0] S256x128.size inb_S256x128_S256x128_0_0
abbrev rB : Rect S1x128 := Rect.unit (s := S1x128) ![0, 0] S1x128.size inb_S1x128_S1x128_0_0
abbrev rH : Rect S5000x128 := Rect.unit (s := S5000x128) ![0, 0] S5000x128.size inb_S5000x128_S5000x128_0_0

/-- The block of h a point leaves in the output window's buffer, from the three blocks it read: the one store,
    covering the buffer, of sin(x_blk · W1ᵀ + bias). -/
def hBlock (x : Vec F S5000x256 .f32) (w : Vec F S256x128 .f32) (b : Vec F S1x128 .f32) : Vec F S5000x128 .f32 :=
  View.canon [⟨rH, k0_pay1 (View.ld x rX) (View.ld w rW) (View.ld b rB)⟩]

/-- The one store covers the output buffer. -/
theorem hBlock_cover (p : Vec F S5000x128 .f32) (y : S5000x128.Idx) :
    ∃ pc ∈ ([⟨rH, p⟩] : List (View.Piece (Elt F) S5000x128 .f32)), y ∈ pc.1.set :=
  View.cover_of_tiled [⟨rH, p⟩] S5000x128.size (by rfl) y

set_option maxHeartbeats 1000000 in
/-- The body on whole buffers: with the three inputs at x, w, b and the output buffer at anything, it runs to its
    return with the inputs untouched and the output buffer at hBlock x w b. -/
theorem lin1_triple (c : Dev nD) (E : Set ℕ) (i : grid0.Coords)
    (a1 : Memref sig .tc .vmem S5000x256 .f32) (h1 : a1.IsWhole) (a2 : Memref sig .tc .vmem S256x128 .f32) (h2 : a2.IsWhole)
    (a3 : Memref sig .tc .vmem S1x128 .f32) (h3 : a3.IsWhole) (a4 : Memref sig .tc .vmem S5000x128 .f32) (h4 : a4.IsWhole)
    (x : Vec F S5000x256 .f32) (w : Vec F S256x128 .f32) (b : Vec F S1x128 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (hBlock x w b)) -∗ K ⟨⟩))
      ⊢ wp frame (wpE (defs₀ (F := F)) Variants.none c none) E (cc0__linear1_kernel i a1 h1 a2 h2 a3 h3 a4 h4) K := by
  simp only [cc0__linear1_kernel_eq_skeleton]; unfold cc0__linear1_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (hBlock_cover _)

/-! ## The region's proof data -/

/-- The proof data of the region at entry contents V: the four arrays as found; after the body at point t the
    inputs' buffers at their blocks and the output's at hBlock of them; the invariant just the scoped buffers the
    region does not stage and the generator register, untouched; nothing owed; full shares. -/
def datL (c : Dev nD) : Dat τ (Elt F) Unit ℕ (UR sig nD τ) ℕ cfg0 c where
  A w := V c (Pipeline.arrRef spec0 w)
  after w t := match w with
    | ⟨0, _⟩ => blkL V c 0 t
    | ⟨1, _⟩ => blkL V c 1 t
    | ⟨2, _⟩ => blkL V c 2 t
    | ⟨3, _⟩ => hBlock (blkL V c 0 t) (blkL V c 1 t) (blkL V c 2 t)
  Φ _ := Pipeline.ΦA spec0 c
  q _ := fullShare
  owed _ := 0

theorem datL_A (c : Dev nD) (w : Fin cfg0.W) : (datL V c).A w = V c (Pipeline.arrRef spec0 w) := by
  dsimp only [datL]

theorem datL_after0 (c : Dev nD) (t : Fin cfg0.N) : (datL V c).after 0 t = blkL V c 0 t := by dsimp only [datL]
theorem datL_after1 (c : Dev nD) (t : Fin cfg0.N) : (datL V c).after 1 t = blkL V c 1 t := by dsimp only [datL]
theorem datL_after2 (c : Dev nD) (t : Fin cfg0.N) : (datL V c).after 2 t = blkL V c 2 t := by dsimp only [datL]
theorem datL_after3 (c : Dev nD) (t : Fin cfg0.N) :
    (datL V c).after 3 t = hBlock (blkL V c 0 t) (blkL V c 1 t) (blkL V c 2 t) := by dsimp only [datL]

theorem datL_before0 (c : Dev nD) (t : Fin cfg0.N) (d) : (datL V c).before 0 t d = blkL V c 0 t :=
  keepL_0 V (datL V c) (datL_A V c 0) (datL_after0 V c) t d
theorem datL_before1 (c : Dev nD) (t : Fin cfg0.N) (d) : (datL V c).before 1 t d = blkL V c 1 t :=
  keepL_1 V (datL V c) (datL_A V c 1) (datL_after1 V c) t d
theorem datL_before2 (c : Dev nD) (t : Fin cfg0.N) (d) : (datL V c).before 2 t d = blkL V c 2 t :=
  keepL_2 V (datL V c) (datL_A V c 2) (datL_after2 V c) t d

/-! ## The body obligation -/

/-- What the pipeline calls the body with at point t, the windows one by one, -/
def preL (c : Dev nD) (t : Fin cfg0.N) : sProp 𝕄 :=
  iprop((datL V c).Φ t.castSucc ∗ (datL V c).owesAt () t.castSucc
    ∗ (∃ d, owns (c : Thread nD τ) (st0_0 t) fullShare ((datL V c).before 0 t d))
    ∗ (∃ d, owns (c : Thread nD τ) (st0_1 t) fullShare ((datL V c).before 1 t d))
    ∗ (∃ d, owns (c : Thread nD τ) (st0_2 t) fullShare ((datL V c).before 2 t d))
    ∗ (∃ d, owns (c : Thread nD τ) (st0_3 t) fullShare ((datL V c).before 3 t d)))

/-- and what it must return. -/
def postL (c : Dev nD) (t : Fin cfg0.N) : sProp 𝕄 :=
  iprop((datL V c).Φ t.succ ∗ (datL V c).owesAt () t.succ
    ∗ owns (c : Thread nD τ) (st0_0 t) fullShare ((datL V c).after 0 t)
    ∗ owns (c : Thread nD τ) (st0_1 t) fullShare ((datL V c).after 1 t)
    ∗ owns (c : Thread nD τ) (st0_2 t) fullShare ((datL V c).after 2 t)
    ∗ owns (c : Thread nD τ) (st0_3 t) fullShare ((datL V c).after 3 t))

/-- The body at any point: the inputs' buffers hold their blocks, so the triple applies; the invariant and the
    core's dues pass through unread. -/
theorem lin1_body (c : Dev nD) (t : Fin cfg0.N) :
    preL V c t ⊢ wp frame (wpE (defs₀ (F := F)) Variants.none c none) Set.univ (bodyAt0 t) (fun _ => postL V c t) := by
  unfold preL postL bodyAt0
  simp only [datL_before0, datL_before1, datL_before2]
  rw [show (datL V c).Φ t.succ = (datL V c).Φ t.castSucc from rfl,
    show (datL V c).owesAt () t.succ = (datL V c).owesAt () t.castSucc from rfl,
    datL_after0, datL_after1, datL_after2, datL_after3]
  iintro ⟨HΦ, Ho, ⟨%d0, H0⟩, ⟨%d1, H1⟩, ⟨%d2, H2⟩, ⟨%d3, H3⟩⟩
  iapply (lin1_triple c Set.univ _ _ _ _ _ _ _ _ _ (blkL V c 0 t) (blkL V c 1 t) (blkL V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the region, at every point. -/
theorem lin1_obligation (c : Dev nD) : BodyObligation (datL (F := F) V c) (defs₀ (F := F)) Variants.none () Set.univ := fun t => by
  rw [bigSep_W0, bigSep_W0]
  exact lin1_body V c t

end Cert.KernelIdeal.Fr

end
-- ==== Proof.KI.NormCases.lean ====
/-
  The second dense stage reduced to a norm: a grid of ten points, point t working on rows 5000·t … 5000·t + 4999
  of the aggregated features. A one-by-one accumulator lives beside the windows. The first point resets it to
  zero, every point adds its block's sum of sin(row · W2 + b2)², and the last point stores the accumulator's
  square root into the one-by-one output. So the body has two switches, both on the point alone: "is this the
  first point" and "is this the last point". This file holds what all three ways through the body share: the
  two switches in closed form, where the output window rests, the blocks the inputs' buffers hold, and the
  region's entry invariant spelled buffer by buffer.
-/
import proofs.«109729_j48069273977167_1_alg».proof.Proof.Gen.KernelIdeal.Launch
import proofs.«109729_j48069273977167_1_alg».proof.Proof.Gen.KernelIdeal.Skeleton
import proofs.«109729_j48069273977167_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point reads -/

/-- Window w's block at point t, read off the window's array as the region finds it. -/
def blkN (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's buffer holds point t's block of rows when the body runs, for any proof data over V's
    arrays whose body leaves that buffer as it found it. -/
theorem keepN_0 {c : Dev nD} (dat : Dat τ (Elt F) Unit ℕ (UR sig nD τ) ℕ cfg1 c) (hA : dat.A 0 = V c (Pipeline.arrRef spec1 0))
    (hafter : ∀ t, dat.after 0 t = blkN V c 0 t) (t : Fin cfg1.N) (d) : dat.before 0 t d = blkN V c 0 t :=
  (dat.before_in_eq_fetched 0 rfl (fun _ => rfl) (fun _ _ _ => rfl) (fun t => by rw [hafter]; unfold Dat.blockOf blkN; rw [hA]; try rfl) t d).trans
    (by unfold Dat.fetched Dat.blockOf blkN; rw [hA]; try rfl)

/-- The weight row W2 is fetched once; its buffer holds it at every point. -/
theorem keepN_1 {c : Dev nD} (dat : Dat τ (Elt F) Unit ℕ (UR sig nD τ) ℕ cfg1 c) (hA : dat.A 1 = V c (Pipeline.arrRef spec1 1))
    (hafter : ∀ t, dat.after 1 t = blkN V c 1 t) (t : Fin cfg1.N) (d) : dat.before 1 t d = blkN V c 1 t :=
  (dat.before_in_eq_fetched 1 rfl (fun _ => rfl) (fun _ _ _ => rfl) (fun t => by rw [hafter]; unfold Dat.blockOf blkN; rw [hA]; try rfl) t d).trans
    (by unfold Dat.fetched Dat.blockOf blkN; rw [hA]; try rfl)

/-- The bias b2's window likewise. -/
theorem keepN_2 {c : Dev nD} (dat : Dat τ (Elt F) Unit ℕ (UR sig nD τ) ℕ cfg1 c) (hA : dat.A 2 = V c (Pipeline.arrRef spec1 2))
    (hafter : ∀ t, dat.after 2 t = blkN V c 2 t) (t : Fin cfg1.N) (d) : dat.before 2 t d = blkN V c 2 t :=
  (dat.before_in_eq_fetched 2 rfl (fun _ => rfl) (fun _ _ _ => rfl) (fun t => by rw [hafter]; unfold Dat.blockOf blkN; rw [hA]; try rfl) t d).trans
    (by unfold Dat.fetched Dat.blockOf blkN; rw [hA]; try rfl)

/-! ## The two switches -/

/-- "This is the first point", as the body computes it from the grid coordinate. -/
abbrev isFirst (i : grid1.Coords) : Prop :=
  (Scalar.cmpi .ne (Scalar.extui (Scalar.cmpi .eq (BitVec.ofNat 32 (i 0).val) 0#32)) 0#32) = 1#1
/-- It is true at point 0 and nowhere else. -/
theorem isFirst_iff : ∀ t : Fin cfg1.N, isFirst (grid1.coords t) ↔ t.val = 0 :=
  (by decide +kernel : ∀ t : Fin grid1.N, isFirst (grid1.coords t) ↔ t.val = 0)

/-- "This is the last point", as the body computes it. -/
abbrev isLast (i : grid1.Coords) : Prop := k1_cond2 i = 1#1
/-- It is true at point 9 and nowhere else. -/
theorem isLast_iff : ∀ t : Fin cfg1.N, isLast (grid1.coords t) ↔ t.val = 9 :=
  (by decide +kernel : ∀ t : Fin grid1.N, isLast (grid1.coords t) ↔ t.val = 9)

/-! ## Where the windows rest -/

/-- The three inputs never rest. -/
theorem awake_0 : ∀ t : Fin cfg1.N, cfg1.idle 0 (grid1.coords t) = false := fun _ => rfl
theorem awake_1 : ∀ t : Fin cfg1.N, cfg1.idle 1 (grid1.coords t) = false := fun _ => rfl
theorem awake_2 : ∀ t : Fin cfg1.N, cfg1.idle 2 (grid1.coords t) = false := fun _ => rfl
/-- Off the last point the output window rests: nothing is stored into its buffer, -/
theorem rests_3 : ∀ t : Fin cfg1.N, ¬isLast (grid1.coords t) → cfg1.idle 3 (grid1.coords t) = true := by decide +kernel
/-- and its buffer is not written back; -/
theorem unsent_3 : ∀ t : Fin cfg1.N, ¬isLast (grid1.coords t) → (cfg1.win 3).flush t = false := by decide +kernel
/-- at the last point it is awake. -/
theorem awake_3 : ∀ t : Fin cfg1.N, isLast (grid1.coords t) → cfg1.idle 3 (grid1.coords t) = false := by decide +kernel

/-! ## The buffers the body is called on -/

abbrev bufN_0 (t : Fin cfg1.N) : Memref sig .tc .vmem S5000x128 .f32 := win1_0.stage (cfg1.slots t 0)
abbrev wholeN_0 (t : Fin cfg1.N) : (bufN_0 t).IsWhole := hstage1_0 ((cfg1.slots t 0).cast nbuf1_0)
abbrev bufN_1 (t : Fin cfg1.N) : Memref sig .tc .vmem S1x128 .f32 := win1_1.stage (cfg1.slots t 1)
abbrev wholeN_1 (t : Fin cfg1.N) : (bufN_1 t).IsWhole := hstage1_1 ((cfg1.slots t 1).cast nbuf1_1)
abbrev bufN_2 (t : Fin cfg1.N) : Memref sig .tc .vmem S1x1 .f32 := win1_2.stage (cfg1.slots t 2)
abbrev wholeN_2 (t : Fin cfg1.N) : (bufN_2 t).IsWhole := hstage1_2 ((cfg1.slots t 2).cast nbuf1_2)
abbrev bufN_3 (t : Fin cfg1.N) : Memref sig .tc .vmem S1x1 .f32 := win1_3.stage (cfg1.slots t 3)
abbrev wholeN_3 (t : Fin cfg1.N) : (bufN_3 t).IsWhole := hstage1_3 ((cfg1.slots t 3).cast nbuf1_3)
/-- The accumulator: a whole one-by-one buffer of the kernel's own. -/
abbrev accM : Memref sig .tc .vmem S1x1 .f32 := Memref.whole cc1_scratch0
/-- A view through which the accumulator's contents are stated, -/
abbrev accV : View sig .tc .vmem S1x1 .f32 := accM.view
/-- and one through which the output buffer's are (which buffer is chosen does not matter once the stores cover it). -/
abbrev outV : View sig .tc .vmem S1x1 .f32 := (Memref.whole cc1_stg3_0 : Memref sig .tc .vmem S1x1 .f32).view

/-! ## The entry invariant, buffer by buffer -/

/-- The first stage's six staging buffers, each at anything: they are the core's but not this region's to stage,
    so they ride along untouched. -/
def restL (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- Seven things and an eighth, bracketed two ways: the seventh set beside the first six. -/
theorem sep_seven_regroup {M : Type} [URA M] (A B C D E G S R : sProp M) :
    iprop((A ∗ B ∗ C ∗ D ∗ E ∗ G ∗ S) ∗ R) = iprop(((A ∗ B ∗ C ∗ D ∗ E ∗ G) ∗ S) ∗ R) := by
  have h₁ : iprop((A ∗ B ∗ C ∗ D ∗ E ∗ G ∗ S) ∗ R) ⊢ iprop(((A ∗ B ∗ C ∗ D ∗ E ∗ G) ∗ S) ∗ R) := by
    iintro ⟨⟨H1, H2, H3, H4, H5, H6, HS⟩, Hg⟩
    isplitr [Hg]
    · isplitr [HS]
      · isplitl [H1]; · iexact H1
        isplitl [H2]; · iexact H2
        isplitl [H3]; · iexact H3
        isplitl [H4]; · iexact H4
        isplitl [H5]; · iexact H5
        iexact H6
      iexact HS
    iexact Hg
  have h₂ : iprop(((A ∗ B ∗ C ∗ D ∗ E ∗ G) ∗ S) ∗ R) ⊢ iprop((A ∗ B ∗ C ∗ D ∗ E ∗ G ∗ S) ∗ R) := by
    iintro ⟨⟨⟨H1, H2, H3, H4, H5, H6⟩, HS⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      iexact HS
    iexact Hg
  exact BI.equiv_iff.mp ⟨h₁, h₂⟩

/-- What the region is entered with: those six, the accumulator at anything, the generator register at some state. -/
theorem entry_eq (c : Dev nD) :
    (Pipeline.ΦA spec1 c : sProp 𝕄)
      = iprop((restL (F := F) c ∗ (∃ d, owns (c : Thread nD τ) accM fullShare d)) ∗ (∃ r, prngReg c r)) := by
  unfold Pipeline.ΦA restL; rw [scopedRest1_eq]; simp only [accM, owns_whole]
  exact sep_seven_regroup _ _ _ _ _ _ _ _

end Cert.KernelIdeal.Fr

end
-- ==== Proof.KI.NormRunA.lean ====
/-
  The body at the first point. The "first point" switch is on and the "last point" switch is off: the
  accumulator is read (whatever it holds), reset to zero, read back, and this block's sum of squares is added
  to it; the output buffer is not touched. The run below is stated on any five whole buffers and records, as a
  list of stores (latest first), what the accumulator ends with.
-/
import proofs.«109729_j48069273977167_1_alg».proof.Proof.KI.NormCases

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point's run: the three inputs at x, w, b and the output buffer at o are handed back as they were;
    the accumulator, entered at anything, ends with the recorded stores. -/
noncomputable def runFirst (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : isFirst i) (hl : ¬isLast i)
    (x : Vec F S5000x128 .f32) (w : Vec F S1x128 .f32) (b : Vec F S1x1 .f32) :
    { LS : List (View.Piece (Elt F) S1x1 .f32) //
      ∀ (o : Vec F S1x1 .f32) (E : Set ℕ) (K : PUnit → sProp 𝕄),
        iprop(owns (c : Thread nD τ) a1 fullShare x ∗ owns (c : Thread nD τ) a2 fullShare w ∗ owns (c : Thread nD τ) a3 fullShare b
            ∗ owns (c : Thread nD τ) a4 fullShare o ∗ (∃ d, owns (c : Thread nD τ) a5 fullShare d)
            ∗ (iprop(owns (c : Thread nD τ) a1 fullShare x ∗ owns (c : Thread nD τ) a2 fullShare w ∗ owns (c : Thread nD τ) a3 fullShare b
                ∗ owns (c : Thread nD τ) a4 fullShare o
                ∗ (∃ f, a5.view.loc (c : Thread nD τ) ↦[a5.view.set]{fullShare} a5.view.writes (Elt F) f LS)) -∗ K ⟨⟩))
          ⊢ wp frame (wpE (defs₀ (F := F)) Variants.none c none) E (cc1__linear2_normsq_kernel i a1 h1 a2 h2 a3 h3 a4 h4 a5 h5) K } := by
  refine ⟨?_, fun o E K => ?run⟩
  case run =>
    simp only [cc1__linear2_normsq_kernel_eq_skeleton]; unfold cc1__linear2_normsq_kernel_skel
    unfold owns
    iintro ⟨⟨%f1, %hf1, H1⟩, ⟨%f2, %hf2, H2⟩, ⟨%f3, %hf3, H3⟩, ⟨%f4, %hf4, H4⟩, ⟨%d5, %f5, -, H5⟩, Hk⟩
    obtain rfl := h1.eq_unread hf1; obtain rfl := h2.eq_unread hf2; obtain rfl := h3.eq_unread hf3; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.KernelIdeal.Fr

end
-- ==== Proof.KI.NormRunB.lean ====
/-
  The body at a middle point (1 … 8). Both switches are off: the accumulator, which holds what the point before
  left, is read and this block's sum of squares is added to it; the output buffer is not touched.
-/
import proofs.«109729_j48069273977167_1_alg».proof.Proof.KI.NormRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle point's run: the three inputs at x, w, b and the output buffer at o are handed back as they were;
    the accumulator, entered at s, ends with the recorded stores. -/
noncomputable def runMiddle (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : ¬isLast i)
    (x : Vec F S5000x128 .f32) (w : Vec F S1x128 .f32) (b : Vec F S1x1 .f32) (s : Vec F S1x1 .f32) :
    { LS : List (View.Piece (Elt F) S1x1 .f32) //
      ∀ (o : Vec F S1x1 .f32) (E : Set ℕ) (K : PUnit → sProp 𝕄),
        iprop(owns (c : Thread nD τ) a1 fullShare x ∗ owns (c : Thread nD τ) a2 fullShare w ∗ owns (c : Thread nD τ) a3 fullShare b
            ∗ owns (c : Thread nD τ) a4 fullShare o ∗ owns (c : Thread nD τ) a5 fullShare s
            ∗ (iprop(owns (c : Thread nD τ) a1 fullShare x ∗ owns (c : Thread nD τ) a2 fullShare w ∗ owns (c : Thread nD τ) a3 fullShare b
                ∗ owns (c : Thread nD τ) a4 fullShare o
                ∗ (∃ f, a5.view.loc (c : Thread nD τ) ↦[a5.view.set]{fullShare} a5.view.writes (Elt F) f LS)) -∗ K ⟨⟩))
          ⊢ wp frame (wpE (defs₀ (F := F)) Variants.none c none) E (cc1__linear2_normsq_kernel i a1 h1 a2 h2 a3 h3 a4 h4 a5 h5) K } := by
  refine ⟨?_, fun o E K => ?run⟩
  case run =>
    simp only [cc1__linear2_normsq_kernel_eq_skeleton]; unfold cc1__linear2_normsq_kernel_skel
    unfold owns
    iintro ⟨⟨%f1, %hf1, H1⟩, ⟨%f2, %hf2, H2⟩, ⟨%f3, %hf3, H3⟩, ⟨%f4, %hf4, H4⟩, ⟨%f5, %hf5, H5⟩, Hk⟩
    obtain rfl := h1.eq_unread hf1; obtain rfl := h2.eq_unread hf2; obtain rfl := h3.eq_unread hf3; obtain rfl := h4.eq_unread hf4
    obtain rfl := h5.eq_unread hf5
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.KernelIdeal.Fr

end
-- ==== Proof.KI.NormRunC.lean ====
/-
  The body at the last point. The "first point" switch is off and the "last point" switch is on: the
  accumulator is updated as at a middle point, then read once more, and its square root is stored over the
  whole output buffer (which is read first, whatever it holds).
-/
import proofs.«109729_j48069273977167_1_alg».proof.Proof.KI.NormRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point's run: the three inputs at x, w, b are handed back as they were; the output buffer, entered
    at anything, and the accumulator, entered at s, end with the recorded stores. -/
noncomputable def runLast (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : isLast i)
    (x : Vec F S5000x128 .f32) (w : Vec F S1x128 .f32) (b : Vec F S1x1 .f32) (s : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) a1 fullShare x ∗ owns (c : Thread nD τ) a2 fullShare w ∗ owns (c : Thread nD τ) a3 fullShare b
            ∗ (∃ d, owns (c : Thread nD τ) a4 fullShare d) ∗ owns (c : Thread nD τ) a5 fullShare s
            ∗ (iprop(owns (c : Thread nD τ) a1 fullShare x ∗ owns (c : Thread nD τ) a2 fullShare w ∗ owns (c : Thread nD τ) a3 fullShare b
                ∗ (∃ f, a4.view.loc (c : Thread nD τ) ↦[a4.view.set]{fullShare} a4.view.writes (Elt F) f LO)
                ∗ (∃ f, a5.view.loc (c : Thread nD τ) ↦[a5.view.set]{fullShare} a5.view.writes (Elt F) f LS)) -∗ K ⟨⟩))
          ⊢ wp frame (wpE (defs₀ (F := F)) Variants.none c none) E (cc1__linear2_normsq_kernel i a1 h1 a2 h2 a3 h3 a4 h4 a5 h5) K } := by
  refine ⟨?_, ?_, fun E K => ?run⟩
  case run =>
    simp only [cc1__linear2_normsq_kernel_eq_skeleton]; unfold cc1__linear2_normsq_kernel_skel
    unfold owns
    iintro ⟨⟨%f1, %hf1, H1⟩, ⟨%f2, %hf2, H2⟩, ⟨%f3, %hf3, H3⟩, ⟨%d4, %f4, -, H4⟩, ⟨%f5, %hf5, H5⟩, Hk⟩
    obtain rfl := h1.eq_unread hf1; obtain rfl := h2.eq_unread hf2; obtain rfl := h3.eq_unread hf3
    obtain rfl := h5.eq_unread hf5
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexists _; iexact H4
    iexists _; iexact H5

end Cert.KernelIdeal.Fr

end
-- ==== Proof.KI.Norm.lean ====
/-
  The norm stage as one region of the program: what the accumulator and the output buffer hold after each of
  the ten points, the invariant that carries the accumulator from point to point, the region's proof data and
  the obligation that the body, run at any point, keeps all of it. The accumulator after point 0 is zero plus
  block 0's sum of squares; after point n + 1 it is its value after point n plus block n + 1's sum of squares;
  the output buffer after point 9 is the square root of the accumulator after point 9.
-/
import proofs.«109729_j48069273977167_1_alg».proof.Proof.KI.NormRunC
import proofs.«109729_j48069273977167_1_alg».proof.Proof.Gen.KernelIdeal.Launch
import proofs.«109729_j48069273977167_1_alg».proof.Proof.Gen.KernelIdeal.Skeleton
import proofs.«109729_j48069273977167_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each way through the body leaves -/

/-- The whole of a one-by-one buffer is the rectangle at the origin. -/
theorem origin11 : ((![0, 0] : Fin 2 → Nat) : Fin S1x1.rank → Nat) = fun _ => 0 := by
  funext a; fin_cases a <;> rfl
theorem origin5000x128 : ((![0, 0] : Fin 2 → Nat) : Fin S5000x128.rank → Nat) = fun _ => 0 := by
  funext a; fin_cases a <;> rfl
theorem origin1x128 : ((![0, 0] : Fin 2 → Nat) : Fin S1x128.rank → Nat) = fun _ => 0 := by
  funext a; fin_cases a <;> rfl

/-- The first point's stores into the accumulator cover it. -/
theorem coverFirst (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : isFirst i) (hl : ¬isLast i) (x : Vec F S5000x128 .f32) (w : Vec F S1x128 .f32) (b : Vec F S1x1 .f32) (y : S1x1.Idx) :
    ∃ pc ∈ (runFirst c i a1 h1 a2 h2 a3 h3 a4 h4 a5 h5 hf hl x w b).1, y ∈ pc.1.set :=
  View.cover_of_tiledL (runFirst c i a1 h1 a2 h2 a3 h3 a4 h4 a5 h5 hf hl x w b).1 S1x1.size (by sl_kernel_rfl) y

/-- What the first point leaves in the accumulator. -/
def accFirst (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : isFirst i) (hl : ¬isLast i) (x : Vec F S5000x128 .f32) (w : Vec F S1x128 .f32) (b : Vec F S1x1 .f32) : Vec F S1x1 .f32 :=
  accV.read (Elt F) (accV.writes (Elt F) accV.junk (runFirst c i a1 h1 a2 h2 a3 h3 a4 h4 a5 h5 hf hl x w b).1)

/-- It is the zero the accumulator was reset to plus the block's sum of squares. -/
theorem accFirst_eq (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : isFirst i) (hl : ¬isLast i) (x : Vec F S5000x128 .f32) (w : Vec F S1x128 .f32) (b : Vec F S1x1 .f32) :
    accFirst c i a1 h1 a2 h2 a3 h3 a4 h4 a5 h5 hf hl x w b = k1_pay2 x w b (k1_pay1 (F := F)) := by
  unfold accFirst
  rw [View.read_writes_eq_canon _ _ _ (coverFirst c i a1 h1 a2 h2 a3 h3 a4 h4 a5 h5 hf hl x w b)]
  unfold runFirst
  dsimp only
  sl_unfold_words
  rw [View.canon_cons_unit_zero (S := S1x1) origin11]
  simp only [View.readAt_eq_ld, h1.read_unread, h2.read_unread, h3.read_unread, View.ld_unit_zero (S := S5000x128) origin5000x128,
    View.ld_unit_zero (S := S1x128) origin1x128, View.ld_unit_zero (S := S1x1) origin11, View.readCov_unit_zero (S := S1x1) _ origin11]

/-- A middle point's stores into the accumulator cover it. -/
theorem coverMiddle (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : ¬isLast i) (x : Vec F S5000x128 .f32) (w : Vec F S1x128 .f32) (b : Vec F S1x1 .f32) (s : Vec F S1x1 .f32) (y : S1x1.Idx) :
    ∃ pc ∈ (runMiddle c i a1 h1 a2 h2 a3 h3 a4 h4 a5 h5 hf hl x w b s).1, y ∈ pc.1.set :=
  View.cover_of_tiledL (runMiddle c i a1 h1 a2 h2 a3 h3 a4 h4 a5 h5 hf hl x w b s).1 S1x1.size (by sl_kernel_rfl) y

/-- What a middle point leaves in the accumulator, entered at s. -/
def accMiddle (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : ¬isLast i) (x : Vec F S5000x128 .f32) (w : Vec F S1x128 .f32) (b : Vec F S1x1 .f32) (s : Vec F S1x1 .f32) : Vec F S1x1 .f32 :=
  accV.read (Elt F) (accV.writes (Elt F) accV.junk (runMiddle c i a1 h1 a2 h2 a3 h3 a4 h4 a5 h5 hf hl x w b s).1)

/-- It is s plus the block's sum of squares. -/
theorem accMiddle_eq (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : ¬isLast i) (x : Vec F S5000x128 .f32) (w : Vec F S1x128 .f32) (b : Vec F S1x1 .f32) (s : Vec F S1x1 .f32) :
    accMiddle c i a1 h1 a2 h2 a3 h3 a4 h4 a5 h5 hf hl x w b s = k1_pay2 x w b s := by
  unfold accMiddle
  rw [View.read_writes_eq_canon _ _ _ (coverMiddle c i a1 h1 a2 h2 a3 h3 a4 h4 a5 h5 hf hl x w b s)]
  unfold runMiddle
  dsimp only
  sl_unfold_words
  rw [View.canon_unit_zero (S := S1x1) origin11]
  simp only [View.readAt_eq_ld, h1.read_unread, h2.read_unread, h3.read_unread, h5.read_unread, View.ld_unit_zero (S := S5000x128) origin5000x128,
    View.ld_unit_zero (S := S1x128) origin1x128, View.ld_unit_zero (S := S1x1) origin11]

/-- The last point's stores into the accumulator cover it, -/
theorem coverLastAcc (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : isLast i) (x : Vec F S5000x128 .f32) (w : Vec F S1x128 .f32) (b : Vec F S1x1 .f32) (s : Vec F S1x1 .f32) (y : S1x1.Idx) :
    ∃ pc ∈ (runLast c i a1 h1 a2 h2 a3 h3 a4 h4 a5 h5 hf hl x w b s).2.1, y ∈ pc.1.set :=
  View.cover_of_tiledL (runLast c i a1 h1 a2 h2 a3 h3 a4 h4 a5 h5 hf hl x w b s).2.1 S1x1.size (by sl_kernel_rfl) y

/-- and its one store into the output buffer covers that. -/
theorem coverLastOut (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : isLast i) (x : Vec F S5000x128 .f32) (w : Vec F S1x128 .f32) (b : Vec F S1x1 .f32) (s : Vec F S1x1 .f32) (y : S1x1.Idx) :
    ∃ pc ∈ (runLast c i a1 h1 a2 h2 a3 h3 a4 h4 a5 h5 hf hl x w b s).1, y ∈ pc.1.set :=
  View.cover_of_tiledL (runLast c i a1 h1 a2 h2 a3 h3 a4 h4 a5 h5 hf hl x w b s).1 S1x1.size (by sl_kernel_rfl) y

/-- What the last point leaves in the accumulator, entered at s, -/
def accLast (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : isLast i) (x : Vec F S5000x128 .f32) (w : Vec F S1x128 .f32) (b : Vec F S1x1 .f32) (s : Vec F S1x1 .f32) : Vec F S1x1 .f32 :=
  accV.read (Elt F) (accV.writes (Elt F) accV.junk (runLast c i a1 h1 a2 h2 a3 h3 a4 h4 a5 h5 hf hl x w b s).2.1)

/-- and in the output buffer. -/
def outLast (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : isLast i) (x : Vec F S5000x128 .f32) (w : Vec F S1x128 .f32) (b : Vec F S1x1 .f32) (s : Vec F S1x1 .f32) : Vec F S1x1 .f32 :=
  outV.read (Elt F) (outV.writes (Elt F) outV.junk (runLast c i a1 h1 a2 h2 a3 h3 a4 h4 a5 h5 hf hl x w b s).1)

/-- The accumulator: s plus the block's sum of squares, as at a middle point. -/
theorem accLast_eq (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : isLast i) (x : Vec F S5000x128 .f32) (w : Vec F S1x128 .f32) (b : Vec F S1x1 .f32) (s : Vec F S1x1 .f32) :
    accLast c i a1 h1 a2 h2 a3 h3 a4 h4 a5 h5 hf hl x w b s = k1_pay2 x w b s := by
  unfold accLast
  rw [View.read_writes_eq_canon _ _ _ (coverLastAcc c i a1 h1 a2 h2 a3 h3 a4 h4 a5 h5 hf hl x w b s)]
  unfold runLast
  dsimp only
  sl_unfold_words
  rw [View.canon_unit_zero (S := S1x1) origin11]
  simp only [View.readAt_eq_ld, h1.read_unread, h2.read_unread, h3.read_unread, h5.read_unread, View.ld_unit_zero (S := S5000x128) origin5000x128,
    View.ld_unit_zero (S := S1x128) origin1x128, View.ld_unit_zero (S := S1x1) origin11]

/-- The output: the square root of what the accumulator has just been brought to. -/
theorem outLast_eq (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hf : ¬isFirst i) (hl : isLast i) (x : Vec F S5000x128 .f32) (w : Vec F S1x128 .f32) (b : Vec F S1x1 .f32) (s : Vec F S1x1 .f32) :
    outLast c i a1 h1 a2 h2 a3 h3 a4 h4 a5 h5 hf hl x w b s = k1_pay3 (accLast c i a1 h1 a2 h2 a3 h3 a4 h4 a5 h5 hf hl x w b s) := by
  rw [accLast_eq]
  unfold outLast
  rw [View.read_writes_eq_canon _ _ _ (coverLastOut c i a1 h1 a2 h2 a3 h3 a4 h4 a5 h5 hf hl x w b s)]
  unfold runLast
  dsimp only
  sl_unfold_words
  rw [View.canon_unit_zero (S := S1x1) origin11]
  simp only [View.readAt_eq_ld, h1.read_unread, h2.read_unread, h3.read_unread, h5.read_unread, View.ld_unit_zero (S := S5000x128) origin5000x128,
    View.ld_unit_zero (S := S1x128) origin1x128, View.ld_unit_zero (S := S1x1) origin11, View.readCov_unit_zero (S := S1x1) _ origin11]

/-! ## The accumulator and the output buffer, point by point -/

/-- What the output window's buffer (first component) and the accumulator (second) hold after the body at
    position n: the first point's result at 0; at a later point that point's result over what the point before
    left in the accumulator. Off the last point the body leaves the output buffer alone, and the first component
    is a placeholder (the zero vector) that nothing consults. -/
def accAt (V : (c : Dev nD) → (b : Ref sig .tc) → Buf (Elt F) ((c : Thread nD τ).loc b)) (c : Dev nD) : (n : ℕ) → n < cfg1.N → Vec F S1x1 .f32 × Vec F S1x1 .f32
  | 0, hn => (k1_pay1 (F := F), accFirst c (grid1.coords ⟨0, hn⟩) (bufN_0 ⟨0, hn⟩) (wholeN_0 ⟨0, hn⟩) (bufN_1 ⟨0, hn⟩) (wholeN_1 ⟨0, hn⟩) (bufN_2 ⟨0, hn⟩) (wholeN_2 ⟨0, hn⟩) (bufN_3 ⟨0, hn⟩) (wholeN_3 ⟨0, hn⟩) accM (Memref.isWhole_whole _) ((isFirst_iff ⟨0, hn⟩).mpr rfl) (fun h => by have h' := (isLast_iff ⟨0, hn⟩).mp h; (try dsimp only at h'); omega) (blkN V c 0 ⟨0, hn⟩) (blkN V c 1 ⟨0, hn⟩) (blkN V c 2 ⟨0, hn⟩))
  | n + 1, hn =>
    if h9 : n + 1 = 9 then
      (outLast c (grid1.coords ⟨n + 1, hn⟩) (bufN_0 ⟨n + 1, hn⟩) (wholeN_0 ⟨n + 1, hn⟩) (bufN_1 ⟨n + 1, hn⟩) (wholeN_1 ⟨n + 1, hn⟩) (bufN_2 ⟨n + 1, hn⟩) (wholeN_2 ⟨n + 1, hn⟩) (bufN_3 ⟨n + 1, hn⟩) (wholeN_3 ⟨n + 1, hn⟩) accM (Memref.isWhole_whole _) (fun h => by have h' := (isFirst_iff ⟨n + 1, hn⟩).mp h; (try dsimp only at h'); omega) ((isLast_iff ⟨n + 1, hn⟩).mpr h9) (blkN V c 0 ⟨n + 1, hn⟩) (blkN V c 1 ⟨n + 1, hn⟩) (blkN V c 2 ⟨n + 1, hn⟩) (accAt V c n (Nat.lt_of_succ_lt hn)).2,
       accLast c (grid1.coords ⟨n + 1, hn⟩) (bufN_0 ⟨n + 1, hn⟩) (wholeN_0 ⟨n + 1, hn⟩) (bufN_1 ⟨n + 1, hn⟩) (wholeN_1 ⟨n + 1, hn⟩) (bufN_2 ⟨n + 1, hn⟩) (wholeN_2 ⟨n + 1, hn⟩) (bufN_3 ⟨n + 1, hn⟩) (wholeN_3 ⟨n + 1, hn⟩) accM (Memref.isWhole_whole _) (fun h => by have h' := (isFirst_iff ⟨n + 1, hn⟩).mp h; (try dsimp only at h'); omega) ((isLast_iff ⟨n + 1, hn⟩).mpr h9) (blkN V c 0 ⟨n + 1, hn⟩) (blkN V c 1 ⟨n + 1, hn⟩) (blkN V c 2 ⟨n + 1, hn⟩) (accAt V c n (Nat.lt_of_succ_lt hn)).2)
    else
      (k1_pay1 (F := F),
       accMiddle c (grid1.coords ⟨n + 1, hn⟩) (bufN_0 ⟨n + 1, hn⟩) (wholeN_0 ⟨n + 1, hn⟩) (bufN_1 ⟨n + 1, hn⟩) (wholeN_1 ⟨n + 1, hn⟩) (bufN_2 ⟨n + 1, hn⟩) (wholeN_2 ⟨n + 1, hn⟩) (bufN_3 ⟨n + 1, hn⟩) (wholeN_3 ⟨n + 1, hn⟩) accM (Memref.isWhole_whole _) (fun h => by have h' := (isFirst_iff ⟨n + 1, hn⟩).mp h; (try dsimp only at h'); omega) (fun h => h9 ((isLast_iff ⟨n + 1, hn⟩).mp h)) (blkN V c 0 ⟨n + 1, hn⟩) (blkN V c 1 ⟨n + 1, hn⟩) (blkN V c 2 ⟨n + 1, hn⟩) (accAt V c n (Nat.lt_of_succ_lt hn)).2)

/-- accAt at the first point. -/
theorem accAt_zero (c : Dev nD) (t : Fin cfg1.N) (h0 : t.val = 0) (h9 : ¬t.val = 9) :
    accAt V c t.val t.isLt = (k1_pay1 (F := F), accFirst c (grid1.coords t) (bufN_0 t) (wholeN_0 t) (bufN_1 t) (wholeN_1 t) (bufN_2 t) (wholeN_2 t) (bufN_3 t) (wholeN_3 t) accM (Memref.isWhole_whole _) ((isFirst_iff t).mpr h0) (fun h => h9 ((isLast_iff t).mp h)) (blkN V c 0 t) (blkN V c 1 t) (blkN V c 2 t)) := by
  obtain ⟨n, hn⟩ := t
  cases n with
  | zero => exact rfl
  | succ n => exact absurd h0 (Nat.succ_ne_zero n)

/-- accAt at a middle point. -/
theorem accAt_mid (c : Dev nD) (t : Fin cfg1.N) (h0 : ¬t.val = 0) (h9 : ¬t.val = 9) :
    accAt V c t.val t.isLt = (k1_pay1 (F := F), accMiddle c (grid1.coords t) (bufN_0 t) (wholeN_0 t) (bufN_1 t) (wholeN_1 t) (bufN_2 t) (wholeN_2 t) (bufN_3 t) (wholeN_3 t) accM (Memref.isWhole_whole _) (fun h => h0 ((isFirst_iff t).mp h)) (fun h => h9 ((isLast_iff t).mp h)) (blkN V c 0 t) (blkN V c 1 t) (blkN V c 2 t)
      (accAt V c (t.val - 1) (Nat.lt_of_le_of_lt (Nat.sub_le _ _) t.isLt)).2) := by
  obtain ⟨n, hn⟩ := t
  cases n with
  | zero => exact absurd rfl h0
  | succ n => exact (dif_neg h9).trans rfl

/-- accAt at the last point. -/
theorem accAt_end (c : Dev nD) (t : Fin cfg1.N) (h0 : ¬t.val = 0) (h9 : t.val = 9) :
    accAt V c t.val t.isLt = (outLast c (grid1.coords t) (bufN_0 t) (wholeN_0 t) (bufN_1 t) (wholeN_1 t) (bufN_2 t) (wholeN_2 t) (bufN_3 t) (wholeN_3 t) accM (Memref.isWhole_whole _) (fun h => h0 ((isFirst_iff t).mp h)) ((isLast_iff t).mpr h9) (blkN V c 0 t) (blkN V c 1 t) (blkN V c 2 t)
        (accAt V c (t.val - 1) (Nat.lt_of_le_of_lt (Nat.sub_le _ _) t.isLt)).2,
      accLast c (grid1.coords t) (bufN_0 t) (wholeN_0 t) (bufN_1 t) (wholeN_1 t) (bufN_2 t) (wholeN_2 t) (bufN_3 t) (wholeN_3 t) accM (Memref.isWhole_whole _) (fun h => h0 ((isFirst_iff t).mp h)) ((isLast_iff t).mpr h9) (blkN V c 0 t) (blkN V c 1 t) (blkN V c 2 t)
        (accAt V c (t.val - 1) (Nat.lt_of_le_of_lt (Nat.sub_le _ _) t.isLt)).2) := by
  obtain ⟨n, hn⟩ := t
  cases n with
  | zero => exact absurd rfl h0
  | succ n => exact (dif_pos h9).trans rfl

/-- The accumulator after the first point: the zero it was reset to plus the first block's sum of squares. -/
theorem accAt_first (c : Dev nD) (h0 : 0 < cfg1.N) :
    (accAt V c 0 h0).2 = k1_pay2 (blkN V c 0 ⟨0, h0⟩) (blkN V c 1 ⟨0, h0⟩) (blkN V c 2 ⟨0, h0⟩) (k1_pay1 (F := F)) := by
  have e := accAt_zero V c ⟨0, h0⟩ rfl (by show ¬(0 : ℕ) = 9; decide)
  rw [show accAt V c 0 h0 = _ from e]
  dsimp only
  exact accFirst_eq (F := F) _ _ _ _ _ _ _ _ _ _ _ _ _ _ _ _ _

/-- The accumulator after a later point: what the point before left plus this block's sum of squares. -/
theorem accAt_step (c : Dev nD) (n : ℕ) (hn : n + 1 < cfg1.N) :
    (accAt V c (n + 1) hn).2 = k1_pay2 (blkN V c 0 ⟨n + 1, hn⟩) (blkN V c 1 ⟨n + 1, hn⟩) (blkN V c 2 ⟨n + 1, hn⟩) (accAt V c n (Nat.lt_of_succ_lt hn)).2 := by
  by_cases h9 : n + 1 = 9
  · have e := accAt_end V c ⟨n + 1, hn⟩ (Nat.succ_ne_zero n) h9
    rw [show accAt V c (n + 1) hn = _ from e]
    dsimp only
    exact accLast_eq (F := F) _ _ _ _ _ _ _ _ _ _ _ _ _ _ _ _ _ _
  · have e := accAt_mid V c ⟨n + 1, hn⟩ (Nat.succ_ne_zero n) h9
    rw [show accAt V c (n + 1) hn = _ from e]
    dsimp only
    exact accMiddle_eq (F := F) _ _ _ _ _ _ _ _ _ _ _ _ _ _ _ _ _ _

/-- At the last point the output buffer holds the square root of the accumulator. -/
theorem accAt_last (c : Dev nD) (h9 : 9 < cfg1.N) :
    (accAt V c 9 h9).1 = k1_pay3 (accAt V c 9 h9).2 := by
  have e := accAt_end V c ⟨9, h9⟩ (by show ¬(9 : ℕ) = 0; decide) rfl
  rw [show accAt V c 9 h9 = _ from e]
  dsimp only
  exact outLast_eq (F := F) _ _ _ _ _ _ _ _ _ _ _ _ _ _ _ _ _ _

/-! ## The invariant and the proof data -/

/-- The invariant before position n: before the first point what the region is entered with; before a later
    point the same buffers with the accumulator at what the point before left, the first stage's staging buffers
    at anything, and the generator register at some state. -/
def PhiN (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop((restL (F := F) c ∗ owns (c : Thread nD τ) accM fullShare (accAt V c n hn).2) ∗ (∃ r, prngReg c r))

theorem PhiN_zero (c : Dev nD) (n : ℕ) (h : n ≤ cfg1.N) (hz : n = 0) : PhiN V c n h = Pipeline.ΦA spec1 c := by
  subst hz; rfl

theorem PhiN_succ (c : Dev nD) (n : ℕ) (hn : n < cfg1.N) :
    PhiN V c (n + 1) hn = iprop((restL (F := F) c ∗ owns (c : Thread nD τ) accM fullShare (accAt V c n hn).2) ∗ (∃ r, prngReg c r)) := rfl

theorem PhiN_pos (c : Dev nD) (n : ℕ) (h : n ≤ cfg1.N) (hz : n ≠ 0) :
    PhiN V c n h = iprop((restL (F := F) c ∗ owns (c : Thread nD τ) accM fullShare (accAt V c (n - 1) (by omega)).2) ∗ (∃ r, prngReg c r)) := by
  cases n with
  | zero => exact absurd rfl hz
  | succ n => rfl

/-- The region's proof data at entry contents V. -/
def datN (c : Dev nD) : Dat τ (Elt F) Unit ℕ (UR sig nD τ) ℕ cfg1 c where
  A w := V c (Pipeline.arrRef spec1 w)
  after w t := match w with
    | ⟨0, _⟩ => blkN V c 0 t
    | ⟨1, _⟩ => blkN V c 1 t
    | ⟨2, _⟩ => blkN V c 2 t
    | ⟨3, _⟩ => (accAt V c t.val t.isLt).1
  Φ t := PhiN V c t.val (Nat.le_of_lt_succ t.isLt)
  q _ := fullShare
  owed _ := 0

theorem datN_A (c : Dev nD) (w : Fin cfg1.W) : (datN V c).A w = V c (Pipeline.arrRef spec1 w) := by
  dsimp only [datN]

theorem datN_after0 (c : Dev nD) (t : Fin cfg1.N) : (datN V c).after 0 t = blkN V c 0 t := by dsimp only [datN]
theorem datN_after1 (c : Dev nD) (t : Fin cfg1.N) : (datN V c).after 1 t = blkN V c 1 t := by dsimp only [datN]
theorem datN_after2 (c : Dev nD) (t : Fin cfg1.N) : (datN V c).after 2 t = blkN V c 2 t := by dsimp only [datN]
theorem datN_after3 (c : Dev nD) (t : Fin cfg1.N) : (datN V c).after 3 t = (accAt V c t.val t.isLt).1 := by dsimp only [datN]

theorem datN_before0 (c : Dev nD) (t : Fin cfg1.N) (d) : (datN V c).before 0 t d = blkN V c 0 t :=
  keepN_0 V (datN V c) (datN_A V c 0) (datN_after0 V c) t d
theorem datN_before1 (c : Dev nD) (t : Fin cfg1.N) (d) : (datN V c).before 1 t d = blkN V c 1 t :=
  keepN_1 V (datN V c) (datN_A V c 1) (datN_after1 V c) t d
theorem datN_before2 (c : Dev nD) (t : Fin cfg1.N) (d) : (datN V c).before 2 t d = blkN V c 2 t :=
  keepN_2 V (datN V c) (datN_A V c 2) (datN_after2 V c) t d

/-- The invariant at a point's start. -/
theorem PhiN_castSucc (c : Dev nD) (t : Fin cfg1.N) :
    (datN V c).Φ t.castSucc = PhiN V c t.val (Nat.le_of_lt t.isLt) := by
  dsimp only [datN]; simp only [Fin.coe_castSucc]

/-! ## The body obligation -/

/-- What the pipeline calls the body with at point t, the windows one by one, -/
def preN (c : Dev nD) (t : Fin cfg1.N) : sProp 𝕄 :=
  iprop((datN V c).Φ t.castSucc ∗ (datN V c).owesAt () t.castSucc
    ∗ (∃ d, owns (c : Thread nD τ) (bufN_0 t) fullShare ((datN V c).before 0 t d))
    ∗ (∃ d, owns (c : Thread nD τ) (bufN_1 t) fullShare ((datN V c).before 1 t d))
    ∗ (∃ d, owns (c : Thread nD τ) (bufN_2 t) fullShare ((datN V c).before 2 t d))
    ∗ (∃ d, owns (c : Thread nD τ) (bufN_3 t) fullShare ((datN V c).before 3 t d)))

/-- and what it must return. -/
def postN (c : Dev nD) (t : Fin cfg1.N) : sProp 𝕄 :=
  iprop((datN V c).Φ t.succ ∗ (datN V c).owesAt () t.succ
    ∗ (datN V c).leavesExact 0 t
    ∗ (datN V c).leavesExact 1 t
    ∗ (datN V c).leavesExact 2 t
    ∗ (datN V c).leavesExact 3 t)

set_option maxHeartbeats 4800000 in
/-- The body at any point. The inputs' buffers hold their blocks. Which way the body goes is read off the
    point's number. At the first point the invariant hands over the accumulator at anything; later, at what the
    point before left. Each time the accumulator comes back at this point's value, by the cover of its stores;
    the output buffer comes back untouched off the last point, and at the last point at the stored square root.
    The first stage's buffers, the generator register and the core's dues pass through unread. -/
theorem norm_body (c : Dev nD) (t : Fin cfg1.N) :
    preN V c t ⊢ wp frame (wpE (defs₀ (F := F)) Variants.none c none) Set.univ (bodyAt1 t) (fun _ => postN V c t) := by
  unfold preN postN bodyAt1
  simp only [datN_before0, datN_before1, datN_before2]
  rw [show (datN V c).owesAt () t.succ = (datN V c).owesAt () t.castSucc from rfl]
  rw [show (datN V c).Φ t.succ = PhiN V c (t.val + 1) t.isLt from rfl, PhiN_succ]
  rw [show (datN V c).leavesExact 0 t = owns (c : Thread nD τ) (bufN_0 t) fullShare ((datN V c).after 0 t) from by
    unfold Dat.leavesExact; rw [awake_0 t], datN_after0]
  rw [show (datN V c).leavesExact 1 t = owns (c : Thread nD τ) (bufN_1 t) fullShare ((datN V c).after 1 t) from by
    unfold Dat.leavesExact; rw [awake_1 t], datN_after1]
  rw [show (datN V c).leavesExact 2 t = owns (c : Thread nD τ) (bufN_2 t) fullShare ((datN V c).after 2 t) from by
    unfold Dat.leavesExact; rw [awake_2 t], datN_after2]
  have hN : t.val < 10 := lt_of_lt_of_eq t.isLt (show cfg1.N = 10 from N_1)
  by_cases h0 : t.val = 0
  · -- the first point
    have h9 : ¬t.val = 9 := by omega
    rw [Dat.leavesExact_idle (datN V c) 3 t (rests_3 t (fun h => h9 ((isLast_iff t).mp h))) (unsent_3 t (fun h => h9 ((isLast_iff t).mp h)))]
    rw [accAt_zero V c t h0 h9]
    unfold accFirst; (try dsimp only)
    rw [PhiN_castSucc V c t, PhiN_zero V c _ _ h0, entry_eq]
    iintro ⟨⟨⟨HR, HS⟩, Hg⟩, Ho, ⟨%d0, H0⟩, ⟨%d1, H1⟩, ⟨%d2, H2⟩, ⟨%d3, H3⟩⟩
    iapply ((runFirst c (grid1.coords t) _ _ _ _ _ _ _ _ _ _ ((isFirst_iff t).mpr h0) (fun h => h9 ((isLast_iff t).mp h)) (blkN V c 0 t) (blkN V c 1 t) (blkN V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HR HS Hg]
    · isplitr [Hg]
      · isplitl [HR]; · iexact HR
        unfold owns; iexists _; isplitr
        swap; · iexact HS
        ipureintro; exact View.read_writes_of_cover _ _ _ _ _ (coverFirst c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · by_cases h9 : t.val = 9
    · -- the last point
      rw [show (datN V c).leavesExact 3 t = owns (c : Thread nD τ) (bufN_3 t) fullShare ((datN V c).after 3 t) from by
        unfold Dat.leavesExact; rw [awake_3 t ((isLast_iff t).mpr h9)], datN_after3]
      rw [accAt_end V c t h0 h9]
      unfold outLast accLast; (try dsimp only)
      rw [PhiN_castSucc V c t, PhiN_pos V c _ _ h0]
      iintro ⟨⟨⟨HR, HS⟩, Hg⟩, Ho, ⟨%d0, H0⟩, ⟨%d1, H1⟩, ⟨%d2, H2⟩, ⟨%d3, H3⟩⟩
      iapply ((runLast c (grid1.coords t) _ _ _ _ _ _ _ _ _ _ (fun h => h0 ((isFirst_iff t).mp h)) ((isLast_iff t).mpr h9) (blkN V c 0 t) (blkN V c 1 t) (blkN V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HR HS Hg]
      · isplitr [Hg]
        · isplitl [HR]; · iexact HR
          unfold owns; iexists _; isplitr
          swap; · iexact HS
          ipureintro; exact View.read_writes_of_cover _ _ _ _ _ (coverLastAcc c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · -- a middle point
      rw [Dat.leavesExact_idle (datN V c) 3 t (rests_3 t (fun h => h9 ((isLast_iff t).mp h))) (unsent_3 t (fun h => h9 ((isLast_iff t).mp h)))]
      rw [accAt_mid V c t h0 h9]
      unfold accMiddle; (try dsimp only)
      rw [PhiN_castSucc V c t, PhiN_pos V c _ _ h0]
      iintro ⟨⟨⟨HR, HS⟩, Hg⟩, Ho, ⟨%d0, H0⟩, ⟨%d1, H1⟩, ⟨%d2, H2⟩, ⟨%d3, H3⟩⟩
      iapply ((runMiddle c (grid1.coords t) _ _ _ _ _ _ _ _ _ _ (fun h => h0 ((isFirst_iff t).mp h)) (fun h => h9 ((isLast_iff t).mp h)) (blkN V c 0 t) (blkN V c 1 t) (blkN V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HR HS Hg]
      · isplitr [Hg]
        · isplitl [HR]; · iexact HR
          unfold owns; iexists _; isplitr
          swap; · iexact HS
          ipureintro; exact View.read_writes_of_cover _ _ _ _ _ (coverMiddle c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation for the region, at every point. -/
theorem norm_obligation (c : Dev nD) : BodyObligation (datN (F := F) V c) (defs₀ (F := F)) Variants.none () Set.univ := fun t => by
  rw [bigSep_W1, bigSep_W1]
  exact norm_body V c t

/-- What the region is entered with is the invariant before the first point. -/
theorem norm_in (c : Dev nD) : Pipeline.ΦA spec1 c ⊢ (datN V c).Φ 0 := by
  rw [show (datN V c).Φ 0 = PhiN V c 0 (Nat.zero_le _) from rfl, PhiN_zero V c 0 _ rfl]
  try exact Idealize.SL.BI.Entails.refl _

/-- After the last point the invariant gives the entry form back: what the accumulator holds is forgotten. -/
theorem norm_out (c : Dev nD) : (datN V c).Φ (Fin.last cfg1.N) ⊢ Pipeline.ΦA spec1 c := by
  have hne : (Fin.last cfg1.N).val ≠ 0 := by rw [Fin.val_last]; have : cfg1.N = 10 := N_1; omega
  rw [show (datN V c).Φ (Fin.last cfg1.N) = PhiN V c (Fin.last cfg1.N).val (Nat.le_of_lt_succ (Fin.last cfg1.N).isLt) from rfl,
    PhiN_pos V c _ _ hne, entry_eq]
  iintro ⟨⟨HR, HS⟩, Hg⟩
  isplitr [Hg]
  · isplitl [HR]; · iexact HR
    iexists _; iexact HS
  iexact Hg

end Cert.KernelIdeal.Fr

end
-- ==== Proof.KI.Whole.lean ====
/-
  The whole program as five stretches: the host operations that lay out W1ᵀ and the bias row; the first dense stage
  (ten grid points); the host operations that gather, weight and scatter-add the hidden rows into agg and reshape
  b2; the second dense stage with the norm (ten grid points); the final reshape. What every buffer the program
  does not scope holds at each boundary is a fold from the launch memory: a host stretch applies its operations, a
  dense stage leaves its input arrays as found and its output array at what its write-backs leave. Every weakly fair
  execution terminates with each such buffer at the fold's last value; in particular no stretch writes an argument,
  so the arguments end as launched.
-/
import proofs.«109729_j48069273977167_1_alg».proof.Proof.KI.Linear1
import proofs.«109729_j48069273977167_1_alg».proof.Proof.KI.Norm
import proofs.«109729_j48069273977167_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => m ((c : Dev nD), b)
/-- After W1ᵀ and the bias row are laid out: the first dense stage's entry. -/
abbrev B1 : Dev nD → Valuation τ sig (Elt F) := fun c => StableHlo.after hostOps0 (B0 m c)
abbrev R1 : (c : Dev nD) → (b : Ref sig .tc) → Buf (Elt F) ((c : Thread nD τ).loc b) := fun c b => B1 m c b
/-- After the first dense stage: h in its array, every other buffer as the stage found it. -/
def B2 (c : Dev nD) : Valuation τ sig (Elt F) :=
  Pipeline.withArrays spec0 c (B1 m c) fun w => (datL (R1 m) c).arrAt w cfg0.N
theorem B2_arr (c : Dev nD) (w : Fin cfg0.W) :
    B2 m c (Proc.devRef .tc (Pipeline.arrRef spec0 w)) = (datL (R1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev R2 : (c : Dev nD) → (b : Ref sig .tc) → Buf (Elt F) ((c : Thread nD τ).loc b) := fun c b => B2 m c b
theorem exitL (c : Dev nD) (w : Fin cfg0.W) : (datL (R1 m) c).arrAt w cfg0.N = R2 m c (Pipeline.arrRef spec0 w) :=
  (B2_arr m c w).symm
theorem keptL (c : Dev nD) : ∀ b, b ∉ Finset.univ.image (Pipeline.arrRef spec0) → R2 m c b = R1 m c b :=
  fun b hb => B2_of_ne m c b fun w e => hb (Finset.mem_image.mpr ⟨w, Finset.mem_univ _, e⟩)

/-- After the aggregation: the second dense stage's entry. -/
abbrev B3 : Dev nD → Valuation τ sig (Elt F) := fun c => StableHlo.after hostOps1 (B2 m c)
abbrev R3 : (c : Dev nD) → (b : Ref sig .tc) → Buf (Elt F) ((c : Thread nD τ).loc b) := fun c b => B3 m c b
/-- After the second dense stage: the norm in its 1×1 array. -/
def B4 (c : Dev nD) : Valuation τ sig (Elt F) :=
  Pipeline.withArrays spec1 c (B3 m c) fun w => (datN (R3 m) c).arrAt w cfg1.N
theorem B4_arr (c : Dev nD) (w : Fin cfg1.W) :
    B4 m c (Proc.devRef .tc (Pipeline.arrRef spec1 w)) = (datN (R3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev R4 : (c : Dev nD) → (b : Ref sig .tc) → Buf (Elt F) ((c : Thread nD τ).loc b) := fun c b => B4 m c b
theorem exitN (c : Dev nD) (w : Fin cfg1.W) : (datN (R3 m) c).arrAt w cfg1.N = R4 m c (Pipeline.arrRef spec1 w) :=
  (B4_arr m c w).symm
theorem keptN (c : Dev nD) : ∀ b, b ∉ Finset.univ.image (Pipeline.arrRef spec1) → R4 m c b = R3 m c b :=
  fun b hb => B4_of_ne m c b fun w e => hb (Finset.mem_image.mpr ⟨w, Finset.mem_univ _, e⟩)

/-- After the final reshape: what the program ends with. -/
abbrev B5 : Dev nD → Valuation τ sig (Elt F) := fun c => StableHlo.after hostOps2 (B4 m c)

/-! ## No stretch writes an argument -/

theorem B1_keep (c : Dev nD) (r : Ref sig .tc) (h : r ∉ hostOps0_W) : B1 m c r = B0 m c r :=
  StableHlo.after_of_writes_sub hostOps0 _ hostOps0_writes h
theorem B3_keep (c : Dev nD) (r : Ref sig .tc) (h : r ∉ hostOps1_W) : B3 m c r = B2 m c r :=
  StableHlo.after_of_writes_sub hostOps1 _ hostOps1_writes h
theorem B5_keep (c : Dev nD) (r : Ref sig .tc) (h : r ∉ hostOps2_W) : B5 m c r = B4 m c r :=
  StableHlo.after_of_writes_sub hostOps2 _ hostOps2_writes h

/-- x is the first stage's input window 0: the stage leaves it as found. -/
theorem B5_main_arg0 (c : Dev nD) : B5 m c main_arg0 = m ((c : Thread nD τ).loc main_arg0) :=
  (B5_keep m c main_arg0 (by decide)).trans <| (B4_of_ne m c main_arg0 (by decide)).trans <| (B3_keep m c main_arg0 (by decide)).trans <|
    ((B2_arr m c 0).trans (((datL (R1 m) c).arrAt_in 0 rfl _).trans (datL_A (R1 m) c 0))).trans <| (B1_keep m c main_arg0 (by decide)).trans rfl
theorem B5_main_arg1 (c : Dev nD) : B5 m c main_arg1 = m ((c : Thread nD τ).loc main_arg1) :=
  (B5_keep m c main_arg1 (by decide)).trans <| (B4_of_ne m c main_arg1 (by decide)).trans <| (B3_keep m c main_arg1 (by decide)).trans <|
    (B2_of_ne m c main_arg1 (by decide)).trans <| (B1_keep m c main_arg1 (by decide)).trans rfl
theorem B5_main_arg2 (c : Dev nD) : B5 m c main_arg2 = m ((c : Thread nD τ).loc main_arg2) :=
  (B5_keep m c main_arg2 (by decide)).trans <| (B4_of_ne m c main_arg2 (by decide)).trans <| (B3_keep m c main_arg2 (by decide)).trans <|
    (B2_of_ne m c main_arg2 (by decide)).trans <| (B1_keep m c main_arg2 (by decide)).trans rfl
/-- W2 is the second stage's input window 1: the stage leaves it as found. -/
theorem B5_main_arg3 (c : Dev nD) : B5 m c main_arg3 = m ((c : Thread nD τ).loc main_arg3) :=
  (B5_keep m c main_arg3 (by decide)).trans <| ((B4_arr m c 1).trans (((datN (R3 m) c).arrAt_in 1 rfl _).trans (datN_A (R3 m) c 1))).trans <|
    (B3_keep m c main_arg3 (by decide)).trans <| (B2_of_ne m c main_arg3 (by decide)).trans <| (B1_keep m c main_arg3 (by decide)).trans rfl
theorem B5_main_arg4 (c : Dev nD) : B5 m c main_arg4 = m ((c : Thread nD τ).loc main_arg4) :=
  (B5_keep m c main_arg4 (by decide)).trans <| (B4_of_ne m c main_arg4 (by decide)).trans <| (B3_keep m c main_arg4 (by decide)).trans <|
    (B2_of_ne m c main_arg4 (by decide)).trans <| (B1_keep m c main_arg4 (by decide)).trans rfl
theorem B5_main_arg5 (c : Dev nD) : B5 m c main_arg5 = m ((c : Thread nD τ).loc main_arg5) :=
  (B5_keep m c main_arg5 (by decide)).trans <| (B4_of_ne m c main_arg5 (by decide)).trans <| (B3_keep m c main_arg5 (by decide)).trans <|
    (B2_of_ne m c main_arg5 (by decide)).trans <| (B1_keep m c main_arg5 (by decide)).trans rfl
theorem B5_main_arg6 (c : Dev nD) : B5 m c main_arg6 = m ((c : Thread nD τ).loc main_arg6) :=
  (B5_keep m c main_arg6 (by decide)).trans <| (B4_of_ne m c main_arg6 (by decide)).trans <| (B3_keep m c main_arg6 (by decide)).trans <|
    (B2_of_ne m c main_arg6 (by decide)).trans <| (B1_keep m c main_arg6 (by decide)).trans rfl

/-! ## The proof data of both stages, and what rides along -/

/-- Each stage's proof data at its own entry contents. -/
def stages : (p : Fin 2) → (c : Dev nD) → Dat τ (Elt F) Unit ℕ (UR sig nD τ) ℕ (Pipeline.pin (pcfgs (F := F)) adm p) c
  | ⟨0, _⟩ => fun c => datL (R1 m) c
  | ⟨1, _⟩ => fun c => datN (R3 m) c
abbrev noVar : Variants := Variants.none
/-- No core waits on another: no level is assigned. -/
abbrev noL : GSem nD τ sig → Finset Unit := fun _ => ∅
abbrev noLv : GSem nD τ sig → Unit → ℕ := fun _ _ => 0
/-- Beside the buffers, through every stretch: the generator register at some state, and the core owing nothing. -/
abbrev ride (c : Dev nD) : sProp 𝕄 := iprop((∃ r, prngReg c r) ∗ ∃ W, owes (c : Thread nD τ) (0 : CellTallies nD τ sig Unit) W)
theorem ride_owes (c : Dev nD) : ride (F := F) c ⊢ (iprop(∃ W, owes (c : Thread nD τ) (0 : CellTallies nD τ sig Unit) W) : sProp 𝕄) := by
  iintro ⟨-, HO⟩; iexact HO
/-- A host stretch over the unscoped buffers from contents W. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two dense stages as segments -/

set_option backward.isDefEq.respectTransparency.types false in
/-- The first dense stage: entered with every unscoped buffer at B1, left with them at B2. Its four arrays are taken
    out of the unscoped buffers and put back at their exit contents; the generator register goes into the stage's
    invariant and comes back; nothing is owed; the kernel has no semaphore of its own. -/
def segL : Pipeline.RegionSeg (pcfgs (F := F)) adm (stages m) () defs₀ noVar noL noLv 0 where
  win := launch0.win.to₀
  block_pos := launch0.block_pos
  stage_whole := launch0.stage_whole
  K := PEmpty
  osem k := k.elim
  ho := Pipeline.OwnSemFacts.none _
  hbody c := (lin1_obligation (R1 m) c).loose
  hwaits := Pipeline.hwaits_of_owed_zero _ _ _ _ noL noLv 0 fun _ _ => rfl
  pre c := iprop(StableHlo.held (c : Thread nD τ) (Pipeline.ucRefs τ sig) (B1 m c) ∗ ride c)
  post c := iprop(StableHlo.held (c : Thread nD τ) (Pipeline.ucRefs τ sig) (B2 m c) ∗ ride c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (stages m) launch0.win launch0.arr_whole c
      ((stages m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stages m 0 c).Φ 0 = Pipeline.ΦA spec0 c from rfl]; unfold Pipeline.ΦA
    iintro ⟨Hp, -, Hr⟩
    isplitl [Hr]; · iexact Hr
    iexact Hp
  hout c := by
    rw [Pipeline.ownSems0_none, show (stages m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (stages m) ((stages m 0 c).share_full fun _ => rfl)
      (R1 m c) (R2 m c) ((stages m 0 c).arrAt · cfg0.N) (exitL m c) (keptL m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second dense stage: entered with every unscoped buffer at B3, left with them at B4. As the first, except
    that its invariant names what the accumulator holds between points: the launch's form of it enters before the
    first point and comes back after the last. -/
def segN : Pipeline.RegionSeg (pcfgs (F := F)) adm (stages m) () defs₀ noVar noL noLv 1 where
  win := launch1.win.to₀
  block_pos := launch1.block_pos
  stage_whole := launch1.stage_whole
  K := PEmpty
  osem k := k.elim
  ho := Pipeline.OwnSemFacts.none _
  hbody c := (norm_obligation (R3 m) c).loose
  hwaits := Pipeline.hwaits_of_owed_zero _ _ _ _ noL noLv 1 fun _ _ => rfl
  pre c := iprop(StableHlo.held (c : Thread nD τ) (Pipeline.ucRefs τ sig) (B3 m c) ∗ ride c)
  post c := iprop(StableHlo.held (c : Thread nD τ) (Pipeline.ucRefs τ sig) (B4 m c) ∗ ride c)
  X c := iprop(∃ r, prngReg c r)
  Y c := iprop(∃ r, prngReg c r)
  Z c := Pipeline.unscopedRest (Ix := Unit) (Name := ℕ) (U := UR sig nD τ) (Lvl := ℕ) spec1 c (R3 m c)
  hentry c := by
    rw [Pipeline.ownSems0_none]
    have hsplit := Pipeline.arrays_of_unscopedBufs (p := 1) (pcfgs (F := F)) adm (stages m) launch1.win launch1.arr_whole c
      ((stages m 1 c).share_full fun _ => rfl) (R3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stages m 1 c).Φ 0 = (datN (R3 m) c).Φ 0 from rfl]
    have h := norm_in (R3 m) c
    unfold Pipeline.ΦA at h
    iintro ⟨Hp, -, Hr⟩
    iapply h
    isplitl [Hr]; · iexact Hr
    iexact Hp
  hout c := by
    rw [Pipeline.ownSems0_none, show (stages m 1 c).Φ (Fin.last _) = (datN (R3 m) c).Φ (Fin.last cfg1.N) from rfl]
    have h := norm_out (R3 m) c
    unfold Pipeline.ΦA at h
    iintro Hq
    ihave H := h $$ Hq
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (stages m) ((stages m 1 c).share_full fun _ => rfl)
      (R3 m c) (R4 m c) ((stages m 1 c).arrAt · cfg1.N) (exitN m c) (keptN m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its five stretches, and the run -/

abbrev stretches : List (Pipeline.Seg (pcfgs (F := F)) adm (stages m) () defs₀ noVar noL noLv) :=
  [ .host (stretch hostOps0 hostOps0_sub hostOps0_fresh (B0 m)),
    .region (segL m),
    .host (stretch hostOps1 hostOps1_sub hostOps1_fresh (B2 m)),
    .region (segN m),
    .host (stretch hostOps2 hostOps2_sub hostOps2_fresh (B4 m)) ]

theorem main_stretches (c : Dev nD) : main (F := F) c = Pipeline.Seg.run (stretches m) := (main_chain c).trans (by chain_rfl)

set_option backward.isDefEq.respectTransparency.types false in
/-- From any memory with zero counters every weakly fair execution of the program terminates, nothing faulting, and
    every buffer the program does not scope ends at the fold's last value B5. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) adm (stages m) () cellOf_inj emb₁ defs₀ noVar noL noLv m ρ main (stretches m)
    (fun c Q => by rw [main_stretches m c])
    (by simp only [stretches, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ ride c))
    (Tₙ := fun c => StableHlo.held (c : Thread nD τ) (Pipeline.ucRefs τ sig) (B5 m c))
    (hch := ⟨fun _ => .rfl, fun _ => .rfl, fun _ => .rfl, fun _ => .rfl, fun _ => .rfl, fun c => sep_mono .rfl (ride_owes c)⟩)
    (hinit := by
      refine Pipeline.initEach noL noLv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨Hh, HSI⟩
      unfold StableHlo.held
      imodintro
      iapply (pointsTo_read_all (Pipeline.ucRefs τ sig) (fun b => (((c : Thread nD τ)).1, b)) (B5 m c) s')
      isplitl [Hh] <;> iassumption)
    (hQ := fun s h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (B5_main_arg0 m c),
     (h c _ (mem_uc main_arg1 (by decide))).trans (B5_main_arg1 m c),
     (h c _ (mem_uc main_arg2 (by decide))).trans (B5_main_arg2 m c),
     (h c _ (mem_uc main_arg3 (by decide))).trans (B5_main_arg3 m c),
     (h c _ (mem_uc main_arg4 (by decide))).trans (B5_main_arg4 m c),
     (h c _ (mem_uc main_arg5 (by decide))).trans (B5_main_arg5 m c),
     (h c _ (mem_uc main_arg6 (by decide))).trans (B5_main_arg6 m c)⟩) (run_all m ρ)

end Cert.KernelIdeal.Fr

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.LibKeepdims.lean ====
/- Layout operations and one-axis reductions of small ranks read at an index written by coordinates.

   What a row-wise kernel with `keepdims` sums meets: a column [a] viewed as [a, 1]; a matrix [a, c] viewed as
   [a, 1, c]; the broadcasts [a, 1, c] → [a, b, c] and [a, 1] → [a, b]; a sum or a maximum over the last axis of a
   rank-3 or rank-2 vector, and a sum over the first axis of a rank-2 vector, each as a sum or fold over that axis's
   coordinate; the host's reductions over the last axis of a rank-2 array likewise. Every shape fact is a variable,
   so a lemma applies whatever proof term a program carries for it. -/
import Idealize.ShloMosaic.Lib.Pipeline.Value
import Idealize.ShloMosaic.Lib.ValueIdx
import Idealize.ShloMosaic.PureOps.Ideal.Laws

noncomputable section

open scoped BigOperators

namespace Cert.Keepdims

open Idealize.ShloMosaic Idealize.ShloMosaic.ValueIdx

variable {α : Type}

/-- A column [a] viewed as [a, 1] reads, at (r, u), the column at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A matrix [a, c] viewed as [a, 1, c] reads, at (r, u, q), the matrix at (r, q). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (q : Fin c) :
    shapeCast ⟨3, ![a, 1, c]⟩ x h (ix3 r u q) = x (ix2 r q) :=
  shapeCast_apply x h _ _ (by
    have hu : u.val = 0 := by omega
    rw [Shape.rowMajor_val_three, Shape.rowMajor_val_two]
    show r.val * c + q.val = (r.val * 1 + u.val) * c + q.val
    rw [hu, Nat.mul_one, Nat.add_zero])

/-- [a, 1, c] broadcast along its middle axis reads, at (r, k, q), the operand at (r, 0, q). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (k : Fin b) (q : Fin c) :
    broadcastTo ⟨3, ![a, b, c]⟩ x h (ix3 r k q) = x (ix3 r (0 : Fin 1) q) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl]
    | ⟨2, _⟩ => by
      have := q.isLt
      show q.val = if c = 1 then 0 else q.val
      split <;> omega)

/-- A column [a, 1] broadcast along its unit axis reads, at (r, k), the column at (r, 0). -/
theorem broadcastTo_a1_ab_apply {a b : ℕ} (x : (⟨2, ![a, 1]⟩ : Shape).Idx → α)
    (h : (⟨2, ![a, 1]⟩ : Shape).Broadcasts ⟨2, ![a, b]⟩) (r : Fin a) (k : Fin b) :
    broadcastTo ⟨2, ![a, b]⟩ x h (ix2 r k) = x (ix2 r (0 : Fin 1)) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl])

/-- The index over (r, k) with q inserted on the last of three axes is (r, k, q). -/
theorem lift_last3 {a b c : ℕ} (h : (⟨3, ![a, b, c]⟩ : Shape).Reduces [2] ⟨2, ![a, b]⟩) (r : Fin a) (k : Fin b) (q : Fin c) :
    h.lift (ix2 r k) q = ix3 r k q :=
  funext fun ax => Fin.ext (by match ax with | ⟨0, _⟩ => rfl | ⟨1, _⟩ => rfl | ⟨2, _⟩ => rfl)

/-- The index over (r) with k inserted on the last of two axes is (r, k). -/
theorem lift_last2 {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- The index over (q) with r inserted on the first of two axes is (r, q). -/
theorem lift_first2 {a b : ℕ} (h : (⟨2, ![a, b]⟩ : Shape).Reduces [0] ⟨1, ![b]⟩) (r : Fin a) (q : Fin b) :
    h.lift (ix1 q) r = ix2 r q :=
  funext fun ax => Fin.ext (by match ax with | ⟨0, _⟩ => rfl | ⟨1, _⟩ => rfl)

variable {φ : FTy}

/-- A sum over the last of three axes, at (r, k): the sum over q of the source at (r, k, q). -/
theorem sum_last3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (r : Fin a) (k : Fin b) :
    multiReduction .add [2] ⟨2, ![a, b]⟩ src acc h hφ hacc (ix2 r k) = ∑ q : Fin c, src (ix3 r k q) :=
  (Ideal.multiReduction_add_single src acc h hφ hacc (ix2 r k)).trans
    (Finset.sum_congr rfl fun q _ => congrArg src (lift_last3 h r k q))

/-- A sum over the last of two axes, at (r): the sum over k of the source at (r, k). -/
theorem sum_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_last2 h r k))

/-- A sum over the first of two axes, at (q): the sum over r of the source at (r, q). -/
theorem sum_first2_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) :=
  (Ideal.multiReduction_add_single src acc h hφ hacc (ix1 q)).trans
    (Finset.sum_congr rfl fun r _ => congrArg src (lift_first2 h r q))

/-- A maximum over the last of two axes, at (r): the fold of max, from the accumulator's value, over k of the
    source at (r, k). -/
theorem max_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun g => (Finset.univ : Finset (Fin b)).fold max (Ideal.ofBits φ acc) g)
      (funext fun k => congrArg src (lift_last2 h r k)))

/-- The host's maximum over the last of two axes, at (r): the same fold, from the initial value's element. -/
theorem host_max_last2_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) :=
  (Host.reduce_eq_fold_single (FloatOps.maximumf (F := Ideal) (φ := φ)) x init h' h hu (ix1 r)).trans
    (congrArg (fun g => (Finset.univ : Finset (Fin b)).fold max (init (Shape.Idx.first hu)) g)
      (funext fun k => congrArg x (lift_last2 h r k)))

end Cert.Keepdims

end
-- ==== Proof.KI.Linear1Value.lean ====
/-
  The first dense stage read entry by entry: once all ten grid points have run, row r and column j of the array
  the stage writes hold sin(Σ_k x[r,k] · W1ᵀ[k,j] + b1[j]), for whatever contents x, W1ᵀ and the bias row have
  when the stage is entered. Three steps. What one point computes, at a row p and column q of its block, is the
  sine of the block's row p against column q of W1ᵀ plus the bias at q. The block a point leaves is that payload
  of the three blocks it read. And the ten output blocks tile the rows of the array, block t being rows
  5000·t … 5000·t + 4999, each read from the same rows of x and from all of W1ᵀ and the bias row; so the array
  ends as one function of x, W1ᵀ and the bias, index by index.
-/
import proofs.«109729_j48069273977167_1_alg».proof.Proof.KI.Linear1
import proofs.«109729_j48069273977167_1_alg».proof.Proof.LibDotPlain
import proofs.«109729_j48069273977167_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! ## One point's payload at a row and a column -/

/-- The bias row spread over a block's rows reads, at (p, q), the bias at q. -/
theorem bias_row_spread (b : Vec Ideal S1x128 .f32) (p : Fin 5000) (q : Fin 128) :
    broadcastTo S5000x128 (shapeCast S1x128 b shapeCasts_S1x128_S1x128) broadcasts_S1x128_S5000x128 (ix2 p q)
      = b (ix2 (0 : Fin 1) q) := by
  rw [shapeCast_self]
  exact broadcastTo_apply b _ (ix2 p q) (ix2 (0 : Fin 1) q) (fun ax => match ax with
    | ⟨0, _⟩ => by
      show 0 = if (1 : ℕ) = 1 then 0 else p.val
      rw [if_pos rfl]
    | ⟨1, _⟩ => by
      show q.val = if (128 : ℕ) = 1 then 0 else q.val
      rw [if_neg (by decide)])

/-- The payload of a point at (p, q): the sine of row p of the x block against column q of W1ᵀ, plus the bias at q.
    The change of float format before the product is the identity on extended reals, the product into the zero
    accumulator is the plain sum over the contracted coordinate, the sum and the sine act entry by entry. -/
theorem dense_sin_apply (x : Vec Ideal S5000x256 .f32) (w : Vec Ideal S256x128 .f32) (b : Vec Ideal S1x128 .f32)
    (p : Fin 5000) (q : Fin 128) :
    k0_pay1 x w b (ix2 p q) = Ideal.sin ((∑ k : Fin 256, x (ix2 p k) * w (ix2 k q)) + b (ix2 (0 : Fin 1) q)) := by
  unfold k0_pay1
  show Ideal.sin (_ + _) = Ideal.sin (_ + _)
  refine congrArg Ideal.sin (congrArg₂ (· + ·) ?_ (bias_row_spread b p q))
  rw [shapeCast_self]
  exact Cert.DotPlain.matmul_zero_rows_cols dot_S5000x256_S256x128_S5000x128_1_0_0_1_n_n rfl rfl rfl rfl rfl rfl none _ _ p q

/-! ## The block a point leaves -/

/-- The offsets of a whole buffer's rectangle are all zero. -/
theorem origin2 : (![0, 0] : Fin 2 → Nat) = fun _ => 0 := funext fun a => by fin_cases a <;> rfl

/-- A point's one store covers its output buffer from the origin and its three loads read whole buffers, so the
    block it leaves is the payload of the three blocks it read. -/
theorem hBlock_eq_pay (x : Vec Ideal S5000x256 .f32) (w : Vec Ideal S256x128 .f32) (b : Vec Ideal S1x128 .f32) :
    hBlock x w b = k0_pay1 x w b := by
  unfold hBlock
  rw [View.canon_unit_zero origin2, View.ld_unit_zero (S := S5000x256) origin2, View.ld_unit_zero (S := S256x128) origin2,
    View.ld_unit_zero (S := S1x128) origin2]

/-! ## From the ten blocks to the array -/

variable (V : (c : Dev nD) → (b : Ref sig .tc) → Buf (Elt Ideal) ((c : Thread nD τ).loc b))

/-- The whole array the stage computes, as a function of x, W1ᵀ and the bias row: entry (r, j) is
    sin(Σ_k x[r,k] · W1ᵀ[k,j] + b1[j]). -/
def denseSin (X : FVec Ideal S50000x256 .f32) (W : FVec Ideal S256x128 .f32) (B : FVec Ideal S1x128 .f32) :
    FVec Ideal S50000x128 .f32 :=
  fun i => Ideal.sin ((∑ k : Fin 256, X (ix2 (i 0) k) * W (ix2 k (i 1))) + B (ix2 (0 : Fin 1) (i 1)))

/-- That function at an index whose coordinates are r and j. -/
theorem denseSin_at (X : FVec Ideal S50000x256 .f32) (W : FVec Ideal S256x128 .f32) (B : FVec Ideal S1x128 .f32)
    (i : S50000x128.Idx) (r : Fin 50000) (j : Fin 128) (h0 : i 0 = r) (h1 : i 1 = j) :
    denseSin X W B i = Ideal.sin ((∑ k : Fin 256, X (ix2 r k) * W (ix2 k j)) + B (ix2 (0 : Fin 1) j)) := by
  subst h0; subst h1; rfl

/-- The block index of each window at each of the ten points: x and the output move down one block of rows a
    point; W1ᵀ and the bias row stay at their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block is row 5000·t + p of the array. -/
def blockRow (t : Fin cfg0.N) (p : Fin 5000) : Fin 50000 :=
  ⟨t.val * 5000 + p.val, by have ht : t.val < 10 := t.isLt; have hp := p.isLt; omega⟩

/-- Point t's block of x, at (p, k), is x at (5000·t + p, k). -/
theorem x_block_read (c : Dev nD) (t : Fin cfg0.N) (p : Fin 5000) (k : Fin 256) :
    blkL (F := Ideal) V c 0 t (ix2 p k) = (V c main_arg0 : FVec Ideal S50000x256 .f32) (ix2 (blockRow t p) k) := by
  obtain ⟨e0, e1, -⟩ := block_indices t
  show V c main_arg0 (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 256 + 1 * k.val = k.val; omega

/-- Every point's block of W1ᵀ is all of W1ᵀ. -/
theorem w_block_read (c : Dev nD) (t : Fin cfg0.N) (k : Fin 256) (q : Fin 128) :
    blkL (F := Ideal) V c 1 t (ix2 k q) = (V c main_v0 : FVec Ideal S256x128 .f32) (ix2 k q) := by
  obtain ⟨-, -, e0, e1, -⟩ := block_indices t
  show V c main_v0 (((cfg0.win 1).blk t).view.emb (ix2 k q)) = _
  refine congrArg _ (funext fun a => Fin.ext ?_)
  match a with
  | ⟨0, _⟩ => show win0_1.index t (0 : Fin 2) * 256 + 1 * k.val = k.val; omega
  | ⟨1, _⟩ => show win0_1.index t (1 : Fin 2) * 128 + 1 * q.val = q.val; omega

/-- Every point's block of the bias row is the bias row. -/
theorem b_block_read (c : Dev nD) (t : Fin cfg0.N) (u : Fin 1) (q : Fin 128) :
    blkL (F := Ideal) V c 2 t (ix2 u q) = (V c main_v1 : FVec Ideal S1x128 .f32) (ix2 u q) := by
  obtain ⟨-, -, -, -, e0, e1, -⟩ := block_indices t
  show V c main_v1 (((cfg0.win 2).blk t).view.emb (ix2 u q)) = _
  refine congrArg _ (funext fun a => Fin.ext ?_)
  match a with
  | ⟨0, _⟩ => show win0_2.index t (0 : Fin 2) * 1 + 1 * u.val = u.val; omega
  | ⟨1, _⟩ => show win0_2.index t (1 : Fin 2) * 128 + 1 * q.val = q.val; omega

/-- What point t writes back is block t of the whole-array function of the three arrays as the stage finds them. -/
theorem written_block (c : Dev nD) (t : Fin cfg0.N) :
    (datL (F := Ideal) V c).flushed 3 t
      = ((cfg0.win 3).blk t).view.read (Elt Ideal) (denseSin (V c main_arg0) (V c main_v0) (V c main_v1)) := by
  show (cfg0.win 3).cut (grid0.coords t) ((datL V c).after 3 t) = _
  rw [datL_after3, hBlock_eq_pay]
  obtain ⟨-, -, -, -, -, -, e0, e1⟩ := block_indices t
  funext y
  obtain ⟨p, q, rfl⟩ : ∃ (p : Fin 5000) (q : Fin 128), y = ix2 p q := ⟨y 0, y 1, eq_ix2 y⟩
  show k0_pay1 (blkL V c 0 t) (blkL V c 1 t) (blkL V c 2 t) (ix2 p q)
    = denseSin (V c main_arg0) (V c main_v0) (V c main_v1) (((cfg0.win 3).blk t).view.emb (ix2 p q))
  have h0 : (((cfg0.win 3).blk t).view.emb (ix2 p q) : S50000x128.Idx) 0 = blockRow t p :=
    Fin.ext (by show win0_3.index t (0 : Fin 2) * 5000 + 1 * p.val = t.val * 5000 + p.val; omega)
  have h1 : (((cfg0.win 3).blk t).view.emb (ix2 p q) : S50000x128.Idx) 1 = q :=
    Fin.ext (by show win0_3.index t (1 : Fin 2) * 128 + 1 * q.val = q.val; omega)
  refine ((dense_sin_apply _ _ _ p q).trans ?_).trans (denseSin_at _ _ _ _ _ _ h0 h1).symm
  exact congrArg Ideal.sin (congrArg₂ (· + ·)
    (Finset.sum_congr rfl fun k _ => congrArg₂ (· * ·) (x_block_read V c t p k) (w_block_read V c t k q))
    (b_block_read V c t 0 q))

/-- An index of the array is in point t's output block iff each coordinate is in the block's range on its axis. -/
theorem mem_out_block (t : Fin cfg0.N) (i : S50000x128.Idx) :
    i ∈ ((cfg0.win 3).blk t).view.set
      ↔ ∀ a : Fin 2, win0_3.index t a * S5000x128.size a ≤ (i a).val ∧ (i a).val < win0_3.index t a * S5000x128.size a + S5000x128.size a := by
  show i ∈ ((View.whole main_v2).slice (win0_3.rect t)).set ↔ _
  rw [View.set_slice_whole, Rect.mem_set_unit]
  exact Iff.rfl

/-- The ten output blocks tile the rows: row r lies in the block of point r / 5000, and every point writes back. -/
theorem rows_covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show (i 0).val / 5000 < 10; omega⟩, rfl⟩
  obtain ⟨-, -, -, -, -, -, e0, e1⟩ := block_indices t
  refine ⟨t, flush0_3 t, ?_⟩
  rw [mem_out_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The array after the ten points: the whole-array function of x, W1ᵀ and the bias row at entry. -/
theorem lin1_array (c : Dev nD) :
    (datL (F := Ideal) V c).arrAt 3 cfg0.N = denseSin (V c main_arg0) (V c main_v0) (V c main_v1) :=
  (datL V c).arrAt_eq_of_cover 3 _ (fun t _ => written_block V c t) rows_covered

/-- Entry (r, j) of the array the first dense stage leaves, with x, W1ᵀ and the bias row named at their literal
    types (X, W, B are the three arrays as the stage finds them). -/
theorem lin1_entry (c : Dev nD) (r : Fin 50000) (j : Fin 128)
    (X : FVec Ideal S50000x256 .f32) (W : FVec Ideal S256x128 .f32) (B : FVec Ideal S1x128 .f32)
    (hX : X = V c main_arg0) (hW : W = V c main_v0) (hB : B = V c main_v1) :
    (datL (F := Ideal) V c).arrAt 3 cfg0.N (ix2 r j)
      = Ideal.sin ((∑ k : Fin 256, X (ix2 r k) * W (ix2 k j)) + B (ix2 (0 : Fin 1) j)) := by
  subst hX; subst hW; subst hB
  exact (congrFun (lin1_array V c) (ix2 r j)).trans (denseSin_at _ _ _ _ r j rfl rfl)

end Cert.KernelIdeal.Fr

end
-- ==== Proof.Spec.lean ====
/-
  What both programs compute, as functions of the seven arguments over the extended reals.

  hidden layer   h[r, j]  = sin(Σ_k x[r, k] · W1ᵀ[k, j] + b1[j])                       (50000 × 128)
  aggregation    agg      = the edge-weighted scatter-add of gathered rows of h          (50000 × 128)
                            — the same chain of host operations in both programs, kept here as ONE function
                            of h, the edge index pairs and the edge weights, never opened
  second layer   s[r]     = sin(Σ_l agg[r, l] · W2[0, l] + b2[0])
  result                  = sqrt(Σ_r s[r] · s[r])                                        (one number)

  Sums over the extended reals are sums in a commutative monoid: they may be regrouped freely, which is all that the
  comparison of the two programs needs.
-/
import proofs.«109729_j48069273977167_1_alg».proof.KernelIdeal
import proofs.«109729_j48069273977167_1_alg».proof.Proof.Gen.KernelIdeal
import Idealize.ShloMosaic.PureOps.Ideal
import Idealize.ShloMosaic.Lib.ValueIdx

noncomputable section

namespace Cert.Spec

open Cert.KernelIdeal Cert.KernelIdeal.Facts₀
open Idealize.ShloMosaic Idealize.ShloMosaic.ValueIdx
open scoped BigOperators

/-- One entry of the hidden layer: row r of x against column j of W1ᵀ, plus the bias, through the sine. -/
def hidAt (x : FVec Ideal S50000x256 .f32) (w1t : FVec Ideal S256x128 .f32) (b1 : FVec Ideal S128 .f32)
    (r : Fin 50000) (j : Fin 128) : EReal :=
  Ideal.sin ((∑ k : Fin 256, x (ix2 r k) * w1t (ix2 k j)) + b1 (ix1 j))

/-- The hidden layer as an array. -/
def hid (x : FVec Ideal S50000x256 .f32) (w1t : FVec Ideal S256x128 .f32) (b1 : FVec Ideal S128 .f32) :
    FVec Ideal S50000x128 .f32 :=
  fun i => hidAt x w1t b1 (i 0) (i 1)

theorem hid_ix2 (x : FVec Ideal S50000x256 .f32) (w1t : FVec Ideal S256x128 .f32) (b1 : FVec Ideal S128 .f32)
    (r : Fin 50000) (j : Fin 128) : hid x w1t b1 (ix2 r j) = hidAt x w1t b1 r j := rfl

/-- The edge-weighted aggregation, exactly as both programs' host operations spell it: rows of h gathered at the
    edges' source nodes (a negative index counted from the end), each scaled by its edge's weight, scatter-added into
    a zero array at the edges' target nodes. One opaque function of h, the index pairs and the weights. -/
def glue {F : FTy → Type} [FloatOps F] (h : (⟨S50000x128, .f32⟩ : BufTy).Contents (Elt F))
    (ei : (⟨S2x800000, .i32⟩ : BufTy).Contents (Elt F)) (ew : (⟨S800000, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0
      (shapeCast _ (extractStridedSlice S1x800000 ![0, 0] ei slices_S2x800000_S1x800000_0_0) shapeCasts_S1x800000_S800000))
    (mulf (broadcastInDim S800000x128 ![0, 1] bcast_S800000x1_S800000x128_0_1 (broadcastInDim S800000x1 ![0] bcast_S800000_S800000x1_0 ew))
      (Host.gather gather_S50000x128_S800000x1_S800000x128_1_0_n_n_0_1_1128 h
        (broadcastInDim S800000x1 ![0] bcast_S800000_S800000x1_0
          (select
            (cmpi .slt (shapeCast _ (extractStridedSlice S1x800000 ![1, 0] ei slices_S2x800000_S1x800000_1_0) shapeCasts_S1x800000_S800000)
              (broadcastInDim S800000 ![] bcast_S_S800000 (constantI S_ 32 0#32)))
            (addi (shapeCast _ (extractStridedSlice S1x800000 ![1, 0] ei slices_S2x800000_S1x800000_1_0) shapeCasts_S1x800000_S800000)
              (broadcastInDim S800000 ![] bcast_S_S800000 (constantI S_ 32 50000#32)))
            (shapeCast _ (extractStridedSlice S1x800000 ![1, 0] ei slices_S2x800000_S1x800000_1_0) shapeCasts_S1x800000_S800000)))))

/-- One row's contribution to the squared norm: the square of the sine of the row's product with W2 plus b2. -/
def rowSq (agg : FVec Ideal S50000x128 .f32) (w2 : FVec Ideal S1x128 .f32) (b2 : FVec Ideal S1 .f32) (r : Fin 50000) : EReal :=
  Ideal.sin ((∑ l : Fin 128, agg (ix2 r l) * w2 (ix2 (0 : Fin 1) l)) + b2 (ix1 (0 : Fin 1)))
    * Ideal.sin ((∑ l : Fin 128, agg (ix2 r l) * w2 (ix2 (0 : Fin 1) l)) + b2 (ix1 (0 : Fin 1)))

/-- The norm over the 50000 rows. -/
def norm (agg : FVec Ideal S50000x128 .f32) (w2 : FVec Ideal S1x128 .f32) (b2 : FVec Ideal S1 .f32) : EReal :=
  Ideal.sqrt (∑ r : Fin 50000, rowSq agg w2 b2 r)

/-- The result array (one entry). -/
def result (agg : FVec Ideal S50000x128 .f32) (w2 : FVec Ideal S1x128 .f32) (b2 : FVec Ideal S1 .f32) : FVec Ideal S1 .f32 :=
  fun _ => norm agg w2 b2

/-- The whole computation from the seven argument arrays. -/
def out (x : FVec Ideal S50000x256 .f32) (w1 : FVec Ideal S128x256 .f32) (b1 : FVec Ideal S128 .f32)
    (w2 : FVec Ideal S1x128 .f32) (b2 : FVec Ideal S1 .f32)
    (ei : (⟨S2x800000, .i32⟩ : BufTy).Contents (Elt Ideal)) (ew : FVec Ideal S800000 .f32) : FVec Ideal S1 .f32 :=
  result (glue (F := Ideal) (hid x (transpose S256x128 [1, 0] w1 transposes_S128x256_S256x128_1_0) b1) ei ew) w2 b2

end Cert.Spec

end
-- ==== Proof.LibBlockSum.lean ====
/- Sums over consecutive blocks, and a running sum as a finite sum.

   A sum over B blocks of R consecutive positions each is the sum over all B · R positions; a sequence that starts at
   `0 + c 0` and adds `c (n + 1)` at each step is, after step n, the sum of `c` over the first n + 1 steps. Both hold in
   any commutative additive monoid (the extended reals are one: regrouping a sum needs no finiteness). -/
import Mathlib.Algebra.BigOperators.Group.Finset.Basic
import Mathlib.Algebra.BigOperators.Fin
import Mathlib.Data.Fintype.BigOperators

namespace Cert.BlockSum

open scoped BigOperators

/-- Position `r` of block `t`, among all `N = B · R` positions. -/
def pos {B R N : Nat} (hN : B * R = N) (t : Fin B) (r : Fin R) : Fin N :=
  ⟨R * t.val + r.val, by
    have h1 := t.isLt
    have h2 := r.isLt
    have h3 : R * t.val + r.val < R * (t.val + 1) := by rw [Nat.mul_succ]; omega
    have h4 : R * (t.val + 1) ≤ R * B := Nat.mul_le_mul_left R h1
    rw [← hN, Nat.mul_comm B R]
    omega⟩

/-- The sum over the blocks of the sums over a block's positions is the sum over all positions. -/
theorem sum_blocks {M : Type*} [AddCommMonoid M] {B R N : Nat} (hN : B * R = N) (f : Fin N → M) :
    ∑ t : Fin B, ∑ r : Fin R, f (pos hN t r) = ∑ n : Fin N, f n := by
  subst hN
  rw [← Fintype.sum_prod_type' (fun t r => f (pos rfl t r)), ← Equiv.sum_comp finProdFinEquiv f]
  refine Finset.sum_congr rfl fun x _ => ?_
  congr 1
  apply Fin.ext
  show R * x.1.val + x.2.val = x.2.val + R * x.1.val
  exact Nat.add_comm _ _

/-- The block that holds position `n`, and `n`'s place in it. -/
theorem pos_div_mod {B R N : Nat} (hN : B * R = N) (hR : 0 < R) (n : Fin N) :
    ∃ (t : Fin B) (r : Fin R), n = pos hN t r ∧ t.val = n.val / R ∧ r.val = n.val % R := by
  have hn : n.val / R < B := by
    rw [Nat.div_lt_iff_lt_mul hR, hN]
    exact n.isLt
  refine ⟨⟨n.val / R, hn⟩, ⟨n.val % R, Nat.mod_lt _ hR⟩, ?_, rfl, rfl⟩
  apply Fin.ext
  show n.val = R * (n.val / R) + n.val % R
  exact (Nat.div_add_mod n.val R).symm

/-- A running sum from `0 + c 0`, adding `c (n + 1)` at step n + 1, is the sum over the first n + 1 steps. -/
theorem running_sum {M : Type*} [AddCommMonoid M] (c acc : ℕ → M) (h0 : acc 0 = 0 + c 0)
    (hs : ∀ n, acc (n + 1) = acc n + c (n + 1)) (n : ℕ) : acc n = ∑ t ∈ Finset.range (n + 1), c t := by
  induction n with
  | zero =>
    show acc 0 = ∑ t ∈ Finset.range 1, c t
    rw [h0, zero_add, Finset.sum_range_one]
  | succ n ih => rw [hs, ih, Finset.sum_range_succ c (n + 1)]

/-- The same sum over `Fin`: the first B steps as a sum over `Fin B`. -/
theorem sum_range_eq_sum_fin {M : Type*} [AddCommMonoid M] (B : ℕ) (c : ℕ → M) :
    ∑ t ∈ Finset.range B, c t = ∑ t : Fin B, c t.val :=
  Finset.sum_range c

end Cert.BlockSum
-- ==== Proof.KI.NormValue.lean ====
/-
  The second dense stage as a value. Its ten grid points each take 5000 rows of the aggregated array, multiply every
  row with the single row of W2, add the bias b2, take the sine, square it, and add the 5000 squares into a one-entry
  running total that was set to zero at the first point. After the last point the square root of the total is what
  the one-entry result array receives. Here the total after every point is identified with a sum over the rows seen
  so far, so that after the last point it is the sum over all 50000 rows, and the result entry is the square root of
  that sum: the norm the specification names. Sums are taken in the extended reals, where terms may be regrouped
  freely, so blocks of rows can be merged into one sum over all rows with no finiteness side condition.
-/
import proofs.«109729_j48069273977167_1_alg».proof.Proof.KI.Norm
import proofs.«109729_j48069273977167_1_alg».proof.Proof.Spec
import proofs.«109729_j48069273977167_1_alg».proof.Proof.LibBlockSum
import proofs.«109729_j48069273977167_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! ## The arithmetic of one point -/

/-- The value the running total is reset to: zero. -/
theorem reset_entry : (k1_pay1 (F := Ideal)) (ix2 (0 : Fin 1) (0 : Fin 1)) = 0 := by
  unfold k1_pay1
  rw [shapeCast_self]
  exact Ideal.ofBits_zero_f32

/-- One row's sine: the row's product with the weight row, plus the bias, through the sine. -/
def rowSin (a : Vec Ideal S5000x128 .f32) (w : Vec Ideal S1x128 .f32) (b : Vec Ideal S1x1 .f32) (p : Fin 5000) : EReal :=
  Ideal.sin ((∑ l : Fin 128, a (ix2 p l) * w (ix2 (0 : Fin 1) l)) + b (ix2 (0 : Fin 1) (0 : Fin 1)))

/-- The weight row spread over the block's rows reads, in any row, the weight row itself. -/
theorem spread_w (w : Vec Ideal S1x128 .f32) (p : Fin 5000) (l : Fin 128) :
    broadcastTo S5000x128 w broadcasts_S1x128_S5000x128 (ix2 p l) = w (ix2 (0 : Fin 1) l) :=
  broadcastTo_apply w broadcasts_S1x128_S5000x128 (ix2 p l) (ix2 (0 : Fin 1) l) (fun ax => match ax with
    | ⟨0, _⟩ => rfl
    | ⟨1, _⟩ => rfl)

/-- The one-entry bias spread over the block's rows reads, in any row, the bias entry. -/
theorem spread_b (b : Vec Ideal S1x1 .f32) (p : Fin 5000) :
    broadcastTo S5000x1 b broadcasts_S1x1_S5000x1 (ix2 p (0 : Fin 1)) = b (ix2 (0 : Fin 1) (0 : Fin 1)) :=
  broadcastTo_apply b broadcasts_S1x1_S5000x1 (ix2 p (0 : Fin 1)) (ix2 (0 : Fin 1) (0 : Fin 1)) (fun ax => match ax with
    | ⟨0, _⟩ => rfl
    | ⟨1, _⟩ => rfl)

/-- A row of the block against the weight row: the lane sum of the products. -/
theorem lane_sum (a : Vec Ideal S5000x128 .f32) (w : Vec Ideal S1x128 .f32) (p : Fin 5000) :
    multiReduction (F := Ideal) .add [1] S5000 (mulf a (broadcastTo S5000x128 w broadcasts_S1x128_S5000x128)) 0x00000000#32
        reduces_S5000x128_S5000 (.inl rfl) rfl (ix1 p)
      = ∑ l : Fin 128, a (ix2 p l) * w (ix2 (0 : Fin 1) l) :=
  (Cert.Keepdims.sum_last2_apply (mulf a (broadcastTo S5000x128 w broadcasts_S1x128_S5000x128)) 0x00000000#32
      reduces_S5000x128_S5000 (.inl rfl) rfl p).trans
    (Finset.sum_congr rfl fun l _ => (mulf_apply _ _ _).trans (congrArg (a (ix2 p l) * ·) (spread_w w p l)))

/-- The sine column of the block, read in row p. -/
theorem sin_col (a : Vec Ideal S5000x128 .f32) (w : Vec Ideal S1x128 .f32) (b : Vec Ideal S1x1 .f32) (p : Fin 5000) :
    (sin (addf (shapeCast S5000x1 (multiReduction (F := Ideal) .add [1] S5000 (mulf a (broadcastTo S5000x128 w broadcasts_S1x128_S5000x128))
        0x00000000#32 reduces_S5000x128_S5000 (.inl rfl) rfl) shapeCasts_S5000_S5000x1)
      (broadcastTo S5000x1 b broadcasts_S1x1_S5000x1)) : FVec Ideal S5000x1 .f32) (ix2 p (0 : Fin 1)) = rowSin a w b p := by
  unfold rowSin
  refine congrArg Ideal.sin ?_
  refine (addf_apply _ _ _).trans ?_
  refine congrArg₂ (· + ·) ?_ (spread_b b p)
  exact (Cert.Keepdims.shapeCast_a_a1_apply _ shapeCasts_S5000_S5000x1 p (0 : Fin 1)).trans (lane_sum a w p)

/-- What a point adds to the running total s: the sum, over the block's 5000 rows, of the squared sines. -/
theorem step_entry (a : Vec Ideal S5000x128 .f32) (w : Vec Ideal S1x128 .f32) (b s : Vec Ideal S1x1 .f32) :
    k1_pay2 a w b s (ix2 (0 : Fin 1) (0 : Fin 1))
      = s (ix2 (0 : Fin 1) (0 : Fin 1)) + ∑ p : Fin 5000, rowSin a w b p * rowSin a w b p := by
  unfold k1_pay2
  dsimp only
  rw [shapeCast_self, shapeCast_self, shapeCast_self]
  refine (addf_apply _ _ _).trans ?_
  refine congrArg (s (ix2 (0 : Fin 1) (0 : Fin 1)) + ·) ?_
  refine (shapeCast_apply _ shapeCasts_S1_S1x1 (ix2 (0 : Fin 1) (0 : Fin 1)) (ix1 (0 : Fin 1)) rfl).trans ?_
  refine (Cert.Keepdims.sum_first2_apply _ 0x00000000#32 reduces_S5000x1_S1 (.inl rfl) rfl (0 : Fin 1)).trans ?_
  refine Finset.sum_congr rfl fun p _ => ?_
  refine (mulf_apply _ _ _).trans ?_
  rw [sin_col a w b p]

/-- What the last point stores: the square root of the running total. -/
theorem root_entry (s : Vec Ideal S1x1 .f32) :
    k1_pay3 s (ix2 (0 : Fin 1) (0 : Fin 1)) = Ideal.sqrt (s (ix2 (0 : Fin 1) (0 : Fin 1))) := rfl

/-! ## The blocks a point reads -/

variable (V : (c : Dev nD) → (b : Ref sig .tc) → Buf (Elt Ideal) ((c : Thread nD τ).loc b))

/-- The aggregated array, the weight row and the bias entry as the region finds them. -/
abbrev aggArr (c : Dev nD) : FVec Ideal S50000x128 .f32 := V c main_v19
abbrev w2Arr (c : Dev nD) : FVec Ideal S1x128 .f32 := V c main_arg3
abbrev b2Arr (c : Dev nD) : FVec Ideal S1x1 .f32 := V c main_v20

/-- The three blocks point t reads. -/
abbrev aBlk (c : Dev nD) (t : Fin cfg1.N) : Vec Ideal S5000x128 .f32 := blkN V c 0 t
abbrev wBlk (c : Dev nD) (t : Fin cfg1.N) : Vec Ideal S1x128 .f32 := blkN V c 1 t
abbrev bBlk (c : Dev nD) (t : Fin cfg1.N) : Vec Ideal S1x1 .f32 := blkN V c 2 t

/-- The block index of each window at each point: the row window moves one block down per point, the other three
    stay at the origin. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Row p of point t's block of the aggregated array is row 5000·t + p of the array. -/
theorem aBlk_read (c : Dev nD) (t : Fin cfg1.N) (p : Fin 5000) (l : Fin 128) (h : 5000 * t.val + p.val < 50000) :
    aBlk V c t (ix2 p l) = aggArr V c (ix2 (⟨5000 * t.val + p.val, h⟩ : Fin 50000) l) := by
  unfold aBlk blkN
  rw [View.read_apply]
  show aggArr V c _ = aggArr V c _
  congr 1
  funext a
  apply Fin.ext
  match a with
  | ⟨0, _⟩ =>
    show win1_0.index t (0 : Fin 2) * 5000 + 1 * p.val = 5000 * t.val + p.val
    rw [(block_index t).1]; omega
  | ⟨1, _⟩ =>
    show win1_0.index t (1 : Fin 2) * 128 + 1 * l.val = l.val
    rw [(block_index t).2.1]; omega

/-- Every point's block of the weight row is the weight row. -/
theorem wBlk_read (c : Dev nD) (t : Fin cfg1.N) (l : Fin 128) :
    wBlk V c t (ix2 (0 : Fin 1) l) = w2Arr V c (ix2 (0 : Fin 1) l) := by
  unfold wBlk blkN
  rw [View.read_apply]
  show w2Arr V c _ = w2Arr V c _
  congr 1
  funext a
  apply Fin.ext
  match a with
  | ⟨0, _⟩ =>
    show win1_1.index t (0 : Fin 2) * 1 + 1 * 0 = 0
    rw [(block_index t).2.2.1]
  | ⟨1, _⟩ =>
    show win1_1.index t (1 : Fin 2) * 128 + 1 * l.val = l.val
    rw [(block_index t).2.2.2.1]; omega

/-- Every point's block of the bias entry is the bias entry. -/
theorem bBlk_read (c : Dev nD) (t : Fin cfg1.N) :
    bBlk V c t (ix2 (0 : Fin 1) (0 : Fin 1)) = b2Arr V c (ix2 (0 : Fin 1) (0 : Fin 1)) := by
  unfold bBlk blkN
  rw [View.read_apply]
  show b2Arr V c _ = b2Arr V c _
  congr 1
  funext a
  apply Fin.ext
  match a with
  | ⟨0, _⟩ =>
    show win1_2.index t (0 : Fin 2) * 1 + 1 * 0 = 0
    rw [(block_index t).2.2.2.2.1]
  | ⟨1, _⟩ =>
    show win1_2.index t (1 : Fin 2) * 1 + 1 * 0 = 0
    rw [(block_index t).2.2.2.2.2.1]

/-! ## The running total after each point -/

/-- The bias entry as the one-entry vector the specification takes. -/
abbrev b2Vec (c : Dev nD) : FVec Ideal S1 .f32 := fun _ => b2Arr V c (ix2 (0 : Fin 1) (0 : Fin 1))

/-- What block t contributes to the squared norm: the squares of its 5000 rows, counted as rows of the whole array
    (nothing past the tenth block). -/
def blockSq (c : Dev nD) (t : ℕ) : EReal :=
  if h : t < 10 then
    ∑ p : Fin 5000, Cert.Spec.rowSq (aggArr V c) (w2Arr V c) (b2Vec V c)
      (Cert.BlockSum.pos (B := 10) (R := 5000) (N := 50000) rfl ⟨t, h⟩ p)
  else 0

/-- Row p of point t's block gives the square the specification assigns to row 5000·t + p. -/
theorem block_term (c : Dev nD) (t : Fin cfg1.N) (p : Fin 5000) (h10 : t.val < 10) :
    rowSin (aBlk V c t) (wBlk V c t) (bBlk V c t) p * rowSin (aBlk V c t) (wBlk V c t) (bBlk V c t) p
      = Cert.Spec.rowSq (aggArr V c) (w2Arr V c) (b2Vec V c)
          (Cert.BlockSum.pos (B := 10) (R := 5000) (N := 50000) rfl ⟨t.val, h10⟩ p) := by
  have e : rowSin (aBlk V c t) (wBlk V c t) (bBlk V c t) p
      = Ideal.sin ((∑ l : Fin 128, aggArr V c (ix2 (Cert.BlockSum.pos (B := 10) (R := 5000) (N := 50000) rfl ⟨t.val, h10⟩ p) l)
          * w2Arr V c (ix2 (0 : Fin 1) l)) + b2Vec V c (ix1 (0 : Fin 1))) := by
    unfold rowSin
    refine congrArg Ideal.sin (congrArg₂ (· + ·) (Finset.sum_congr rfl fun l _ => ?_) (bBlk_read V c t))
    exact congrArg₂ (· * ·) (aBlk_read V c t p l (Cert.BlockSum.pos (B := 10) (R := 5000) (N := 50000) rfl ⟨t.val, h10⟩ p).isLt)
      (wBlk_read V c t l)
  unfold Cert.Spec.rowSq
  rw [e]

/-- After point n the running total is the sum of the contributions of blocks 0 … n. -/
theorem total_after (c : Dev nD) : ∀ (n : ℕ) (h : n < cfg1.N),
    ((accAt V c n h).2 : Vec Ideal S1x1 .f32) (ix2 (0 : Fin 1) (0 : Fin 1)) = ∑ t ∈ Finset.range (n + 1), blockSq V c t
  | 0, h => by
    rw [accAt_first V c h]
    refine (step_entry (aBlk V c ⟨0, h⟩) (wBlk V c ⟨0, h⟩) (bBlk V c ⟨0, h⟩) (k1_pay1 (F := Ideal))).trans ?_
    rw [reset_entry, zero_add, Finset.sum_range_one]
    unfold blockSq
    rw [dif_pos (by decide : 0 < 10)]
    exact Finset.sum_congr rfl fun p _ => block_term V c ⟨0, h⟩ p (Nat.zero_lt_succ 9)
  | n + 1, h => by
    have hN : cfg1.N = 10 := N_1
    have h10 : n + 1 < 10 := by omega
    rw [accAt_step V c n h]
    refine (step_entry (aBlk V c ⟨n + 1, h⟩) (wBlk V c ⟨n + 1, h⟩) (bBlk V c ⟨n + 1, h⟩)
      (accAt V c n (Nat.lt_of_succ_lt h)).2).trans ?_
    rw [total_after c n (Nat.lt_of_succ_lt h), Finset.sum_range_succ _ (n + 1)]
    refine congrArg ((∑ t ∈ Finset.range (n + 1), blockSq V c t) + ·) ?_
    unfold blockSq
    rw [dif_pos h10]
    exact Finset.sum_congr rfl fun p _ => block_term V c ⟨n + 1, h⟩ p h10

/-- After the last point the running total is the sum over all 50000 rows. -/
theorem total_all (c : Dev nD) (h9 : 9 < cfg1.N) :
    ((accAt V c 9 h9).2 : Vec Ideal S1x1 .f32) (ix2 (0 : Fin 1) (0 : Fin 1))
      = ∑ r : Fin 50000, Cert.Spec.rowSq (aggArr V c) (w2Arr V c) (b2Vec V c) r := by
  rw [total_after V c 9 h9, Cert.BlockSum.sum_range_eq_sum_fin 10 (blockSq V c)]
  refine Eq.trans (Finset.sum_congr rfl fun t _ => ?_)
    (Cert.BlockSum.sum_blocks (B := 10) (R := 5000) (N := 50000) rfl
      (Cert.Spec.rowSq (aggArr V c) (w2Arr V c) (b2Vec V c)))
  unfold blockSq
  rw [dif_pos t.isLt]

/-! ## The result array -/

/-- The one write-back, at the last point, moves the whole one-entry buffer: the block at the origin is the array. -/
theorem out_flushed (c : Dev nD) (h9 : 9 < cfg1.N) (t : Fin cfg1.N) (hf : (cfg1.win 3).flush t = true) :
    (datN (F := Ideal) V c).flushed 3 t
      = ((cfg1.win 3).blk t).view.read (Elt Ideal) ((accAt V c 9 h9).1 : Buf (Elt Ideal) ((c : Thread nD τ).loc main_v21)) := by
  have hN : cfg1.N = 10 := N_1
  have h3 : t.val = 9 := by have := (flush1_3 t).mp hf; have := t.isLt; omega
  obtain rfl : t = ⟨9, h9⟩ := Fin.ext h3
  show (cfg1.win 3).cut (grid1.coords ⟨9, h9⟩) ((datN (F := Ideal) V c).after 3 ⟨9, h9⟩) = _
  rw [datN_after3]
  funext y
  rw [View.read_apply]
  show ((accAt V c 9 h9).1 : Vec Ideal S1x1 .f32) _ = ((accAt V c 9 h9).1 : Vec Ideal S1x1 .f32) _
  refine congrArg ((accAt V c 9 h9).1 : Vec Ideal S1x1 .f32) ?_
  funext a
  apply Fin.ext
  match a with
  | ⟨0, _⟩ =>
    show (y 0).val = win1_3.index ⟨9, h9⟩ (0 : Fin 2) * 1 + 1 * (y 0).val
    rw [(block_index ⟨9, h9⟩).2.2.2.2.2.2.1]; omega
  | ⟨1, _⟩ =>
    show (y 1).val = win1_3.index ⟨9, h9⟩ (1 : Fin 2) * 1 + 1 * (y 1).val
    rw [(block_index ⟨9, h9⟩).2.2.2.2.2.2.2]; omega

/-- That block covers the one-entry array. -/
theorem out_cover (c : Dev nD) (h9 : 9 < cfg1.N) (i : ((cfg1.win 3).arr.view.loc (c.tc : Thread nD τ)).2.ty.Idx) :
    ∃ t : Fin cfg1.N, (cfg1.win 3).flush t = true ∧ i ∈ ((cfg1.win 3).blk t).view.set :=
  ⟨⟨9, h9⟩, (flush1_3 ⟨9, h9⟩).mpr rfl, by
    show i ∈ ((View.whole main_v21).slice (win1_3.rect ⟨9, h9⟩)).set
    rw [View.set_slice_whole, Rect.mem_set_unit]
    intro a
    have h0 : (i 0 : Nat) < 1 := (i 0).isLt
    have h1 : (i 1 : Nat) < 1 := (i 1).isLt
    match a with
    | ⟨0, _⟩ =>
      show win1_3.index ⟨9, h9⟩ (0 : Fin 2) * 1 ≤ (i 0 : Nat) ∧ (i 0 : Nat) < win1_3.index ⟨9, h9⟩ (0 : Fin 2) * 1 + 1
      rw [(block_index ⟨9, h9⟩).2.2.2.2.2.2.1]; omega
    | ⟨1, _⟩ =>
      show win1_3.index ⟨9, h9⟩ (1 : Fin 2) * 1 ≤ (i 1 : Nat) ∧ (i 1 : Nat) < win1_3.index ⟨9, h9⟩ (1 : Fin 2) * 1 + 1
      rw [(block_index ⟨9, h9⟩).2.2.2.2.2.2.2]; omega⟩

/-- So the result array ends holding what the last point left in the output buffer. -/
theorem out_array (c : Dev nD) (h9 : 9 < cfg1.N) :
    (datN (F := Ideal) V c).arrAt 3 cfg1.N = ((accAt V c 9 h9).1 : Buf (Elt Ideal) ((c : Thread nD τ).loc main_v21)) :=
  (datN (F := Ideal) V c).arrAt_eq_of_cover 3 _ (out_flushed V c h9) (out_cover c h9)

/-- The result entry is the norm over the 50000 rows of the aggregated array against W2 and b2. -/
theorem norm_entry (c : Dev nD) :
    ((datN (F := Ideal) V c).arrAt 3 cfg1.N : FVec Ideal S1x1 .f32) (ix2 (0 : Fin 1) (0 : Fin 1))
      = Cert.Spec.norm (V c main_v19) (V c main_arg3)
          (fun _ => (V c main_v20 : FVec Ideal S1x1 .f32) (ix2 (0 : Fin 1) (0 : Fin 1))) := by
  have h9 : 9 < cfg1.N := by rw [show cfg1.N = 10 from N_1]; decide
  rw [out_array V c h9, accAt_last V c h9]
  refine (root_entry (accAt V c 9 h9).2).trans ?_
  rw [total_all V c h9]
  rfl

end Cert.KernelIdeal.Fr

end
-- ==== Proof.KI.Value.lean ====
/-
  What the program's result buffer holds at the end, as the specification's function of the seven arguments.
  The fold of the buffers' contents is read back stretch by stretch: the first host stretch gives W1ᵀ and the bias
  row; the first dense stage's array is the hidden layer h; the second host stretch is the aggregation chain applied
  to h, the edge pairs and the edge weights, and b2 as a 1×1 array; the second dense stage's one entry is the norm
  of the aggregated rows against W2 and b2; the last reshape hands that entry over as the one-entry result.
-/
import proofs.«109729_j48069273977167_1_alg».proof.Proof.KI.Whole
import proofs.«109729_j48069273977167_1_alg».proof.Proof.KI.Linear1Value
import proofs.«109729_j48069273977167_1_alg».proof.Proof.KI.NormValue
import proofs.«109729_j48069273977167_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ)

/-! ## The host stretches, read back -/

/-- x reaches the first dense stage as launched. -/
theorem R1_arg0 (c : Dev nD) : R1 m c main_arg0 = m ((c : Thread nD τ).loc main_arg0) :=
  (B1_keep m c main_arg0 (by decide)).trans rfl

/-- W1ᵀ is the transpose of the launched W1. -/
theorem R1_v0 (c : Dev nD) :
    R1 m c main_v0 = transpose S256x128 [1, 0] (m ((c : Thread nD τ).loc main_arg1)) transposes_S128x256_S256x128_1_0 := by
  show StableHlo.after hostOps0 (B0 m c) (Proc.devRef .tc main_v0) = _
  after_results
  all_goals rfl

/-- The bias row is b1 viewed as 1 × 128. -/
theorem R1_v1 (c : Dev nD) :
    R1 m c main_v1 = shapeCast S1x128 (m ((c : Thread nD τ).loc main_arg2)) shapeCasts_S128_S1x128 := by
  show StableHlo.after hostOps0 (B0 m c) (Proc.devRef .tc main_v1) = _
  after_results
  all_goals rfl

/-- A buffer that neither the first host stretch nor the first dense stage touches is, after both, as launched. -/
theorem B2_arg (c : Dev nD) (b : Ref sig .tc) (h2 : ∀ w, Pipeline.arrRef spec0 w ≠ b) (h1 : b ∉ hostOps0_W) :
    B2 m c (Proc.devRef .tc b) = m ((c : Thread nD τ).loc b) :=
  (B2_of_ne m c b h2).trans ((B1_keep m c b h1).trans rfl)

/-- The aggregated array is the aggregation chain applied to the first stage's array, the edge pairs and the weights. -/
theorem R3_v19 (c : Dev nD) :
    R3 m c main_v19 = Cert.Spec.glue (F := Ideal) (R2 m c main_v2) (m ((c : Thread nD τ).loc main_arg5)) (m ((c : Thread nD τ).loc main_arg6)) := by
  show StableHlo.after hostOps1 (B2 m c) (Proc.devRef .tc main_v19) = _
  after_results
  rw [B2_arg m c main_arg5 (by decide) (by decide), B2_arg m c main_arg6 (by decide) (by decide)]
  all_goals rfl

/-- b2 reaches the second dense stage viewed as 1 × 1. -/
theorem R3_v20 (c : Dev nD) :
    R3 m c main_v20 = shapeCast S1x1 (m ((c : Thread nD τ).loc main_arg4)) shapeCasts_S1_S1x1 := by
  show StableHlo.after hostOps1 (B2 m c) (Proc.devRef .tc main_v20) = _
  after_results
  rw [B2_arg m c main_arg4 (by decide) (by decide)]
  all_goals rfl

/-- W2 reaches the second dense stage as launched. -/
theorem R3_arg3 (c : Dev nD) : R3 m c main_arg3 = m ((c : Thread nD τ).loc main_arg3) :=
  (B3_keep m c main_arg3 (by decide)).trans (B2_arg m c main_arg3 (by decide) (by decide))

/-- The result is the second stage's 1 × 1 array viewed as one entry. -/
theorem B5_v22 (c : Dev nD) :
    B5 m c main_v22 = shapeCast S1 (B4 m c main_v21) shapeCasts_S1x1_S1 := by
  show StableHlo.after hostOps2 (B4 m c) (Proc.devRef .tc main_v22) = _
  after_results
  all_goals rfl

/-! ## The two views of a vector of 128 and of one number -/

/-- b1 viewed as a 1 × 128 row reads, at (0, j), b1 at j. -/
theorem row_view (b : FVec Ideal S128 .f32) (j : Fin 128) :
    shapeCast S1x128 b shapeCasts_S128_S1x128 (ix2 (0 : Fin 1) j) = b (ix1 j) :=
  shapeCast_apply b shapeCasts_S128_S1x128 _ _ (by
    rw [Shape.rowMajor_val_two, Shape.rowMajor_val_one]
    show j.val = 0 * 128 + j.val
    omega)

/-- b2 viewed as 1 × 1 reads, at (0, 0), b2's one entry. -/
theorem one_view (b : FVec Ideal S1 .f32) :
    shapeCast S1x1 b shapeCasts_S1_S1x1 (ix2 (0 : Fin 1) (0 : Fin 1)) = b (ix1 (0 : Fin 1)) :=
  shapeCast_apply b shapeCasts_S1_S1x1 _ _ (by
    rw [Shape.rowMajor_val_two, Shape.rowMajor_val_one]
    rfl)

/-- A 1 × 1 array viewed as one entry reads that entry. -/
theorem one_entry (x : FVec Ideal S1x1 .f32) :
    shapeCast S1 x shapeCasts_S1x1_S1 (ix1 (0 : Fin 1)) = x (ix2 (0 : Fin 1) (0 : Fin 1)) :=
  shapeCast_apply x shapeCasts_S1x1_S1 _ _ (by
    rw [Shape.rowMajor_val_two, Shape.rowMajor_val_one]
    rfl)

/-! ## The hidden layer -/

/-- The first dense stage's array is the specification's hidden layer of x, W1ᵀ and b1. -/
theorem hidden (c : Dev nD) :
    R2 m c main_v2 = Cert.Spec.hid (m ((c : Thread nD τ).loc main_arg0))
      (transpose S256x128 [1, 0] (m ((c : Thread nD τ).loc main_arg1)) transposes_S128x256_S256x128_1_0)
      (m ((c : Thread nD τ).loc main_arg2)) := by
  have h3 : R2 m c main_v2 = (datL (F := Ideal) (R1 m) c).arrAt 3 cfg0.N := B2_arr m c 3
  rw [h3]
  funext i
  obtain ⟨r, j, rfl⟩ : ∃ (r : Fin 50000) (j : Fin 128), i = ix2 r j := ⟨i 0, i 1, eq_ix2 i⟩
  rw [lin1_entry (R1 m) c r j (m ((c : Thread nD τ).loc main_arg0))
    (transpose S256x128 [1, 0] (m ((c : Thread nD τ).loc main_arg1)) transposes_S128x256_S256x128_1_0)
    (shapeCast S1x128 (m ((c : Thread nD τ).loc main_arg2)) shapeCasts_S128_S1x128)
    (R1_arg0 m c).symm (R1_v0 m c).symm (R1_v1 m c).symm]
  rw [Cert.Spec.hid_ix2, row_view]
  rfl

/-! ## The result -/

/-- The norm depends on b2 only through its one entry. -/
theorem norm_of_entry (agg : FVec Ideal S50000x128 .f32) (w2 : FVec Ideal S1x128 .f32) (b b' : FVec Ideal S1 .f32)
    (h : b (ix1 (0 : Fin 1)) = b' (ix1 (0 : Fin 1))) : Cert.Spec.norm agg w2 b = Cert.Spec.norm agg w2 b' := by
  unfold Cert.Spec.norm Cert.Spec.rowSq
  rw [h]

/-- What the result buffer ends holding: the specification's function of the seven arguments as launched. -/
theorem kernel_value (c : Dev nD) :
    B5 m c main_v22 = Cert.Spec.out (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  rw [B5_v22]
  funext i
  obtain ⟨u, rfl⟩ : ∃ u : Fin 1, i = ix1 u := ⟨i 0, eq_ix1 i⟩
  obtain rfl : u = 0 := Subsingleton.elim _ _
  rw [one_entry]
  have h4 : B4 m c main_v21 = (datN (F := Ideal) (R3 m) c).arrAt 3 cfg1.N := B4_arr m c 3
  rw [h4, norm_entry (R3 m) c, R3_v19, R3_arg3, R3_v20, hidden]
  unfold Cert.Spec.out Cert.Spec.result
  exact norm_of_entry _ _ _ _ (one_view _)

/-- Every weakly fair execution of the program ends with the result buffer at the specification's value of the
    launched arguments, and the arguments as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v22) = Cert.Spec.out (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v22 (by decide))).trans (kernel_value m c),
     (h c _ (mem_uc main_arg0 (by decide))).trans (B5_main_arg0 m c),
     (h c _ (mem_uc main_arg1 (by decide))).trans (B5_main_arg1 m c),
     (h c _ (mem_uc main_arg2 (by decide))).trans (B5_main_arg2 m c),
     (h c _ (mem_uc main_arg3 (by decide))).trans (B5_main_arg3 m c),
     (h c _ (mem_uc main_arg4 (by decide))).trans (B5_main_arg4 m c),
     (h c _ (mem_uc main_arg5 (by decide))).trans (B5_main_arg5 m c),
     (h c _ (mem_uc main_arg6 (by decide))).trans (B5_main_arg6 m c)⟩) (run_all m ρ)

end Cert.KernelIdeal.Fr

end
-- ==== Proof.RefIsSpec.lean ====
/-
  The reference program computes the specification.

  The reference is a straight line of array operations. Read one element at a time it is: the hidden layer
  h[r, j] = sin(Σ_k x[r, k] · W1ᵀ[k, j] + b1[j]); the edge-weighted aggregation of h (gather at the edges' source
  nodes, scale by the edge weights, scatter-add at the target nodes), which is carried through untouched as one
  function of h, the index pairs and the weights; and finally the square root of the sum over the 50000 rows r of
  sin(Σ_l agg[r, l] · W2[0, l] + b2[0])². Each of the three stretches is matched with the specification's
  definition of it: the first and the last index by index, the middle one as the same expression.
-/
import proofs.«109729_j48069273977167_1_alg».proof.Proof.Spec
import proofs.«109729_j48069273977167_1_alg».proof.Proof.Gen.ReferenceIdeal.Run
import proofs.«109729_j48069273977167_1_alg».proof.Proof.Gen.ReferenceIdeal.Read
import Idealize.ShloMosaic.Lib.ValueIdx
import Idealize.ShloMosaic.PureOps.Ideal.Laws

noncomputable section

namespace Cert.RefSide

open Cert.ReferenceIdeal Cert.ReferenceIdeal.Gen Cert.ReferenceIdeal.Read
open Idealize.ShloMosaic Idealize.ShloMosaic.ValueIdx Idealize.ShloMosaic.TcCoe Idealize.SL.Sem
open scoped BigOperators

/-! ## The hidden layer -/

/-- The reference's first dense stage is the specification's hidden layer of x, W1ᵀ and b1: at row r and column j
    the product contracts x's row r with W1ᵀ's column j, the bias is read at j through its two broadcasts, and the
    host's sine at the extended reals is the sine. -/
theorem hidden_is_hid (x : (⟨S50000x256, .f32⟩ : BufTy).Contents (Elt Ideal))
    (w1 : (⟨S128x256, .f32⟩ : BufTy).Contents (Elt Ideal)) (b1 : (⟨S128, .f32⟩ : BufTy).Contents (Elt Ideal)) :
    val_main_v5 (F := Ideal) x w1 b1 = Cert.Spec.hid x (val_main_v0 (F := Ideal) w1) b1 := by
  funext i
  rw [val_main_v5_apply, val_main_v4_apply, val_main_v1_apply, val_main_v3_apply, val_main_v2_apply]
  generalize val_main_v0 (F := Ideal) w1 = wt
  have hl : ∀ k : Fin 256, lidx_main_v1 i k = ix2 (i 0) k := fun k =>
    funext fun a => match a with | ⟨0, _⟩ => rfl | ⟨1, _⟩ => rfl
  have hr : ∀ k : Fin 256, ridx_main_v1 i k = ix2 k (i 1) := fun k =>
    funext fun a => match a with | ⟨0, _⟩ => rfl | ⟨1, _⟩ => rfl
  have hb : idx_main_v2 (idx_main_v3 i) = ix1 (i 1) := funext fun a => match a with | ⟨0, _⟩ => rfl
  simp only [hl, hr, hb]
  rfl

/-! ## The aggregation -/

/-- The reference's gather / scale / scatter-add chain is the specification's aggregation of the hidden layer, the
    index pairs and the weights: the same operations on the same operands in the same order. -/
theorem chain_is_glue (x0 : (⟨S50000x256, .f32⟩ : BufTy).Contents (Elt Ideal))
    (x1 : (⟨S128x256, .f32⟩ : BufTy).Contents (Elt Ideal)) (x2 : (⟨S128, .f32⟩ : BufTy).Contents (Elt Ideal))
    (x5 : (⟨S2x800000, .i32⟩ : BufTy).Contents (Elt Ideal)) (x6 : (⟨S800000, .f32⟩ : BufTy).Contents (Elt Ideal)) :
    val_main_v22 (F := Ideal) x0 x1 x2 x5 x6
      = Cert.Spec.glue (F := Ideal) (val_main_v5 (F := Ideal) x0 x1 x2) x5 x6 := by
  unfold val_main_v22 val_main_v19 val_main_v17
  generalize val_main_v5 (F := Ideal) x0 x1 x2 = h
  rfl

/-! ## The norm -/

/-- The specification's result, with W1ᵀ written as the reference's own transpose of W1. -/
theorem out_unfold (x0 : (⟨S50000x256, .f32⟩ : BufTy).Contents (Elt Ideal))
    (x1 : (⟨S128x256, .f32⟩ : BufTy).Contents (Elt Ideal)) (x2 : (⟨S128, .f32⟩ : BufTy).Contents (Elt Ideal))
    (x3 : (⟨S1x128, .f32⟩ : BufTy).Contents (Elt Ideal)) (x4 : (⟨S1, .f32⟩ : BufTy).Contents (Elt Ideal))
    (x5 : (⟨S2x800000, .i32⟩ : BufTy).Contents (Elt Ideal)) (x6 : (⟨S800000, .f32⟩ : BufTy).Contents (Elt Ideal)) :
    Cert.Spec.out x0 x1 x2 x3 x4 x5 x6
      = Cert.Spec.result (Cert.Spec.glue (F := Ideal) (Cert.Spec.hid x0 (val_main_v0 (F := Ideal) x1) x2) x5 x6) x3 x4 := rfl

/-- One row of the reference's squared-sine column, read at an index j of the 50000 × 1 array: the square of the sine
    of the aggregated array's row contracted with W2ᵀ's column, plus the bias read through its two broadcasts. -/
theorem sq_entry (x0 : (⟨S50000x256, .f32⟩ : BufTy).Contents (Elt Ideal))
    (x1 : (⟨S128x256, .f32⟩ : BufTy).Contents (Elt Ideal)) (x2 : (⟨S128, .f32⟩ : BufTy).Contents (Elt Ideal))
    (x3 : (⟨S1x128, .f32⟩ : BufTy).Contents (Elt Ideal)) (x4 : (⟨S1, .f32⟩ : BufTy).Contents (Elt Ideal))
    (x5 : (⟨S2x800000, .i32⟩ : BufTy).Contents (Elt Ideal)) (x6 : (⟨S800000, .f32⟩ : BufTy).Contents (Elt Ideal))
    (j : S50000x1.Idx) :
    val_main_v29 (F := Ideal) x0 x1 x2 x3 x4 x5 x6 j
      = Ideal.sin ((∑ l : Fin 128, val_main_v22 (F := Ideal) x0 x1 x2 x5 x6 (lidx_main_v24 j l)
            * x3 (idx_main_v23 (ridx_main_v24 j l))) + x4 (idx_main_v25 (idx_main_v26 j)))
        * Ideal.sin ((∑ l : Fin 128, val_main_v22 (F := Ideal) x0 x1 x2 x5 x6 (lidx_main_v24 j l)
            * x3 (idx_main_v23 (ridx_main_v24 j l))) + x4 (idx_main_v25 (idx_main_v26 j))) := by
  rw [val_main_v29_apply, val_main_v28_apply, val_main_v27_apply, val_main_v24_apply, val_main_v26_apply,
    val_main_v25_apply]
  have hw : ∀ l : Fin 128, val_main_v23 (F := Ideal) x3 (ridx_main_v24 j l) = x3 (idx_main_v23 (ridx_main_v24 j l)) :=
    fun l => val_main_v23_apply x3 _
  simp only [hw]
  rw [Ideal.mulf_def, Ideal.hostUnary_sin_def, Ideal.addf_def]

/-- The reference's last stretch on an arbitrary aggregated array: the one entry of the result is the square root of
    the sum over the rows of the squared sine. The sum starts from the zero literal; row k's term contracts agg's
    row k with W2's only row (the transposed operand's column) and adds b2's only entry. -/
theorem tail_is_norm (agg : (⟨S50000x128, .f32⟩ : BufTy).Contents (Elt Ideal))
    (w2 : (⟨S1x128, .f32⟩ : BufTy).Contents (Elt Ideal)) (b2 : (⟨S1, .f32⟩ : BufTy).Contents (Elt Ideal)) (i : S1.Idx) :
    Ideal.sqrt (Ideal.ofBits .f32 0x00000000#32 + ∑ k : Fin 50000,
        Ideal.sin ((∑ l : Fin 128, agg (lidx_main_v24 (idx_main_v30 i k) l)
            * w2 (idx_main_v23 (ridx_main_v24 (idx_main_v30 i k) l))) + b2 (idx_main_v25 (idx_main_v26 (idx_main_v30 i k))))
          * Ideal.sin ((∑ l : Fin 128, agg (lidx_main_v24 (idx_main_v30 i k) l)
            * w2 (idx_main_v23 (ridx_main_v24 (idx_main_v30 i k) l))) + b2 (idx_main_v25 (idx_main_v26 (idx_main_v30 i k)))))
      = Cert.Spec.result agg w2 b2 i := by
  have hi : i = ix1 (0 : Fin 1) := (eq_ix1 i).trans (congrArg ix1 (Subsingleton.elim (α := Fin 1) _ _))
  subst hi
  have h1 : ∀ (k : Fin 50000) (l : Fin 128), lidx_main_v24 (idx_main_v30 (ix1 (0 : Fin 1)) k) l = ix2 k l := fun k l =>
    funext fun a => match a with | ⟨0, _⟩ => rfl | ⟨1, _⟩ => rfl
  have h2 : ∀ (k : Fin 50000) (l : Fin 128),
      idx_main_v23 (ridx_main_v24 (idx_main_v30 (ix1 (0 : Fin 1)) k) l) = ix2 (0 : Fin 1) l := fun k l =>
    funext fun a => match a with | ⟨0, _⟩ => rfl | ⟨1, _⟩ => rfl
  have h3 : ∀ k : Fin 50000, idx_main_v25 (idx_main_v26 (idx_main_v30 (ix1 (0 : Fin 1)) k)) = ix1 (0 : Fin 1) := fun k =>
    funext fun a => match a with | ⟨0, _⟩ => rfl
  simp only [h1, h2, h3]
  rw [Ideal.ofBits_zero_f32, zero_add]
  rfl

/-- The reference's staged result is the specification's, as arrays of one entry. -/
theorem stage_is_spec (x0 : (⟨S50000x256, .f32⟩ : BufTy).Contents (Elt Ideal))
    (x1 : (⟨S128x256, .f32⟩ : BufTy).Contents (Elt Ideal)) (x2 : (⟨S128, .f32⟩ : BufTy).Contents (Elt Ideal))
    (x3 : (⟨S1x128, .f32⟩ : BufTy).Contents (Elt Ideal)) (x4 : (⟨S1, .f32⟩ : BufTy).Contents (Elt Ideal))
    (x5 : (⟨S2x800000, .i32⟩ : BufTy).Contents (Elt Ideal)) (x6 : (⟨S800000, .f32⟩ : BufTy).Contents (Elt Ideal)) :
    val_main_v31 (F := Ideal) x0 x1 x2 x3 x4 x5 x6 = Cert.Spec.out x0 x1 x2 x3 x4 x5 x6 := by
  funext i
  rw [out_unfold, val_main_v31_apply, val_main_v30_apply, val_main_cst_1_apply,
    Finset.sum_congr rfl (fun k _ => sq_entry x0 x1 x2 x3 x4 x5 x6 (idx_main_v30 i k)),
    chain_is_glue, hidden_is_hid, Ideal.hostUnary_sqrt_def, Ideal.ofBits_def]
  generalize Cert.Spec.glue (F := Ideal) (Cert.Spec.hid x0 (val_main_v0 (F := Ideal) x1) x2) x5 x6 = agg
  exact tail_is_norm agg x3 x4 i

/-- The reference's result buffer holds the specification of its seven argument buffers. -/
theorem ref_is_spec (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v31 (F := Ideal) m c
      = Cert.Spec.out (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) :=
  (val_main_v31_eq (F := Ideal) m c).trans (stage_is_spec _ _ _ _ _ _ _)

end Cert.RefSide

end
-- ==== Proof.lean ====
/-
  The certificate of a two-stage graph layer with a norm: h = sin(x · W1ᵀ + b1); agg = the edge-weighted
  scatter-add of gathered rows of h; result = sqrt(Σ_r sin(agg_r · W2 + b2)²).

  The kernel computes the two dense stages on ten-point grids of 5000 rows each (the second accumulating its blocks'
  sums of squares in a one-entry scratch and taking the root at the last point) with the aggregation between them
  as host operations; the reference computes everything as whole-array host operations. Over the extended reals the
  two agree: a change of float format is the identity, a matrix product into a zero accumulator is the plain sum of
  products, a row-wise product-and-sum against W2 is the product with W2ᵀ, the aggregation is the same chain of
  operations on equal arrays, and a sum accumulated block by block from zero is the sum over all rows (sums of
  extended reals regroup freely; no finiteness is used).

  Frames: both printed kernels run as five stretches (host, dense stage, host, dense stage, host) and no stretch
  writes an argument; the reference is a straight line of host operations. The idealization rewrote nothing.
-/
import proofs.«109729_j48069273977167_1_alg».proof.Defs
import proofs.«109729_j48069273977167_1_alg».proof.Proof.Gen.Kernel
import proofs.«109729_j48069273977167_1_alg».proof.Proof.Gen.Kernel.Skeleton
import proofs.«109729_j48069273977167_1_alg».proof.Proof.Gen.Kernel.Launch
import proofs.«109729_j48069273977167_1_alg».proof.Proof.Gen.Kernel.Regions
import proofs.«109729_j48069273977167_1_alg».proof.Proof.Gen.Kernel.Points
import proofs.«109729_j48069273977167_1_alg».proof.Proof.Gen.KernelIdeal
import proofs.«109729_j48069273977167_1_alg».proof.Proof.Gen.KernelIdeal.Skeleton
import proofs.«109729_j48069273977167_1_alg».proof.Proof.Gen.KernelIdeal.Launch
import proofs.«109729_j48069273977167_1_alg».proof.Proof.Gen.KernelIdeal.Regions
import proofs.«109729_j48069273977167_1_alg».proof.Proof.Gen.KernelIdeal.Points
import proofs.«109729_j48069273977167_1_alg».proof.Proof.Gen.ReferenceIdeal
import proofs.«109729_j48069273977167_1_alg».proof.Proof.Gen.ReferenceIdeal.Run
import proofs.«109729_j48069273977167_1_alg».proof.Proof.Gen.ReferenceIdeal.Read
import proofs.«109729_j48069273977167_1_alg».proof.Proof.Gen.Pre_finite_inputs
import proofs.«109729_j48069273977167_1_alg».proof.Proof.KB.Whole
import proofs.«109729_j48069273977167_1_alg».proof.Proof.KI.Whole
import proofs.«109729_j48069273977167_1_alg».proof.Proof.KI.Value
import proofs.«109729_j48069273977167_1_alg».proof.Proof.RefIsSpec
import Idealize.ShloMosaic.Adequacy
import Idealize.ShloMosaic.Init

noncomputable section

namespace Cert.Proof

open Idealize.ShloMosaic Idealize.SL.Sem

/-- The word-level kernel runs to the end, faults nowhere and leaves its arguments as launched. -/
theorem frame_kernel : Cert.frame_Kernel := fun m ρ _ => Cert.Kernel.Fr.frame m ρ

/-- So does its idealization. -/
theorem frame_kernel_ideal : Cert.frame_KernelIdeal := fun m ρ _ => Cert.KernelIdeal.Fr.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the specification's value of those arguments. -/
theorem algebraic : Cert.algebraic_KernelIdeal_ReferenceIdeal := by
  intro m ρ m' ρ' _ hagree
  refine ⟨_, Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [Cert.RefSide.ref_is_spec m' c, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
